-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S8192x1024 : Shape := ⟨2, ![8192, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S8192x1 : Shape := ⟨2, ![8192, 1]⟩
abbrev S1 : Shape := ⟨1, ![1]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_
  bcast_S_S8192x1 : S_.BroadcastsInDim S8192x1 (![] : Fin 0 → Fin S8192x1.rank)
  reducesTo_S8192x1_S_d0_1 : S8192x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S8192x1 .f32) (main_v50 : FVec F S8192x1 .f32) : IVec S_ 1 :=
  let main_v51 : IVec S8192x1 1 := cmpf .olt main_v49 main_v50
  let main_c_19 : IVec S_ 1 := constantI S_ 1 1#1
  let main_v52 : IVec S_ 1 := (fun x v => Host.reduce IntOp.andi x v reducesTo_S8192x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S4096 .f32) (main_arg8 : FVec F S4096x1024 .f32) (main_arg9 : FVec F S1024 .f32) (main_arg10 : FVec F S8192x1 .f32) (main_arg11 : FVec F S1 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096x1024 .f32 := Host.absf main_arg8
  let main_cst_14 : FVec F S_ .f32 := constant S_ .f32 0x7F800000#32
  let main_v40 : FVec F S4096x1024 .f32 := broadcastInDim S4096x1024 ![] bcast_S_S4096x1024 main_cst_14
  let main_v41 : IVec S4096x1024 1 := cmpf .olt main_v39 main_v40
  let main_c_15 : IVec S_ 1 := constantI S_ 1 1#1
  let main_v42 : IVec S_ 1 := (fun x v => Host.reduce IntOp.andi x v reducesTo_S4096x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S8192x1 .f32 := Host.absf main_arg10
  let main_cst_18 : FVec F S_ .f32 := constant S_ .f32 0x7F800000#32
  let main_v50 : FVec F S8192x1 .f32 := broadcastInDim S8192x1 ![] bcast_S_S8192x1 main_cst_18
  fn_part3 (F := F) main_arg11 main_v48 main_v49 main_v50

def fn_part1 {F : FTy → Type} [FloatOps F] (main_arg4 : FVec F S4096x1024 .f32) (main_arg5 : FVec F S1024 .f32) (main_arg6 : FVec F S1024x4096 .f32) (main_arg7 : FVec F S4096 .f32) (main_arg8 : FVec F S4096x1024 .f32) (main_arg9 : FVec F S1024 .f32) (main_arg10 : FVec F S8192x1 .f32) (main_arg11 : FVec F S1 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x4096 .f32 := Host.absf main_arg6
  let main_cst_10 : FVec F S_ .f32 := constant S_ .f32 0x7F800000#32
  let main_v30 : FVec F S1024x4096 .f32 := broadcastInDim S1024x4096 ![] bcast_S_S1024x4096 main_cst_10
  let main_v31 : IVec S1024x4096 1 := cmpf .olt main_v29 main_v30
  let main_c_11 : IVec S_ 1 := constantI S_ 1 1#1
  let main_v32 : IVec S_ 1 := (fun x v => Host.reduce IntOp.andi x v reducesTo_S1024x4096_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S2048x1024 .f32) (main_arg1 : FVec F S8192x1024 .f32) (main_arg2 : FVec F S1024x4096 .f32) (main_arg3 : FVec F S4096 .f32) (main_arg4 : FVec F S4096x1024 .f32) (main_arg5 : FVec F S1024 .f32) (main_arg6 : FVec F S1024x4096 .f32) (main_arg7 : FVec F S4096 .f32) (main_arg8 : FVec F S4096x1024 .f32) (main_arg9 : FVec F S1024 .f32) (main_arg10 : FVec F S8192x1 .f32) (main_arg11 : FVec F S1 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_arg9 main_arg10 main_arg11 main_v13 main_v16
-- ==== Kernel.lean ====
abbrev S2048x1024 : Shape := ⟨2, ![2048, 1024]⟩
abbrev S8192x1024 : Shape := ⟨2, ![8192, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S8192x1 : Shape := ⟨2, ![8192, 1]⟩
abbrev S1 : Shape := ⟨1, ![1]⟩
abbrev S1x4096 : Shape := ⟨2, ![1, 4096]⟩
abbrev S1x1024 : Shape := ⟨2, ![1, 1024]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S1x8192 : Shape := ⟨2, ![1, 8192]⟩
abbrev S1x1 : Shape := ⟨2, ![1, 1]⟩
abbrev S2048x8192 : Shape := ⟨2, ![2048, 8192]⟩
abbrev S2048x1 : Shape := ⟨2, ![2048, 1]⟩
abbrev S512x1024 : Shape := ⟨2, ![512, 1024]⟩
abbrev S1x2048 : Shape := ⟨2, ![1, 2048]⟩
abbrev S512x2048 : Shape := ⟨2, ![512, 2048]⟩
abbrev S512x1 : Shape := ⟨2, ![512, 1]⟩
abbrev S1024x2048 : Shape := ⟨2, ![1024, 2048]⟩
abbrev S512 : Shape := ⟨1, ![512]⟩

abbrev nBuf : Space → Nat
  | .hbm => 28
  | .vmem => 28
  | .smem => 0
  | _ => 0

abbrev bufTy : (tb : Table) → Fin (tcTables nBuf tb) → BufTy
  | .hbm, ⟨0, _⟩ => ⟨S2048x1024, .f32⟩
  | .hbm, ⟨1, _⟩ => ⟨S8192x1024, .f32⟩
  | .hbm, ⟨2, _⟩ => ⟨S1024x4096, .f32⟩
  | .hbm, ⟨3, _⟩ => ⟨S4096, .f32⟩
  | .hbm, ⟨4, _⟩ => ⟨S4096x1024, .f32⟩
  | .hbm, ⟨5, _⟩ => ⟨S1024, .f32⟩
  | .hbm, ⟨6, _⟩ => ⟨S1024x4096, .f32⟩
  | .hbm, ⟨7, _⟩ => ⟨S4096, .f32⟩
  | .hbm, ⟨8, _⟩ => ⟨S4096x1024, .f32⟩
  | .hbm, ⟨9, _⟩ => ⟨S1024, .f32⟩
  | .hbm, ⟨10, _⟩ => ⟨S8192x1, .f32⟩
  | .hbm, ⟨11, _⟩ => ⟨S1, .f32⟩
  | .hbm, ⟨12, _⟩ => ⟨S2048x1024, .bf16⟩
  | .hbm, ⟨13, _⟩ => ⟨S1024x4096, .bf16⟩
  | .hbm, ⟨14, _⟩ => ⟨S4096x1024, .bf16⟩
  | .hbm, ⟨15, _⟩ => ⟨S1x4096, .f32⟩
  | .hbm, ⟨16, _⟩ => ⟨S1x1024, .f32⟩
  | .hbm, ⟨17, _⟩ => ⟨S2048x1024, .bf16⟩
  | .hbm, ⟨18, _⟩ => ⟨S8192x1024, .bf16⟩
  | .hbm, ⟨19, _⟩ => ⟨S1024x4096, .bf16⟩
  | .hbm, ⟨20, _⟩ => ⟨S4096x1024, .bf16⟩
  | .hbm, ⟨21, _⟩ => ⟨S1x4096, .f32⟩
  | .hbm, ⟨22, _⟩ => ⟨S1x1024, .f32⟩
  | .hbm, ⟨23, _⟩ => ⟨S8192x1024, .bf16⟩
  | .hbm, ⟨24, _⟩ => ⟨S1x8192, .f32⟩
  | .hbm, ⟨25, _⟩ => ⟨S1x1, .f32⟩
  | .hbm, ⟨26, _⟩ => ⟨S2048x8192, .f32⟩
  | .hbm, ⟨27, _⟩ => ⟨S2048x1, .f32⟩
  | .local _ .vmem, ⟨0, _⟩ => ⟨S256x1024, .bf16⟩
  | .local _ .vmem, ⟨1, _⟩ => ⟨S256x1024, .bf16⟩
  | .local _ .vmem, ⟨2, _⟩ => ⟨S1024x4096, .bf16⟩
  | .local _ .vmem, ⟨3, _⟩ => ⟨S1x4096, .f32⟩
  | .local _ .vmem, ⟨4, _⟩ => ⟨S4096x1024, .bf16⟩
  | .local _ .vmem, ⟨5, _⟩ => ⟨S1x1024, .f32⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S1024x4096, .bf16⟩
  | .local _ .vmem, ⟨11, _⟩ => ⟨S1x4096, .f32⟩
  | .local _ .vmem, ⟨12, _⟩ => ⟨S4096x1024, .bf16⟩
  | .local _ .vmem, ⟨13, _⟩ => ⟨S1x1024, .f32⟩
  | .local _ .vmem, ⟨14, _⟩ => ⟨S256x1024, .bf16⟩
  | .local _ .vmem, ⟨15, _⟩ => ⟨S256x1024, .bf16⟩
  | .local _ .vmem, ⟨16, _⟩ => ⟨S512x1024, .bf16⟩
  | .local _ .vmem, ⟨17, _⟩ => ⟨S512x1024, .bf16⟩
  | .local _ .vmem, ⟨18, _⟩ => ⟨S2048x1024, .bf16⟩
  | .local _ .vmem, ⟨19, _⟩ => ⟨S2048x1024, .bf16⟩
  | .local _ .vmem, ⟨20, _⟩ => ⟨S1x2048, .f32⟩
  | .local _ .vmem, ⟨21, _⟩ => ⟨S1x2048, .f32⟩
  | .local _ .vmem, ⟨22, _⟩ => ⟨S1x1, .f32⟩
  | .local _ .vmem, ⟨23, _⟩ => ⟨S512x2048, .f32⟩
  | .local _ .vmem, ⟨24, _⟩ => ⟨S512x2048, .f32⟩
  | .local _ .vmem, ⟨25, _⟩ => ⟨S512x1, .f32⟩
  | .local _ .vmem, ⟨26, _⟩ => ⟨S512x1, .f32⟩
  | .local _ .vmem, ⟨27, _⟩ => ⟨S512x1, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14_0 : Ref sig .tc := ⟨.hbm, 26, rfl⟩
abbrev main_v14_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg4_1 : Ref sig .tc := ⟨.vmem, 24, rfl⟩
abbrev cc2_stg5_0 : Ref sig .tc := ⟨.vmem, 25, rfl⟩
abbrev cc2_stg5_1 : Ref sig .tc := ⟨.vmem, 26, rfl⟩
abbrev cc2_scratch0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem4_1 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4096x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![4, 4], ![false, false]⟩

def k2_cond2 (i : grid2.Coords) : BitVec 1 :=
  let arg1 : BitVec 32 := BitVec.ofNat 32 (i 1).val
  let c3_i32 : BitVec 32 := 3#32
  let v25 : BitVec 1 := Scalar.cmpi .eq arg1 c3_i32
  let v26 : BitVec 32 := Scalar.extui v25
  let c0_i32_15 : BitVec 32 := 0#32
  let v27 : BitVec 1 := Scalar.cmpi .ne v26 c0_i32_15
  v27

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S512x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S512x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

class Facts₀ : Prop where
  bitsLt_bf16_f32 : FTy.bits .bf16 < FTy.bits .f32
  shapeCasts_S4096_S1x4096 : S4096.ShapeCasts S1x4096
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  reduces_S256x1024_S256 : S256x1024.Reduces [1] S256
  shapeCasts_S256_S256x1 : S256.ShapeCasts S256x1
  broadcasts_S256x1_S256x1024 : S256x1.Broadcasts S256x1024
  packedbf16_S256x1024_S256x1024_0_0 : (Rect.unit (s := S256x1024) ![0, 0] S256x1024.size inb_S256x1024_S256x1024_0_0).PackedRows (EltTy.packing .bf16)
  shapeCasts_S8192x1_S1x8192 : S8192x1.ShapeCasts S1x8192
  shapeCasts_S1_S1x1 : S1.ShapeCasts S1x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  transposes_S2048x1024_p1_0_S1024x2048 : S2048x1024.Transposes [1, 0] S1024x2048
  inb_S512x2048_S512x2048_0_0 : ∀ a, (![0, 0] : Fin 2 → Nat) a + S512x2048.size a ≤ S512x2048.size a
  h_S512x2048 : 0 < S512x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  reduces_S512x2048_S512 : S512x2048.Reduces [1] S512
  shapeCasts_S512_S512x1 : S512.ShapeCasts S512x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  dot_S256x1024_S1024x4096_S256x4096_1_0_0_1_n_n_wf : DotDims.WF S256x1024 S1024x4096 S256x4096 [1] [0] [0] [1] [] []
  dot_S256x4096_S4096x1024_S256x1024_1_0_0_1_n_n_wf : DotDims.WF S256x4096 S4096x1024 S256x1024 [1] [0] [0] [1] [] []
  dot_S512x1024_S1024x2048_S512x2048_1_0_0_1_n_n_wf : DotDims.WF S512x1024 S1024x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S2048x1024.size a
  hwx0_0 : ∀ i : grid0.Coords, EltTy.bits .bf16 = 32 ∨ (Rect.block (s := S2048x1024) S256x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S2048x1024.size a
  hwx0_5 : ∀ i : grid0.Coords, EltTy.bits .bf16 = 32 ∨ (Rect.block (s := S2048x1024) S256x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S8192x1024.size a
  hwx1_0 : ∀ i : grid1.Coords, EltTy.bits .bf16 = 32 ∨ (Rect.block (s := S8192x1024) S256x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x4096.size a ≤ S1024x4096.size a
  hwx1_1 : ∀ i : grid1.Coords, EltTy.bits .bf16 = 32 ∨ (Rect.block (s := S1024x4096) S1024x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x1024.size a ≤ S4096x1024.size a
  hwx1_3 : ∀ i : grid1.Coords, EltTy.bits .bf16 = 32 ∨ (Rect.block (s := S4096x1024) S4096x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x1024.size a ≤ S8192x1024.size a
  hwx1_5 : ∀ i : grid1.Coords, EltTy.bits .bf16 = 32 ∨ (Rect.block (s := S8192x1024) S256x1024.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S2048x1024.size a
  hwx2_0 : ∀ i : grid2.Coords, EltTy.bits .bf16 = 32 ∨ (Rect.block (s := S2048x1024) S512x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x1024.size a ≤ S8192x1024.size a
  hwx2_1 : ∀ i : grid2.Coords, EltTy.bits .bf16 = 32 ∨ (Rect.block (s := S8192x1024) S2048x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x8192.size a
  hwx2_2 : ∀ i : grid2.Coords, EltTy.bits .f32 = 32 ∨ (Rect.block (s := S1x8192) S1x2048.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x2048.size a ≤ S2048x8192.size a
  hwx2_4 : ∀ i : grid2.Coords, EltTy.bits .f32 = 32 ∨ (Rect.block (s := S2048x8192) S512x2048.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x1.size a ≤ S2048x1.size a
  hwx2_5 : ∀ i : grid2.Coords, EltTy.bits .f32 = 32 ∨ (Rect.block (s := S2048x1) S512x1.size (cc2_transform_5 i) (hinb2_5 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v6) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1024x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S4096x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S256x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v5) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S2048x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S1x2048.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v13) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v14_0) S512x2048.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v14_1) S512x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S2048x1024 : Shape := ⟨2, ![2048, 1024]⟩
abbrev S8192x1024 : Shape := ⟨2, ![8192, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S8192x1 : Shape := ⟨2, ![8192, 1]⟩
abbrev S1 : Shape := ⟨1, ![1]⟩
abbrev S2048x4096 : Shape := ⟨2, ![2048, 4096]⟩
abbrev S1x4096 : Shape := ⟨2, ![1, 4096]⟩
abbrev S_ : Shape := ⟨0, ![]⟩
abbrev S1x1024 : Shape := ⟨2, ![1, 1024]⟩
abbrev S8192x4096 : Shape := ⟨2, ![8192, 4096]⟩
abbrev S2048 : Shape := ⟨1, ![2048]⟩
abbrev S2048x1 : Shape := ⟨2, ![2048, 1]⟩
abbrev S8192 : Shape := ⟨1, ![8192]⟩
abbrev S1024x8192 : Shape := ⟨2, ![1024, 8192]⟩
abbrev S2048x8192 : Shape := ⟨2, ![2048, 8192]⟩
abbrev S1x1 : Shape := ⟨2, ![1, 1]⟩

abbrev nBuf : Space → Nat
  | .hbm => 74
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S8192x1024, .f32⟩
  | .hbm, ⟨2, _⟩ => ⟨S1024x4096, .f32⟩
  | .hbm, ⟨3, _⟩ => ⟨S4096, .f32⟩
  | .hbm, ⟨4, _⟩ => ⟨S4096x1024, .f32⟩
  | .hbm, ⟨5, _⟩ => ⟨S1024, .f32⟩
  | .hbm, ⟨6, _⟩ => ⟨S1024x4096, .f32⟩
  | .hbm, ⟨7, _⟩ => ⟨S4096, .f32⟩
  | .hbm, ⟨8, _⟩ => ⟨S4096x1024, .f32⟩
  | .hbm, ⟨9, _⟩ => ⟨S1024, .f32⟩
  | .hbm, ⟨10, _⟩ => ⟨S8192x1, .f32⟩
  | .hbm, ⟨11, _⟩ => ⟨S1, .f32⟩
  | .hbm, ⟨12, _⟩ => ⟨S2048x4096, .f32⟩
  | .hbm, ⟨13, _⟩ => ⟨S1x4096, .f32⟩
  | .hbm, ⟨14, _⟩ => ⟨S2048x4096, .f32⟩
  | .hbm, ⟨15, _⟩ => ⟨S2048x4096, .f32⟩
  | .hbm, ⟨16, _⟩ => ⟨S_, .f32⟩
  | .hbm, ⟨17, _⟩ => ⟨S2048x4096, .f32⟩
  | .hbm, ⟨18, _⟩ => ⟨S2048x4096, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S8192x4096, .f32⟩
  | .hbm, ⟨24, _⟩ => ⟨S1x4096, .f32⟩
  | .hbm, ⟨25, _⟩ => ⟨S8192x4096, .f32⟩
  | .hbm, ⟨26, _⟩ => ⟨S8192x4096, .f32⟩
  | .hbm, ⟨27, _⟩ => ⟨S_, .f32⟩
  | .hbm, ⟨28, _⟩ => ⟨S8192x4096, .f32⟩
  | .hbm, ⟨29, _⟩ => ⟨S8192x4096, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S2048x1024, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S2048x1024, .f32⟩
  | .hbm, ⟨43, _⟩ => ⟨S2048x1024, .f32⟩
  | .hbm, ⟨44, _⟩ => ⟨S8192x1024, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S8192x1024, .f32⟩
  | .hbm, ⟨53, _⟩ => ⟨S8192x1024, .f32⟩
  | .hbm, ⟨54, _⟩ => ⟨S1024x8192, .f32⟩
  | .hbm, ⟨55, _⟩ => ⟨S2048x8192, .f32⟩
  | .hbm, ⟨56, _⟩ => ⟨S_, .f32⟩
  | .hbm, ⟨57, _⟩ => ⟨S2048x8192, .f32⟩
  | .hbm, ⟨58, _⟩ => ⟨S2048x8192, .f32⟩
  | .hbm, ⟨59, _⟩ => ⟨S_, .f32⟩
  | .hbm, ⟨60, _⟩ => ⟨S2048x8192, .f32⟩
  | .hbm, ⟨61, _⟩ => ⟨S2048x8192, .f32⟩
  | .hbm, ⟨62, _⟩ => ⟨S2048x1, .f32⟩
  | .hbm, ⟨63, _⟩ => ⟨S1x1, .f32⟩
  | .hbm, ⟨64, _⟩ => ⟨S2048x1, .f32⟩
  | .hbm, ⟨65, _⟩ => ⟨S2048x1, .f32⟩
  | .hbm, ⟨66, _⟩ => ⟨S2048x1, .f32⟩
  | .hbm, ⟨67, _⟩ => ⟨S2048x1, .f32⟩
  | .hbm, ⟨68, _⟩ => ⟨S_, .f32⟩
  | .hbm, ⟨69, _⟩ => ⟨S2048x1, .f32⟩
  | .hbm, ⟨70, _⟩ => ⟨S2048x1, .f32⟩
  | .hbm, ⟨71, _⟩ => ⟨S_, .f32⟩
  | .hbm, ⟨72, _⟩ => ⟨S2048x1, .f32⟩
  | .hbm, ⟨73, _⟩ => ⟨S2048x1, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_cst : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_call1_cst : Ref sig .tc := ⟨.hbm, 27, rfl⟩
abbrev main_call1_v0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_call2_v0 : Ref sig .tc := ⟨.hbm, 34, rfl⟩
abbrev main_call2_cst : Ref sig .tc := ⟨.hbm, 35, rfl⟩
abbrev main_call2_v1 : Ref sig .tc := ⟨.hbm, 36, rfl⟩
abbrev main_call2_v2 : Ref sig .tc := ⟨.hbm, 37, rfl⟩
abbrev main_v18 : Ref sig .tc := ⟨.hbm, 38, rfl⟩
abbrev main_cst : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_call3_v0 : Ref sig .tc := ⟨.hbm, 44, rfl⟩
abbrev main_call3_cst : Ref sig .tc := ⟨.hbm, 45, rfl⟩
abbrev main_call3_v1 : Ref sig .tc := ⟨.hbm, 46, rfl⟩
abbrev main_call3_v2 : Ref sig .tc := ⟨.hbm, 47, rfl⟩
abbrev main_v23 : Ref sig .tc := ⟨.hbm, 48, rfl⟩
abbrev main_cst_0 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_1 : Ref sig .tc := ⟨.hbm, 56, rfl⟩
abbrev main_v30 : Ref sig .tc := ⟨.hbm, 57, rfl⟩
abbrev main_v31 : Ref sig .tc := ⟨.hbm, 58, rfl⟩
abbrev main_cst_2 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_3 : Ref sig .tc := ⟨.hbm, 68, rfl⟩
abbrev main_v40 : Ref sig .tc := ⟨.hbm, 69, rfl⟩
abbrev main_v41 : Ref sig .tc := ⟨.hbm, 70, rfl⟩
abbrev main_cst_4 : Ref sig .tc := ⟨.hbm, 71, rfl⟩
abbrev main_v42 : Ref sig .tc := ⟨.hbm, 72, rfl⟩
abbrev main_v43 : Ref sig .tc := ⟨.hbm, 73, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  bcast_S_S2048x4096 : S_.BroadcastsInDim S2048x4096 (![] : Fin 0 → Fin S2048x4096.rank)
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  bcast_S1x1024_S8192x1024_0_1 : S1x1024.BroadcastsInDim S8192x1024 (![0, 1] : Fin 2 → Fin S8192x1024.rank)
  reducesTo_S2048x1024_S2048_d1 : S2048x1024.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x1024_0_1 : S2048x1.BroadcastsInDim S2048x1024 (![0, 1] : Fin 2 → Fin S2048x1024.rank)
  reducesTo_S8192x1024_S8192_d1 : S8192x1024.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  transposes_S8192x1024_S1024x8192_1_0 : S8192x1024.Transposes [1, 0] S1024x8192
  bcast_S_S2048x8192 : S_.BroadcastsInDim S2048x8192 (![] : Fin 0 → Fin S2048x8192.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  dot_S2048x1024_S1024x4096_S2048x4096_1_0_0_1_n_n_wf : DotDims.WF S2048x1024 S1024x4096 S2048x4096 [1] [0] [0] [1] [] []
  dot_S2048x4096_S4096x1024_S2048x1024_1_0_0_1_n_n_wf : DotDims.WF S2048x4096 S4096x1024 S2048x1024 [1] [0] [0] [1] [] []
  dot_S8192x1024_S1024x4096_S8192x4096_1_0_0_1_n_n_wf : DotDims.WF S8192x1024 S1024x4096 S8192x4096 [1] [0] [0] [1] [] []
  dot_S8192x4096_S4096x1024_S8192x1024_1_0_0_1_n_n_wf : DotDims.WF S8192x4096 S4096x1024 S8192x1024 [1] [0] [0] [1] [] []
  dot_S2048x1024_S1024x8192_S2048x8192_1_0_0_1_n_n_wf : DotDims.WF S2048x1024 S1024x8192 S2048x8192 [1] [0] [0] [1] [] []
  dot_S2048x8192_S8192x1_S2048x1_1_0_0_1_n_n_wf : DotDims.WF S2048x8192 S8192x1 S2048x1 [1] [0] [0] [1] [] []

variable [Facts₀]

def dot_S2048x1024_S1024x4096_S2048x4096_1_0_0_1_n_n : DotDims S2048x1024 S1024x4096 S2048x4096 where
  lhsContracting := [1]
  rhsContracting := [0]
  lhsNonContracting := [0]
  rhsNonContracting := [1]
  lhsBatch := []
  rhsBatch := []
  wf := dot_S2048x1024_S1024x4096_S2048x4096_1_0_0_1_n_n_wf
def dot_S2048x4096_S4096x1024_S2048x1024_1_0_0_1_n_n : DotDims S2048x4096 S4096x1024 S2048x1024 where
  lhsContracting := [1]
  rhsContracting := [0]
  lhsNonContracting := [0]
  rhsNonContracting := [1]
  lhsBatch := []
  rhsBatch := []
  wf := dot_S2048x4096_S4096x1024_S2048x1024_1_0_0_1_n_n_wf
def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf
def dot_S8192x4096_S4096x1024_S8192x1024_1_0_0_1_n_n : DotDims S8192x4096 S4096x1024 S8192x1024 where
  lhsContracting := [1]
  rhsContracting := [0]
  lhsNonContracting := [0]
  rhsNonContracting := [1]
  lhsBatch := []
  rhsBatch := []
  wf := dot_S8192x4096_S4096x1024_S8192x1024_1_0_0_1_n_n_wf
def dot_S2048x1024_S1024x8192_S2048x8192_1_0_0_1_n_n : DotDims S2048x1024 S1024x8192 S2048x8192 where
  lhsContracting := [1]
  rhsContracting := [0]
  lhsNonContracting := [0]
  rhsNonContracting := [1]
  lhsBatch := []
  rhsBatch := []
  wf := dot_S2048x1024_S1024x8192_S2048x8192_1_0_0_1_n_n_wf
def dot_S2048x8192_S8192x1_S2048x1_1_0_0_1_n_n : DotDims S2048x8192 S8192x1 S2048x1 where
  lhsContracting := [1]
  rhsContracting := [0]
  lhsNonContracting := [0]
  rhsNonContracting := [1]
  lhsBatch := []
  rhsBatch := []
  wf := dot_S2048x8192_S8192x1_S2048x1_1_0_0_1_n_n_wf

class Facts : Prop extends Facts₀ where

variable [Facts]
-- ==== Proof.Kernel.Enc0.lean ====
/-
  The first encoder call (the message encoder): a grid of 8 points, each taking a block of 256 rows of the
  input, the two weight matrices and the two bias rows whole, and writing the block's 256 normalised rows.
  Stated at any contents `V` of the core's buffers when the call is entered: each window's block at a point, what the
  body leaves in every staging buffer (an input's block unchanged; the output block is the body's one stored value,
  a function of the five input blocks), and the per-point obligation of the pipeline rule.
-/
import proofs.«176400_j46969762349635_1_alg».proof.Proof.Gen.Kernel.Launch
import proofs.«176400_j46969762349635_1_alg».proof.Proof.Gen.Kernel.Skeleton
import proofs.«176400_j46969762349635_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The input windows' staging buffers hold their blocks -/

/-- An input window's current staging buffer holds the window's block at every point, fetched there or not, for any
    proof data whose array is the entry contents and whose body leaves the block in place: unfetched, the block index
    has not moved. Windows 0 to 4, one statement each. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store go through the whole-block rectangle at the origin -/

theorem hz0 : (![0, 0] : Fin 2 → Nat) = fun _ => 0 := funext fun a => by fin_cases a <;> rfl

abbrev r0_5 : Rect S256x1024 := Rect.unit (s := S256x1024) ![0, 0] S256x1024.size inb_S256x1024_S256x1024_0_0

/-- The one store covers the output block. -/
theorem cover0_5 (p : Vec F S256x1024 .bf16) (y : S256x1024.Idx) :
    ∃ pc ∈ ([⟨r0_5, p⟩] : List (View.Piece (Elt F) S256x1024 .bf16)), y ∈ pc.1.set :=
  ⟨_, List.mem_singleton_self _, View.mem_set_unit_zero hz0 inb_S256x1024_S256x1024_0_0 y⟩

/-! ## The body's triple -/

set_option maxHeartbeats 1000000 in
/-- The kernel body on whole staging memrefs, the five inputs' at read contents `x0 … x4` and the output's at anything,
    runs to the continuation holding the inputs' as they were and the output's at the stored value of the five inputs:
    each load through the whole-block rectangle reads the contents, and the one store through it, covering the block,
    leaves its value. -/
theorem sound_kernel0 (c : Dev nD) (E : Set ℕ) (i : grid0.Coords)
    (arg1 : Memref sig .tc .vmem S256x1024 .bf16) (harg1 : arg1.IsWhole)
    (arg2 : Memref sig .tc .vmem S1024x4096 .bf16) (harg2 : arg2.IsWhole)
    (arg3 : Memref sig .tc .vmem S1x4096 .f32) (harg3 : arg3.IsWhole)
    (arg4 : Memref sig .tc .vmem S4096x1024 .bf16) (harg4 : arg4.IsWhole)
    (arg5 : Memref sig .tc .vmem S1x1024 .f32) (harg5 : arg5.IsWhole)
    (arg6 : Memref sig .tc .vmem S256x1024 .bf16) (harg6 : arg6.IsWhole)
    (x0 : Vec F S256x1024 .bf16) (x1 : Vec F S1024x4096 .bf16) (x2 : Vec F S1x4096 .f32)
    (x3 : Vec F S4096x1024 .bf16) (x4 : Vec F S1x1024 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (k0_pay1 x0 x1 x2 x3 x4)) -∗ K ⟨⟩))
      ⊢ wp frame (wpE (defs₀ (F := F)) Variants.none c none) E
          (cc0__encode_kernel i arg1 harg1 arg2 harg2 arg3 harg3 arg4 harg4 arg5 harg5 arg6 harg6) K := by
  simp only [cc0__encode_kernel_eq_skeleton]; unfold cc0__encode_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover0_5 _), View.canon_unit_zero hz0]
  simp only [View.readAt_eq_ld]
  rw [View.ld_unit_zero (S := S256x1024) hz0, View.ld_unit_zero (S := S1024x4096) hz0,
    View.ld_unit_zero (S := S1x4096) hz0, View.ld_unit_zero (S := S4096x1024) hz0,
    View.ld_unit_zero (S := S1x1024) hz0]

/-! ## The call's proof data -/

/-- The call's proof data on core `c`: the arrays as found; after the body at point `t` every input buffer still at its
    block, the output buffer at the body's stored value of the five input blocks; the scoped rest and the generator
    register pass through; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay1 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = k0_pay1 (iblk0 V c 0 t) (iblk0 V c 1 t) (iblk0 V c 2 t) (iblk0 V c 3 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline rule's obligation at every point of the grid. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.Enc1.lean ====
/-
  The second encoder call (the candidate encoder): a grid of 32 points, each taking a block of 256 rows of the
  input, the two weight matrices and the two bias rows whole, and writing the block's 256 normalised rows.
  Stated at any contents `V` of the core's buffers when the call is entered: each window's block at a point, what the
  body leaves in every staging buffer (an input's block unchanged; the output block is the body's one stored value,
  a function of the five input blocks), and the per-point obligation of the pipeline rule.
-/
import proofs.«176400_j46969762349635_1_alg».proof.Proof.Gen.Kernel.Launch
import proofs.«176400_j46969762349635_1_alg».proof.Proof.Gen.Kernel.Skeleton
import proofs.«176400_j46969762349635_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The input windows' staging buffers hold their blocks -/

/-- An input window's current staging buffer holds the window's block at every point, fetched there or not, for any
    proof data whose array is the entry contents and whose body leaves the block in place: unfetched, the block index
    has not moved. Windows 0 to 4, one statement each. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store go through the whole-block rectangle at the origin -/

theorem hz1 : (![0, 0] : Fin 2 → Nat) = fun _ => 0 := funext fun a => by fin_cases a <;> rfl

abbrev r1_5 : Rect S256x1024 := Rect.unit (s := S256x1024) ![0, 0] S256x1024.size inb_S256x1024_S256x1024_0_0

/-- The one store covers the output block. -/
theorem cover1_5 (p : Vec F S256x1024 .bf16) (y : S256x1024.Idx) :
    ∃ pc ∈ ([⟨r1_5, p⟩] : List (View.Piece (Elt F) S256x1024 .bf16)), y ∈ pc.1.set :=
  ⟨_, List.mem_singleton_self _, View.mem_set_unit_zero hz1 inb_S256x1024_S256x1024_0_0 y⟩

/-! ## The body's triple -/

set_option maxHeartbeats 1000000 in
/-- The kernel body on whole staging memrefs, the five inputs' at read contents `x0 … x4` and the output's at anything,
    runs to the continuation holding the inputs' as they were and the output's at the stored value of the five inputs:
    each load through the whole-block rectangle reads the contents, and the one store through it, covering the block,
    leaves its value. -/
theorem sound_kernel1 (c : Dev nD) (E : Set ℕ) (i : grid1.Coords)
    (arg1 : Memref sig .tc .vmem S256x1024 .bf16) (harg1 : arg1.IsWhole)
    (arg2 : Memref sig .tc .vmem S1024x4096 .bf16) (harg2 : arg2.IsWhole)
    (arg3 : Memref sig .tc .vmem S1x4096 .f32) (harg3 : arg3.IsWhole)
    (arg4 : Memref sig .tc .vmem S4096x1024 .bf16) (harg4 : arg4.IsWhole)
    (arg5 : Memref sig .tc .vmem S1x1024 .f32) (harg5 : arg5.IsWhole)
    (arg6 : Memref sig .tc .vmem S256x1024 .bf16) (harg6 : arg6.IsWhole)
    (x0 : Vec F S256x1024 .bf16) (x1 : Vec F S1024x4096 .bf16) (x2 : Vec F S1x4096 .f32)
    (x3 : Vec F S4096x1024 .bf16) (x4 : Vec F S1x1024 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (k1_pay1 x0 x1 x2 x3 x4)) -∗ K ⟨⟩))
      ⊢ wp frame (wpE (defs₀ (F := F)) Variants.none c none) E
          (cc1__encode_kernel i arg1 harg1 arg2 harg2 arg3 harg3 arg4 harg4 arg5 harg5 arg6 harg6) K := by
  simp only [cc1__encode_kernel_eq_skeleton]; unfold cc1__encode_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover1_5 _), View.canon_unit_zero hz1]
  simp only [View.readAt_eq_ld]
  rw [View.ld_unit_zero (S := S256x1024) hz1, View.ld_unit_zero (S := S1024x4096) hz1,
    View.ld_unit_zero (S := S1x4096) hz1, View.ld_unit_zero (S := S4096x1024) hz1,
    View.ld_unit_zero (S := S1x1024) hz1]

/-! ## The call's proof data -/

/-- The call's proof data on core `c`: the arrays as found; after the body at point `t` every input buffer still at its
    block, the output buffer at the body's stored value of the five input blocks; the scoped rest and the generator
    register pass through; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay1 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = k1_pay1 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline rule's obligation at every point of the grid. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.Cos.lean ====
/-
  The third call (cosine similarity and the value head): a grid of 4 × 4 points (i, j), point number t = 4·i + j.
  At point (i, j) the body takes 512 rows of the normalised messages (block i), 2048 rows of the normalised
  candidates (block j), 2048 entries of the value weights (block j) and the value bias; it writes the 512 × 2048
  block (i, j) of the logits, and keeps in a scratch column of 512 entries the running sum over j of the row sums
  of logits × weights: reset to zero at j = 0, added to at every j, and at j = 3 passed with the bias through the
  logistic function into block i of the value column. Stated at any contents `V` of the core's buffers when the call
  is entered.
-/
import proofs.«176400_j46969762349635_1_alg».proof.Proof.Gen.Kernel.Launch
import proofs.«176400_j46969762349635_1_alg».proof.Proof.Gen.Kernel.Skeleton
import proofs.«176400_j46969762349635_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditionals, over the grid -/

/-- The condition of the body's first conditional (the inner coordinate is 0), from the grid coordinates. -/
abbrev cond2_0 (i : grid2.Coords) : Prop := (Scalar.cmpi .ne (Scalar.extui (Scalar.cmpi .eq (BitVec.ofNat 32 (i 1).val) 0#32)) 0#32) = 1#1
/-- It holds at the points ≡ 0 (mod 4). -/
theorem hcond2_0 : ∀ t : Fin cfg2.N, cond2_0 (grid2.coords t) ↔ t.val % 4 = 0 :=
  (by decide +kernel : ∀ t : Fin grid2.N, cond2_0 (grid2.coords t) ↔ t.val % 4 = 0)

/-- The condition of the body's second conditional (the inner coordinate is 3). -/
abbrev cond2_1 (i : grid2.Coords) : Prop := k2_cond2 i = 1#1
/-- It holds at the points ≡ 3 (mod 4). -/
theorem hcond2_1 : ∀ t : Fin cfg2.N, cond2_1 (grid2.coords t) ↔ t.val % 4 = 3 :=
  (by decide +kernel : ∀ t : Fin grid2.N, cond2_1 (grid2.coords t) ↔ t.val % 4 = 3)

/-! ## The body on whole buffers, case by case -/

/-- The offsets of every load and store of the body: both zero. -/
theorem zeroOffsets2 : (![0, 0] : Fin 2 → ℕ) = fun _ => 0 := funext fun a => by fin_cases a <;> rfl

/-- A buffer whose last store was through the whole rectangle reads as that store's payload, whatever the view,
    the earlier stores and the contents before them. -/
theorem read_last_store2 {sig' : RefSig} {κ : Kind} {sp : Space} {S : Shape} {e : EltTy} (v : View sig' κ sp S e)
    (f : v.ty.Contents (Elt F)) {off : Fin S.rank → ℕ} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

set_option maxHeartbeats 1000000 in
/-- The body at a point with inner coordinate 0, on whole buffers: the four inputs at their blocks, the logits buffer and
    the scratch column at anything, the value buffer at `xi5`. It leaves the inputs and the value buffer as they were, the
    logits buffer at the block of logits and the scratch column at the zero column plus the row sums. -/
theorem kernelRun2_A (c : Dev nD) (i : grid2.Coords)
    (arg2 : Memref sig .tc .vmem S512x1024 .bf16) (harg2 : arg2.IsWhole) (arg3 : Memref sig .tc .vmem S2048x1024 .bf16) (harg3 : arg3.IsWhole)
    (arg4 : Memref sig .tc .vmem S1x2048 .f32) (harg4 : arg4.IsWhole) (arg5 : Memref sig .tc .vmem S1x1 .f32) (harg5 : arg5.IsWhole)
    (arg6 : Memref sig .tc .vmem S512x2048 .f32) (harg6 : arg6.IsWhole) (arg7 : Memref sig .tc .vmem S512x1 .f32) (harg7 : arg7.IsWhole)
    (arg8 : Memref sig .tc .vmem S512x1 .f32) (harg8 : arg8.IsWhole) (hc0 : cond2_0 i) (hc1 : ¬cond2_1 i)
    (x0 : Vec F S512x1024 .bf16) (x1 : Vec F S2048x1024 .bf16) (x2 : Vec F S1x2048 .f32) (x3 : Vec F S1x1 .f32)
    (xi5 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xi5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k2_pay2 x0 x1) ∗ owns (c : Thread nD τ) arg7 fullShare xi5
            ∗ owns (c : Thread nD τ) arg8 fullShare (k2_pay3 x0 x1 x2 (k2_pay1 (F := F)))) -∗ K ⟨⟩))
      ⊢ wp frame (wpE (defs₀ (F := F)) Variants.none c none) E
          (cc2__cosine_value_kernel i arg2 harg2 arg3 harg3 arg4 harg4 arg5 harg5 arg6 harg6 arg7 harg7 arg8 harg8) K := by
  simp only [cc2__cosine_value_kernel_eq_skeleton]; unfold cc2__cosine_value_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds, %fs, -, HS⟩, Hk⟩
  obtain rfl := harg2.eq_unread hf0; obtain rfl := harg3.eq_unread hf1; obtain rfl := harg4.eq_unread hf2
  obtain rfl := harg5.eq_unread hf3; obtain rfl := harg7.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_run_names
    rw [read_last_store2 _ _ zeroOffsets2]
    simp only [View.readAt_eq_ld, harg2.read_unread, harg3.read_unread, harg4.read_unread, harg5.read_unread, harg8.read_unread,
    View.ld_unit_zero (S := S512x1024) zeroOffsets2, View.ld_unit_zero (S := S2048x1024) zeroOffsets2, View.ld_unit_zero (S := S1x2048) zeroOffsets2,
    View.ld_unit_zero (S := S1x1) zeroOffsets2, View.ld_unit_zero (S := S512x1) zeroOffsets2, View.readCov_unit_zero (S := S512x1) _ zeroOffsets2]
  isplitl [H5]
  · iexists _; isplitr; · ipureintro; exact harg7.read_unread _
    iexact H5
  iexists _; isplitr
  swap; · iexact HS
  ipureintro
  sl_unfold_run_names
  rw [read_last_store2 _ _ zeroOffsets2]
  simp only [View.readAt_eq_ld, harg2.read_unread, harg3.read_unread, harg4.read_unread, harg5.read_unread, harg8.read_unread,
    View.ld_unit_zero (S := S512x1024) zeroOffsets2, View.ld_unit_zero (S := S2048x1024) zeroOffsets2, View.ld_unit_zero (S := S1x2048) zeroOffsets2,
    View.ld_unit_zero (S := S1x1) zeroOffsets2, View.ld_unit_zero (S := S512x1) zeroOffsets2, View.readCov_unit_zero (S := S512x1) _ zeroOffsets2]

set_option maxHeartbeats 1000000 in
/-- The body at a point with inner coordinate 1 or 2, on whole buffers: the four inputs at their blocks, the logits buffer
    at anything, the value buffer at `xi5`, the scratch column at `xs`. It leaves the inputs and the value buffer as they
    were, the logits buffer at the block of logits and the scratch column at `xs` plus the row sums. -/
theorem kernelRun2_B (c : Dev nD) (i : grid2.Coords)
    (arg2 : Memref sig .tc .vmem S512x1024 .bf16) (harg2 : arg2.IsWhole) (arg3 : Memref sig .tc .vmem S2048x1024 .bf16) (harg3 : arg3.IsWhole)
    (arg4 : Memref sig .tc .vmem S1x2048 .f32) (harg4 : arg4.IsWhole) (arg5 : Memref sig .tc .vmem S1x1 .f32) (harg5 : arg5.IsWhole)
    (arg6 : Memref sig .tc .vmem S512x2048 .f32) (harg6 : arg6.IsWhole) (arg7 : Memref sig .tc .vmem S512x1 .f32) (harg7 : arg7.IsWhole)
    (arg8 : Memref sig .tc .vmem S512x1 .f32) (harg8 : arg8.IsWhole) (hc0 : ¬cond2_0 i) (hc1 : ¬cond2_1 i)
    (x0 : Vec F S512x1024 .bf16) (x1 : Vec F S2048x1024 .bf16) (x2 : Vec F S1x2048 .f32) (x3 : Vec F S1x1 .f32)
    (xi5 : Vec F S512x1 .f32) (xs : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xi5
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k2_pay2 x0 x1) ∗ owns (c : Thread nD τ) arg7 fullShare xi5
            ∗ owns (c : Thread nD τ) arg8 fullShare (k2_pay3 x0 x1 x2 xs)) -∗ K ⟨⟩))
      ⊢ wp frame (wpE (defs₀ (F := F)) Variants.none c none) E
          (cc2__cosine_value_kernel i arg2 harg2 arg3 harg3 arg4 harg4 arg5 harg5 arg6 harg6 arg7 harg7 arg8 harg8) K := by
  simp only [cc2__cosine_value_kernel_eq_skeleton]; unfold cc2__cosine_value_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hf5; obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_run_names
    rw [read_last_store2 _ _ zeroOffsets2]
    simp only [View.readAt_eq_ld, harg2.read_unread, harg3.read_unread, harg4.read_unread, harg5.read_unread, harg8.read_unread,
    View.ld_unit_zero (S := S512x1024) zeroOffsets2, View.ld_unit_zero (S := S2048x1024) zeroOffsets2, View.ld_unit_zero (S := S1x2048) zeroOffsets2,
    View.ld_unit_zero (S := S1x1) zeroOffsets2, View.ld_unit_zero (S := S512x1) zeroOffsets2, View.readCov_unit_zero (S := S512x1) _ zeroOffsets2]
  isplitl [H5]
  · iexists _; isplitr; · ipureintro; exact harg7.read_unread _
    iexact H5
  iexists _; isplitr
  swap; · iexact HS
  ipureintro
  sl_unfold_run_names
  rw [read_last_store2 _ _ zeroOffsets2]
  simp only [View.readAt_eq_ld, harg2.read_unread, harg3.read_unread, harg4.read_unread, harg5.read_unread, harg8.read_unread,
    View.ld_unit_zero (S := S512x1024) zeroOffsets2, View.ld_unit_zero (S := S2048x1024) zeroOffsets2, View.ld_unit_zero (S := S1x2048) zeroOffsets2,
    View.ld_unit_zero (S := S1x1) zeroOffsets2, View.ld_unit_zero (S := S512x1) zeroOffsets2, View.readCov_unit_zero (S := S512x1) _ zeroOffsets2]

set_option maxHeartbeats 1000000 in
/-- The body at a point with inner coordinate 3, on whole buffers: the four inputs at their blocks, the logits buffer and
    the value buffer at anything, the scratch column at `xs`. It leaves the inputs as they were, the logits buffer at the
    block of logits, the scratch column at `xs` plus the row sums, and the value buffer at the logistic of that sum plus
    the bias. -/
theorem kernelRun2_C (c : Dev nD) (i : grid2.Coords)
    (arg2 : Memref sig .tc .vmem S512x1024 .bf16) (harg2 : arg2.IsWhole) (arg3 : Memref sig .tc .vmem S2048x1024 .bf16) (harg3 : arg3.IsWhole)
    (arg4 : Memref sig .tc .vmem S1x2048 .f32) (harg4 : arg4.IsWhole) (arg5 : Memref sig .tc .vmem S1x1 .f32) (harg5 : arg5.IsWhole)
    (arg6 : Memref sig .tc .vmem S512x2048 .f32) (harg6 : arg6.IsWhole) (arg7 : Memref sig .tc .vmem S512x1 .f32) (harg7 : arg7.IsWhole)
    (arg8 : Memref sig .tc .vmem S512x1 .f32) (harg8 : arg8.IsWhole) (hc0 : ¬cond2_0 i) (hc1 : cond2_1 i)
    (x0 : Vec F S512x1024 .bf16) (x1 : Vec F S2048x1024 .bf16) (x2 : Vec F S1x2048 .f32) (x3 : Vec F S1x1 .f32)
    (xs : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k2_pay2 x0 x1) ∗ owns (c : Thread nD τ) arg7 fullShare (k2_pay4 (k2_pay3 x0 x1 x2 xs) x3)
            ∗ owns (c : Thread nD τ) arg8 fullShare (k2_pay3 x0 x1 x2 xs)) -∗ K ⟨⟩))
      ⊢ wp frame (wpE (defs₀ (F := F)) Variants.none c none) E
          (cc2__cosine_value_kernel i arg2 harg2 arg3 harg3 arg4 harg4 arg5 harg5 arg6 harg6 arg7 harg7 arg8 harg8) K := by
  simp only [cc2__cosine_value_kernel_eq_skeleton]; unfold cc2__cosine_value_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs, %hfs, HS⟩, Hk⟩
  obtain rfl := harg2.eq_unread hf0; obtain rfl := harg3.eq_unread hf1; obtain rfl := harg4.eq_unread hf2
  obtain rfl := harg5.eq_unread hf3; obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_run_names
    rw [read_last_store2 _ _ zeroOffsets2]
    simp only [View.readAt_eq_ld, harg2.read_unread, harg3.read_unread, harg4.read_unread, harg5.read_unread, harg8.read_unread,
    View.ld_unit_zero (S := S512x1024) zeroOffsets2, View.ld_unit_zero (S := S2048x1024) zeroOffsets2, View.ld_unit_zero (S := S1x2048) zeroOffsets2,
    View.ld_unit_zero (S := S1x1) zeroOffsets2, View.ld_unit_zero (S := S512x1) zeroOffsets2, View.readCov_unit_zero (S := S512x1) _ zeroOffsets2]
  isplitl [H5]
  · iexists _; isplitr
    swap; · iexact H5
    ipureintro
    sl_unfold_run_names
    rw [read_last_store2 _ _ zeroOffsets2]
    simp only [View.readAt_eq_ld, harg2.read_unread, harg3.read_unread, harg4.read_unread, harg5.read_unread, harg8.read_unread,
    View.ld_unit_zero (S := S512x1024) zeroOffsets2, View.ld_unit_zero (S := S2048x1024) zeroOffsets2, View.ld_unit_zero (S := S1x2048) zeroOffsets2,
    View.ld_unit_zero (S := S1x1) zeroOffsets2, View.ld_unit_zero (S := S512x1) zeroOffsets2, View.readCov_unit_zero (S := S512x1) _ zeroOffsets2]
  iexists _; isplitr
  swap; · iexact HS
  ipureintro
  sl_unfold_run_names
  rw [read_last_store2 _ _ zeroOffsets2]
  simp only [View.readAt_eq_ld, harg2.read_unread, harg3.read_unread, harg4.read_unread, harg5.read_unread, harg8.read_unread,
    View.ld_unit_zero (S := S512x1024) zeroOffsets2, View.ld_unit_zero (S := S2048x1024) zeroOffsets2, View.ld_unit_zero (S := S1x2048) zeroOffsets2,
    View.ld_unit_zero (S := S1x1) zeroOffsets2, View.ld_unit_zero (S := S512x1) zeroOffsets2, View.readCov_unit_zero (S := S512x1) _ zeroOffsets2]

variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The scratch column the body carries from point to point. -/
abbrev scM2 : Memref sig .tc .vmem S512x1 .f32 := Memref.whole cc2_scratch0

/-- THE RUNNING SUM. What the scratch column holds after the body at point `n`: at a point with j = 0 (n ≡ 0 mod 4)
    the zero column plus this point's row sums; at any other point what the point before left plus this point's
    row sums (`k2_pay3`: the last argument is the column added to). -/
def acc2 (c : Dev nD) : (n : ℕ) → n < cfg2.N → Vec F S512x1 .f32
  | 0, hn => k2_pay3 (iblk2 V c 0 ⟨0, hn⟩) (iblk2 V c 1 ⟨0, hn⟩) (iblk2 V c 2 ⟨0, hn⟩) (k2_pay1 (F := F))
  | n + 1, hn =>
    if (n + 1) % 4 = 0 then
      k2_pay3 (iblk2 V c 0 ⟨n + 1, hn⟩) (iblk2 V c 1 ⟨n + 1, hn⟩) (iblk2 V c 2 ⟨n + 1, hn⟩) (k2_pay1 (F := F))
    else
      k2_pay3 (iblk2 V c 0 ⟨n + 1, hn⟩) (iblk2 V c 1 ⟨n + 1, hn⟩) (iblk2 V c 2 ⟨n + 1, hn⟩) (acc2 c n (Nat.lt_of_succ_lt hn))

theorem acc2_reset (c : Dev nD) (t : Fin cfg2.N) (h : t.val % 4 = 0) :
    acc2 V c t.val t.isLt = k2_pay3 (iblk2 V c 0 t) (iblk2 V c 1 t) (iblk2 V c 2 t) (k2_pay1 (F := F)) := by
  obtain ⟨n, hn⟩ := t
  cases n with
  | zero => rfl
  | succ n => exact if_pos h

theorem acc2_step (c : Dev nD) (t : Fin cfg2.N) (h : ¬ t.val % 4 = 0) :
    acc2 V c t.val t.isLt = k2_pay3 (iblk2 V c 0 t) (iblk2 V c 1 t) (iblk2 V c 2 t)
      (acc2 V c (t.val - 1) (Nat.lt_of_le_of_lt (Nat.sub_le _ _) t.isLt)) := by
  obtain ⟨n, hn⟩ := t
  cases n with
  | zero => exact absurd (Nat.zero_mod _) h
  | succ n => exact if_neg h

/-- The core's scoped buffers other than this call's staging buffers and its scratch column, each whole at some
    contents: the first two calls' staging buffers. -/
def others2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg5_1), ((c : Thread nD τ).loc cc1_stg5_1) ↦{fullShare} f))

/-- The call's invariant before position `n`: before the first point whatever the launch hands over (every scoped
    buffer at anything, the generator register at some state); afterwards the same with the scratch column at the
    running sum the point before left. -/
def PhiS2 (c : Dev nD) : (n : ℕ) → n ≤ cfg2.N → sProp 𝕄
  | 0, _ => Pipeline.ΦA spec2 c
  | n + 1, hn => iprop(owns (c : Thread nD τ) scM2 fullShare (acc2 V c n hn) ∗ others2 (F := F) c ∗ (∃ r, prngReg c r))

/-- The call's proof data on core `c`: the arrays as found; after the body at point `t` every input buffer still at
    its block, the logits buffer at the body's block of logits, the value buffer (written back only at j = 3, idle
    elsewhere) at the logistic of the running sum plus the bias; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay2 (iblk2 V c 0 t) (iblk2 V c 1 t)
    | ⟨5, _⟩ => k2_pay4 (acc2 V c t.val t.isLt) (iblk2 V c 3 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = k2_pay2 (iblk2 V c 0 t) (iblk2 V c 1 t) := by dsimp only [dat2]
theorem after2_5 (c : Dev nD) (t : Fin cfg2.N) : (dat2 V c).after 5 t = k2_pay4 (acc2 V c t.val t.isLt) (iblk2 V c 3 t) := by dsimp only [dat2]

/-! ## Where the windows are idle -/

/-- The inputs and the logits window are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
/-- Off the points with inner coordinate 3 the value window is idle, -/
theorem idleAt2_5 : ∀ t : Fin cfg2.N, ¬cond2_1 (grid2.coords t) → cfg2.idle 5 (grid2.coords t) = true := by decide +kernel
/-- and its block is not written back there. -/
theorem noFlush2_5 : ∀ t : Fin cfg2.N, ¬cond2_1 (grid2.coords t) → (cfg2.win 5).flush t = false := by decide +kernel
/-- At the points with inner coordinate 3 it is live. -/
theorem liveAt2_5 : ∀ t : Fin cfg2.N, cond2_1 (grid2.coords t) → cfg2.idle 5 (grid2.coords t) = false := by decide +kernel

/-! ## The staging buffers at a point -/

abbrev ms2_0 (t : Fin cfg2.N) : Memref sig .tc .vmem S512x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x2048 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x2048 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S512x1 .f32 := win2_5.stage (cfg2.slots t 5)
abbrev hs2_5 (t : Fin cfg2.N) : (ms2_5 t).IsWhole := hstage2_5 ((cfg2.slots t 5).cast nbuf2_5)

/-! ## The invariant, unfolded -/

/-- What the launch hands the call: the scratch column at anything, the other scoped buffers, the generator register. -/
theorem PhiA2_eq (c : Dev nD) :
    (Pipeline.ΦA spec2 c : sProp 𝕄)
      = iprop((∃ d, owns (c : Thread nD τ) scM2 fullShare d) ∗ others2 (F := F) c ∗ (∃ r, prngReg c r)) := by
  unfold Pipeline.ΦA; rw [scopedRest2_eq]; simp only [scM2, owns_whole]
  unfold others2
  refine BI.equiv_iff.mp ⟨?_, ?_⟩
  · show (_ : sProp 𝕄) ⊢ _
    iintro ⟨⟨H1, H2, H3, H4, H5, H6, H7, H8, H9, H10, H11, H12, H13, H14, H15, H16, HS⟩, Hg⟩
    isplitl [HS]; · iexact HS
    isplitl [H1 H2 H3 H4 H5 H6 H7 H8 H9 H10 H11 H12 H13 H14 H15 H16]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    iexact Hg
  · show (_ : sProp 𝕄) ⊢ _
    iintro ⟨HS, ⟨H1, H2, H3, H4, H5, H6, H7, H8, H9, H10, H11, H12, H13, H14, H15, H16⟩, Hg⟩
    isplitl [H1 H2 H3 H4 H5 H6 H7 H8 H9 H10 H11 H12 H13 H14 H15 H16 HS]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      iexact HS
    iexact Hg

theorem PhiS2_zero (c : Dev nD) (n : ℕ) (h : n ≤ cfg2.N) (hz : n = 0) : PhiS2 V c n h = Pipeline.ΦA spec2 c := by
  subst hz; rfl

/-- After point `n`: the scratch column at that point's running sum. -/
theorem PhiS2_succ (c : Dev nD) (n : ℕ) (hn : n < cfg2.N) :
    PhiS2 V c (n + 1) hn = iprop(owns (c : Thread nD τ) scM2 fullShare (acc2 V c n hn) ∗ others2 (F := F) c ∗ (∃ r, prngReg c r)) := rfl

/-- Before a point that is not the first: the scratch column at what the point before left. -/
theorem PhiS2_pos (c : Dev nD) (n : ℕ) (h : n ≤ cfg2.N) (hz : n ≠ 0) :
    PhiS2 V c n h = iprop(owns (c : Thread nD τ) scM2 fullShare (acc2 V c (n - 1) (by omega)) ∗ others2 (F := F) c ∗ (∃ r, prngReg c r)) := by
  cases n with
  | zero => exact absurd rfl hz
  | succ n => rfl

theorem PhiS2_castSucc (c : Dev nD) (t : Fin cfg2.N) :
    (dat2 V c).Φ t.castSucc = PhiS2 V c t.val (Nat.le_of_lt t.isLt) := by
  dsimp only [dat2]; simp only [Fin.coe_castSucc]

/-! ## What the inputs' buffers hold when the body runs -/

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point. The inputs' buffers hold their blocks; the point's inner coordinate says which of the three
    cases it is in; the invariant hands the body the scratch column (at anything at the first point, else at the running
    sum the point before left) and takes it back at this point's running sum; off the points with inner coordinate 3
    the value buffer is handed back as found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  by_cases h0 : t.val % 4 = 0
  · by_cases h1 : t.val % 4 = 3
    · exfalso; omega
    · have hc0 : cond2_0 (grid2.coords t) := (hcond2_0 t).mpr h0
      have hc1 : ¬cond2_1 (grid2.coords t) := fun h => h1 ((hcond2_1 t).mp h)
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [Dat.leavesExact_idle (dat2 V c) 5 t (idleAt2_5 t hc1) (noFlush2_5 t hc1)]
      rw [acc2_reset V c t h0]
      by_cases hz : t.val = 0
      · rw [PhiS2_castSucc V c t, PhiS2_zero V c _ _ hz, PhiA2_eq]
        iintro ⟨⟨HS, Hoth, Hg⟩, Ho, ⟨%d0, H0⟩, ⟨%d1, H1⟩, ⟨%d2, H2⟩, ⟨%d3, H3⟩, ⟨%d4, H4⟩, ⟨%d5, H5⟩⟩
        iapply (kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) hc0 hc1 (iblk2 V c 0 t) (iblk2 V c 1 t) (iblk2 V c 2 t) (iblk2 V c 3 t) ((dat2 V c).before 5 t d5) Set.univ _)
        isplitl [H0]; · iexact H0
        isplitl [H1]; · iexact H1
        isplitl [H2]; · iexact H2
        isplitl [H3]; · iexact H3
        isplitl [H4]; · iexists _; iexact H4
        isplitl [H5]; · iexact H5
        isplitl [HS]; · iexact HS
        iintro ⟨H0, H1, H2, H3, H4, H5, HS⟩
        isplitl [HS Hoth Hg]
        · isplitl [HS]; · iexact HS
          isplitl [Hoth]; · iexact Hoth
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS2_castSucc V c t, PhiS2_pos V c _ _ hz]
        iintro ⟨⟨HS, Hoth, Hg⟩, Ho, ⟨%d0, H0⟩, ⟨%d1, H1⟩, ⟨%d2, H2⟩, ⟨%d3, H3⟩, ⟨%d4, H4⟩, ⟨%d5, H5⟩⟩
        iapply (kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) hc0 hc1 (iblk2 V c 0 t) (iblk2 V c 1 t) (iblk2 V c 2 t) (iblk2 V c 3 t) ((dat2 V c).before 5 t d5) Set.univ _)
        isplitl [H0]; · iexact H0
        isplitl [H1]; · iexact H1
        isplitl [H2]; · iexact H2
        isplitl [H3]; · iexact H3
        isplitl [H4]; · iexists _; iexact H4
        isplitl [H5]; · iexact H5
        isplitl [HS]; · iexists _; iexact HS
        iintro ⟨H0, H1, H2, H3, H4, H5, HS⟩
        isplitl [HS Hoth Hg]
        · isplitl [HS]; · iexact HS
          isplitl [Hoth]; · iexact Hoth
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · have hz : t.val ≠ 0 := fun e => h0 (by rw [e])
    have hc0 : ¬cond2_0 (grid2.coords t) := fun h => h0 ((hcond2_0 t).mp h)
    by_cases h1 : t.val % 4 = 3
    · have hc1 : cond2_1 (grid2.coords t) := (hcond2_1 t).mpr h1
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t hc1], after2_5]
      rw [acc2_step V c t h0]
      rw [PhiS2_castSucc V c t, PhiS2_pos V c _ _ hz]
      iintro ⟨⟨HS, Hoth, Hg⟩, Ho, ⟨%d0, H0⟩, ⟨%d1, H1⟩, ⟨%d2, H2⟩, ⟨%d3, H3⟩, ⟨%d4, H4⟩, ⟨%d5, H5⟩⟩
      iapply (kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) hc0 hc1 (iblk2 V c 0 t) (iblk2 V c 1 t) (iblk2 V c 2 t) (iblk2 V c 3 t) (acc2 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS]; · iexact HS
      iintro ⟨H0, H1, H2, H3, H4, H5, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond2_1 (grid2.coords t) := fun h => h1 ((hcond2_1 t).mp h)
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [Dat.leavesExact_idle (dat2 V c) 5 t (idleAt2_5 t hc1) (noFlush2_5 t hc1)]
      rw [acc2_step V c t h0]
      rw [PhiS2_castSucc V c t, PhiS2_pos V c _ _ hz]
      iintro ⟨⟨HS, Hoth, Hg⟩, Ho, ⟨%d0, H0⟩, ⟨%d1, H1⟩, ⟨%d2, H2⟩, ⟨%d3, H3⟩, ⟨%d4, H4⟩, ⟨%d5, H5⟩⟩
      iapply (kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) hc0 hc1 (iblk2 V c 0 t) (iblk2 V c 1 t) (iblk2 V c 2 t) (iblk2 V c 3 t) ((dat2 V c).before 5 t d5) (acc2 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [H5]; · iexact H5
      isplitl [HS]; · iexact HS
      iintro ⟨H0, H1, H2, H3, H4, H5, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The pipeline rule's obligation at every point of the grid. -/
theorem body_obligation2 (c : Dev nD) : BodyObligation (dat2 (F := F) V c) (defs₀ (F := F)) Variants.none () Set.univ := fun t => by
  rw [bigSep_W2, bigSep_W2]
  exact sound_body2 V c t

/-- What the launch hands the call is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]

/-- After any point but the first the invariant gives the launch's back: the running sum is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨HS, Hoth, Hg⟩
  isplitl [HS]
  · iexists _; iexact HS
  isplitl [Hoth]; · iexact Hoth
  iexact Hg

/-- After the last point the invariant gives the scoped rest back, the scratch column's contents forgotten. -/
theorem hout2 (c : Dev nD) : (dat2 V c).Φ (Fin.last cfg2.N) ⊢ Pipeline.ΦA spec2 c :=
  Phi_out2 V c _ (by rw [Fin.val_last]; have : cfg2.N = 16 := N_2; omega)

end Cert.Kernel.Hand

end
-- ==== Proof.Kernel.Whole.lean ====
/-
  The run of the whole program, from the launch to the return: @main is six segments in order, a stretch of host
  operations (casts and reshapes of the arguments) before each of the three calls. The contents of every unscoped
  buffer of a core are followed through the six segments as a fold from the launch memory: a host stretch leaves
  what its operations compute; a call leaves its windows' arrays at what its write-backs fold to and every other
  buffer as it was entered. Each call is one segment over the thread state "every unscoped buffer at the boundary's
  contents, the generator register at some state, nothing owed". The first call's output reaches the third call's
  entry untouched, and so does the second's; no segment writes an argument array, so each ends as launched.
-/
import proofs.«176400_j46969762349635_1_alg».proof.Proof.Gen.Kernel.Launch
import proofs.«176400_j46969762349635_1_alg».proof.Proof.Gen.Kernel.Skeleton
import proofs.«176400_j46969762349635_1_alg».proof.Proof.Gen.Kernel.Points
import proofs.«176400_j46969762349635_1_alg».proof.Proof.Gen.Kernel.Regions
import proofs.«176400_j46969762349635_1_alg».proof.Proof.Kernel.Enc0
import proofs.«176400_j46969762349635_1_alg».proof.Proof.Kernel.Enc1
import proofs.«176400_j46969762349635_1_alg».proof.Proof.Kernel.Cos
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each segment boundary: a fold through @main -/

/-- Core `c`'s buffers at launch. -/
abbrev W0 : Dev nD → Valuation τ sig (Elt F) := fun c b => (s₀ m ρ).mem ((c : Dev nD), b)

/-- After `hostOps0` (call 0's entry). -/
abbrev W1 : Dev nD → Valuation τ sig (Elt F) := fun c => StableHlo.after hostOps0 (W0 m ρ c)
/-- The same read at the TensorCore's references (what call 0's proof data take). -/
abbrev V1 : (c : Dev nD) → (b : Ref sig .tc) → Buf (Elt F) ((c : Thread nD τ).loc b) := fun c b => W1 m ρ c b
/-- At call 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (call 0's exit contents). -/
abbrev V2 : (c : Dev nD) → (b : Ref sig .tc) → Buf (Elt F) ((c : Thread nD τ).loc b) := fun c b => W2 m ρ c b
/-- At call 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (call 1's entry). -/
abbrev W3 : Dev nD → Valuation τ sig (Elt F) := fun c => StableHlo.after hostOps1 (W2 m ρ c)
/-- The same read at the TensorCore's references (what call 1's proof data take). -/
abbrev V3 : (c : Dev nD) → (b : Ref sig .tc) → Buf (Elt F) ((c : Thread nD τ).loc b) := fun c b => W3 m ρ c b
/-- At call 1's exit: its arrays at what the pipeline leaves (the inputs as entered, each output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (call 1's exit contents). -/
abbrev V4 : (c : Dev nD) → (b : Ref sig .tc) → Buf (Elt F) ((c : Thread nD τ).loc b) := fun c b => W4 m ρ c b
/-- At call 1's exit each of its arrays holds what the pipeline leaves (`hF1`) and every other buffer what it
    held at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (call 2's entry). -/
abbrev W5 : Dev nD → Valuation τ sig (Elt F) := fun c => StableHlo.after hostOps2 (W4 m ρ c)
/-- The same read at the TensorCore's references (what call 2's proof data take). -/
abbrev V5 : (c : Dev nD) → (b : Ref sig .tc) → Buf (Elt F) ((c : Thread nD τ).loc b) := fun c b => W5 m ρ c b
/-- At call 2's exit: its arrays at what the pipeline leaves (the inputs as entered, each output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (call 2's exit contents). -/
abbrev V6 : (c : Dev nD) → (b : Ref sig .tc) → Buf (Elt F) ((c : Thread nD τ).loc b) := fun c b => W6 m ρ c b
/-- At call 2's exit each of its arrays holds what the pipeline leaves (`hF2`) and every other buffer what it
    held at entry (`hrest2`). -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## What the fold leaves untouched

    A buffer no host stretch writes and no call has a window on holds at the end what the launch put there. -/

theorem W6_of_untouched (c : Dev nD) (r : Ref sig .tc)
    (h0 : r ∉ hostOps0_W) (h1 : r ∉ hostOps1_W) (h2 : r ∉ hostOps2_W)
    (a0 : ∀ w, Pipeline.arrRef spec0 w ≠ r) (a1 : ∀ w, Pipeline.arrRef spec1 w ≠ r) (a2 : ∀ w, Pipeline.arrRef spec2 w ≠ r) :
    W6 m ρ c (Proc.devRef .tc r) = m ((c : Thread nD τ).loc r) :=
  calc W6 m ρ c (Proc.devRef .tc r)
    _ = W5 m ρ c (Proc.devRef .tc r) := W6_of_ne m ρ c r a2
    _ = W4 m ρ c (Proc.devRef .tc r) := StableHlo.after_of_writes_sub hostOps2 _ hostOps2_writes h2
    _ = W3 m ρ c (Proc.devRef .tc r) := W4_of_ne m ρ c r a1
    _ = W2 m ρ c (Proc.devRef .tc r) := StableHlo.after_of_writes_sub hostOps1 _ hostOps1_writes h1
    _ = W1 m ρ c (Proc.devRef .tc r) := W2_of_ne m ρ c r a0
    _ = W0 m ρ c (Proc.devRef .tc r) := StableHlo.after_of_writes_sub hostOps0 _ hostOps0_writes h0
    _ = m ((c : Thread nD τ).loc r) := rfl

/-! ### The arguments end as launched: no host operation writes one and no call has a window on one -/

theorem W6_main_arg0 (c : Dev nD) : W6 m ρ c (Proc.devRef .tc main_arg0) = m ((c : Thread nD τ).loc main_arg0) :=
  W6_of_untouched m ρ c main_arg0 (by decide) (by decide) (by decide) (by decide) (by decide) (by decide)
theorem W6_main_arg1 (c : Dev nD) : W6 m ρ c (Proc.devRef .tc main_arg1) = m ((c : Thread nD τ).loc main_arg1) :=
  W6_of_untouched m ρ c main_arg1 (by decide) (by decide) (by decide) (by decide) (by decide) (by decide)
theorem W6_main_arg2 (c : Dev nD) : W6 m ρ c (Proc.devRef .tc main_arg2) = m ((c : Thread nD τ).loc main_arg2) :=
  W6_of_untouched m ρ c main_arg2 (by decide) (by decide) (by decide) (by decide) (by decide) (by decide)
theorem W6_main_arg3 (c : Dev nD) : W6 m ρ c (Proc.devRef .tc main_arg3) = m ((c : Thread nD τ).loc main_arg3) :=
  W6_of_untouched m ρ c main_arg3 (by decide) (by decide) (by decide) (by decide) (by decide) (by decide)
theorem W6_main_arg4 (c : Dev nD) : W6 m ρ c (Proc.devRef .tc main_arg4) = m ((c : Thread nD τ).loc main_arg4) :=
  W6_of_untouched m ρ c main_arg4 (by decide) (by decide) (by decide) (by decide) (by decide) (by decide)
theorem W6_main_arg5 (c : Dev nD) : W6 m ρ c (Proc.devRef .tc main_arg5) = m ((c : Thread nD τ).loc main_arg5) :=
  W6_of_untouched m ρ c main_arg5 (by decide) (by decide) (by decide) (by decide) (by decide) (by decide)
theorem W6_main_arg6 (c : Dev nD) : W6 m ρ c (Proc.devRef .tc main_arg6) = m ((c : Thread nD τ).loc main_arg6) :=
  W6_of_untouched m ρ c main_arg6 (by decide) (by decide) (by decide) (by decide) (by decide) (by decide)
theorem W6_main_arg7 (c : Dev nD) : W6 m ρ c (Proc.devRef .tc main_arg7) = m ((c : Thread nD τ).loc main_arg7) :=
  W6_of_untouched m ρ c main_arg7 (by decide) (by decide) (by decide) (by decide) (by decide) (by decide)
theorem W6_main_arg8 (c : Dev nD) : W6 m ρ c (Proc.devRef .tc main_arg8) = m ((c : Thread nD τ).loc main_arg8) :=
  W6_of_untouched m ρ c main_arg8 (by decide) (by decide) (by decide) (by decide) (by decide) (by decide)
theorem W6_main_arg9 (c : Dev nD) : W6 m ρ c (Proc.devRef .tc main_arg9) = m ((c : Thread nD τ).loc main_arg9) :=
  W6_of_untouched m ρ c main_arg9 (by decide) (by decide) (by decide) (by decide) (by decide) (by decide)
theorem W6_main_arg10 (c : Dev nD) : W6 m ρ c (Proc.devRef .tc main_arg10) = m ((c : Thread nD τ).loc main_arg10) :=
  W6_of_untouched m ρ c main_arg10 (by decide) (by decide) (by decide) (by decide) (by decide) (by decide)
theorem W6_main_arg11 (c : Dev nD) : W6 m ρ c (Proc.devRef .tc main_arg11) = m ((c : Thread nD τ).loc main_arg11) :=
  W6_of_untouched m ρ c main_arg11 (by decide) (by decide) (by decide) (by decide) (by decide) (by decide)

/-! ### The calls' outputs -/

/-- The logits array at the end is what the third call's write-backs leave. -/
theorem W6_out0 (c : Dev nD) : W6 m ρ c (Proc.devRef .tc main_v14_0) = (dat2 (V5 m ρ) c).arrAt 4 cfg2.N :=
  W6_arr m ρ c 4
/-- The value column at the end is what the third call's write-backs leave. -/
theorem W6_out1 (c : Dev nD) : W6 m ρ c (Proc.devRef .tc main_v14_1) = (dat2 (V5 m ρ) c).arrAt 5 cfg2.N :=
  W6_arr m ρ c 5

/-- The first call's output reaches the third call untouched: the second call has no window on it and no host
    stretch after the first call writes it. -/
theorem V5_v5 (c : Dev nD) : V5 m ρ c main_v5 = (dat0 (V1 m ρ) c).arrAt 5 cfg0.N :=
  calc W5 m ρ c (Proc.devRef .tc main_v5)
    _ = W4 m ρ c (Proc.devRef .tc main_v5) := StableHlo.after_of_writes_sub hostOps2 _ hostOps2_writes (by decide)
    _ = W3 m ρ c (Proc.devRef .tc main_v5) := W4_of_ne m ρ c main_v5 (by decide)
    _ = W2 m ρ c (Proc.devRef .tc main_v5) := StableHlo.after_of_writes_sub hostOps1 _ hostOps1_writes (by decide)
    _ = (dat0 (V1 m ρ) c).arrAt 5 cfg0.N := W2_arr m ρ c 5
/-- The second call's output reaches the third call untouched. -/
theorem V5_v11 (c : Dev nD) : V5 m ρ c main_v11 = (dat1 (V3 m ρ) c).arrAt 5 cfg1.N :=
  calc W5 m ρ c (Proc.devRef .tc main_v11)
    _ = W4 m ρ c (Proc.devRef .tc main_v11) := StableHlo.after_of_writes_sub hostOps2 _ hostOps2_writes (by decide)
    _ = (dat1 (V3 m ρ) c).arrAt 5 cfg1.N := W4_arr m ρ c 5

/-! # The proof data family and the thread state -/

/-- Every call's proof data, each at its call's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves
    those references at what the stretch's operations compute from `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W6`, the
    generator register at some state. -/
abbrev Tₙ (c : Dev nD) : sProp 𝕄 := iprop(StableHlo.held (c : Thread nD τ) (Pipeline.ucRefs τ sig) (W6 m ρ c) ∗ ∃ r, prngReg c r)

/-! # The calls as segments -/

set_option backward.isDefEq.respectTransparency.types false in
/-- CALL 0 over the thread state: entered from every unscoped buffer at `W1`, left at `W2`. Its arrays are
    split out of the unscoped buffers and put back at the exit contents; the generator register goes into the
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- CALL 1 over the thread state: entered from every unscoped buffer at `W3`, left at `W4`. Its arrays are
    split out of the unscoped buffers and put back at the exit contents; the generator register goes into the
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- CALL 2 over the thread state: entered from every unscoped buffer at `W5`, left at `W6`. Its arrays are
    split out of the unscoped buffers and put back at the exit contents; the generator register goes into the
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIClass.entails_trans ?_ (show Pipeline.ΦA spec2 c ⊢ (pdats m ρ 2 c).Φ 0 from hin2 (V5 m ρ) c)
    unfold Pipeline.ΦA
    iintro ⟨Hp, -, Hr⟩
    isplitl [Hr]; · iexact Hr
    iexact Hp
  hout c := by
    refine BIClass.entails_trans (show (pdats m ρ 2 c).Φ (Fin.last _) ⊢ Pipeline.ΦA spec2 c from hout2 (V5 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # @main as segments, and the launch -/

/-- @main's six segments in order: a host segment per stretch from its boundary's contents, a segment per call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- @main is the run of the segments. -/
theorem main_run (c : Dev nD) : main (F := F) c = Pipeline.Seg.run (segs m ρ) := (main_chain c).trans (by chain_rfl)

set_option backward.isDefEq.respectTransparency.types false in
/-- THE RUN. At the compiled mesh, from any memory with zero counters, every weakly fair execution of @main on the
    TensorCores terminates, nothing faulting, and in every final state each core's unscoped buffers hold the fold's
    last contents `W6`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- THE FRAME: the run's final state read at the twelve argument arrays, each of which the fold leaves as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (run_all m ρ).mono fun r h c =>
   ⟨(h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c),
    (h c _ (mem_uc main_arg7 (by decide))).trans (W6_main_arg7 m ρ c),
    (h c _ (mem_uc main_arg8 (by decide))).trans (W6_main_arg8 m ρ c),
    (h c _ (mem_uc main_arg9 (by decide))).trans (W6_main_arg9 m ρ c),
    (h c _ (mem_uc main_arg10 (by decide))).trans (W6_main_arg10 m ρ c),
    (h c _ (mem_uc main_arg11 (by decide))).trans (W6_main_arg11 m ρ c)⟩

end Cert.Kernel.Hand

end
-- ==== Proof.KernelIdeal.Enc0.lean ====
/-
  The first encoder call (the message encoder): a grid of 8 points, each taking a block of 256 rows of the
  input, the two weight matrices and the two bias rows whole, and writing the block's 256 normalised rows.
  Stated at any contents `V` of the core's buffers when the call is entered: each window's block at a point, what the
  body leaves in every staging buffer (an input's block unchanged; the output block is the body's one stored value,
  a function of the five input blocks), and the per-point obligation of the pipeline rule.
-/
import proofs.«176400_j46969762349635_1_alg».proof.Proof.Gen.KernelIdeal.Launch
import proofs.«176400_j46969762349635_1_alg».proof.Proof.Gen.KernelIdeal.Skeleton
import proofs.«176400_j46969762349635_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The input windows' staging buffers hold their blocks -/

/-- An input window's current staging buffer holds the window's block at every point, fetched there or not, for any
    proof data whose array is the entry contents and whose body leaves the block in place: unfetched, the block index
    has not moved. Windows 0 to 4, one statement each. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store go through the whole-block rectangle at the origin -/

theorem hz0 : (![0, 0] : Fin 2 → Nat) = fun _ => 0 := funext fun a => by fin_cases a <;> rfl

abbrev r0_5 : Rect S256x1024 := Rect.unit (s := S256x1024) ![0, 0] S256x1024.size inb_S256x1024_S256x1024_0_0

/-- The one store covers the output block. -/
theorem cover0_5 (p : Vec F S256x1024 .bf16) (y : S256x1024.Idx) :
    ∃ pc ∈ ([⟨r0_5, p⟩] : List (View.Piece (Elt F) S256x1024 .bf16)), y ∈ pc.1.set :=
  ⟨_, List.mem_singleton_self _, View.mem_set_unit_zero hz0 inb_S256x1024_S256x1024_0_0 y⟩

/-! ## The body's triple -/

set_option maxHeartbeats 1000000 in
/-- The kernel body on whole staging memrefs, the five inputs' at read contents `x0 … x4` and the output's at anything,
    runs to the continuation holding the inputs' as they were and the output's at the stored value of the five inputs:
    each load through the whole-block rectangle reads the contents, and the one store through it, covering the block,
    leaves its value. -/
theorem sound_kernel0 (c : Dev nD) (E : Set ℕ) (i : grid0.Coords)
    (arg1 : Memref sig .tc .vmem S256x1024 .bf16) (harg1 : arg1.IsWhole)
    (arg2 : Memref sig .tc .vmem S1024x4096 .bf16) (harg2 : arg2.IsWhole)
    (arg3 : Memref sig .tc .vmem S1x4096 .f32) (harg3 : arg3.IsWhole)
    (arg4 : Memref sig .tc .vmem S4096x1024 .bf16) (harg4 : arg4.IsWhole)
    (arg5 : Memref sig .tc .vmem S1x1024 .f32) (harg5 : arg5.IsWhole)
    (arg6 : Memref sig .tc .vmem S256x1024 .bf16) (harg6 : arg6.IsWhole)
    (x0 : Vec F S256x1024 .bf16) (x1 : Vec F S1024x4096 .bf16) (x2 : Vec F S1x4096 .f32)
    (x3 : Vec F S4096x1024 .bf16) (x4 : Vec F S1x1024 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (k0_pay1 x0 x1 x2 x3 x4)) -∗ K ⟨⟩))
      ⊢ wp frame (wpE (defs₀ (F := F)) Variants.none c none) E
          (cc0__encode_kernel i arg1 harg1 arg2 harg2 arg3 harg3 arg4 harg4 arg5 harg5 arg6 harg6) K := by
  simp only [cc0__encode_kernel_eq_skeleton]; unfold cc0__encode_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover0_5 _), View.canon_unit_zero hz0]
  simp only [View.readAt_eq_ld]
  rw [View.ld_unit_zero (S := S256x1024) hz0, View.ld_unit_zero (S := S1024x4096) hz0,
    View.ld_unit_zero (S := S1x4096) hz0, View.ld_unit_zero (S := S4096x1024) hz0,
    View.ld_unit_zero (S := S1x1024) hz0]

/-! ## The call's proof data -/

/-- The call's proof data on core `c`: the arrays as found; after the body at point `t` every input buffer still at its
    block, the output buffer at the body's stored value of the five input blocks; the scoped rest and the generator
    register pass through; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay1 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = k0_pay1 (iblk0 V c 0 t) (iblk0 V c 1 t) (iblk0 V c 2 t) (iblk0 V c 3 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline rule's obligation at every point of the grid. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.Enc1.lean ====
/-
  The second encoder call (the candidate encoder): a grid of 32 points, each taking a block of 256 rows of the
  input, the two weight matrices and the two bias rows whole, and writing the block's 256 normalised rows.
  Stated at any contents `V` of the core's buffers when the call is entered: each window's block at a point, what the
  body leaves in every staging buffer (an input's block unchanged; the output block is the body's one stored value,
  a function of the five input blocks), and the per-point obligation of the pipeline rule.
-/
import proofs.«176400_j46969762349635_1_alg».proof.Proof.Gen.KernelIdeal.Launch
import proofs.«176400_j46969762349635_1_alg».proof.Proof.Gen.KernelIdeal.Skeleton
import proofs.«176400_j46969762349635_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The input windows' staging buffers hold their blocks -/

/-- An input window's current staging buffer holds the window's block at every point, fetched there or not, for any
    proof data whose array is the entry contents and whose body leaves the block in place: unfetched, the block index
    has not moved. Windows 0 to 4, one statement each. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store go through the whole-block rectangle at the origin -/

theorem hz1 : (![0, 0] : Fin 2 → Nat) = fun _ => 0 := funext fun a => by fin_cases a <;> rfl

abbrev r1_5 : Rect S256x1024 := Rect.unit (s := S256x1024) ![0, 0] S256x1024.size inb_S256x1024_S256x1024_0_0

/-- The one store covers the output block. -/
theorem cover1_5 (p : Vec F S256x1024 .bf16) (y : S256x1024.Idx) :
    ∃ pc ∈ ([⟨r1_5, p⟩] : List (View.Piece (Elt F) S256x1024 .bf16)), y ∈ pc.1.set :=
  ⟨_, List.mem_singleton_self _, View.mem_set_unit_zero hz1 inb_S256x1024_S256x1024_0_0 y⟩

/-! ## The body's triple -/

set_option maxHeartbeats 1000000 in
/-- The kernel body on whole staging memrefs, the five inputs' at read contents `x0 … x4` and the output's at anything,
    runs to the continuation holding the inputs' as they were and the output's at the stored value of the five inputs:
    each load through the whole-block rectangle reads the contents, and the one store through it, covering the block,
    leaves its value. -/
theorem sound_kernel1 (c : Dev nD) (E : Set ℕ) (i : grid1.Coords)
    (arg1 : Memref sig .tc .vmem S256x1024 .bf16) (harg1 : arg1.IsWhole)
    (arg2 : Memref sig .tc .vmem S1024x4096 .bf16) (harg2 : arg2.IsWhole)
    (arg3 : Memref sig .tc .vmem S1x4096 .f32) (harg3 : arg3.IsWhole)
    (arg4 : Memref sig .tc .vmem S4096x1024 .bf16) (harg4 : arg4.IsWhole)
    (arg5 : Memref sig .tc .vmem S1x1024 .f32) (harg5 : arg5.IsWhole)
    (arg6 : Memref sig .tc .vmem S256x1024 .bf16) (harg6 : arg6.IsWhole)
    (x0 : Vec F S256x1024 .bf16) (x1 : Vec F S1024x4096 .bf16) (x2 : Vec F S1x4096 .f32)
    (x3 : Vec F S4096x1024 .bf16) (x4 : Vec F S1x1024 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (k1_pay1 x0 x1 x2 x3 x4)) -∗ K ⟨⟩))
      ⊢ wp frame (wpE (defs₀ (F := F)) Variants.none c none) E
          (cc1__encode_kernel i arg1 harg1 arg2 harg2 arg3 harg3 arg4 harg4 arg5 harg5 arg6 harg6) K := by
  simp only [cc1__encode_kernel_eq_skeleton]; unfold cc1__encode_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover1_5 _), View.canon_unit_zero hz1]
  simp only [View.readAt_eq_ld]
  rw [View.ld_unit_zero (S := S256x1024) hz1, View.ld_unit_zero (S := S1024x4096) hz1,
    View.ld_unit_zero (S := S1x4096) hz1, View.ld_unit_zero (S := S4096x1024) hz1,
    View.ld_unit_zero (S := S1x1024) hz1]

/-! ## The call's proof data -/

/-- The call's proof data on core `c`: the arrays as found; after the body at point `t` every input buffer still at its
    block, the output buffer at the body's stored value of the five input blocks; the scoped rest and the generator
    register pass through; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay1 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = k1_pay1 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline rule's obligation at every point of the grid. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.Cos.lean ====
/-
  The third call (cosine similarity and the value head): a grid of 4 × 4 points (i, j), point number t = 4·i + j.
  At point (i, j) the body takes 512 rows of the normalised messages (block i), 2048 rows of the normalised
  candidates (block j), 2048 entries of the value weights (block j) and the value bias; it writes the 512 × 2048
  block (i, j) of the logits, and keeps in a scratch column of 512 entries the running sum over j of the row sums
  of logits × weights: reset to zero at j = 0, added to at every j, and at j = 3 passed with the bias through the
  logistic function into block i of the value column. Stated at any contents `V` of the core's buffers when the call
  is entered.
-/
import proofs.«176400_j46969762349635_1_alg».proof.Proof.Gen.KernelIdeal.Launch
import proofs.«176400_j46969762349635_1_alg».proof.Proof.Gen.KernelIdeal.Skeleton
import proofs.«176400_j46969762349635_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditionals, over the grid -/

/-- The condition of the body's first conditional (the inner coordinate is 0), from the grid coordinates. -/
abbrev cond2_0 (i : grid2.Coords) : Prop := (Scalar.cmpi .ne (Scalar.extui (Scalar.cmpi .eq (BitVec.ofNat 32 (i 1).val) 0#32)) 0#32) = 1#1
/-- It holds at the points ≡ 0 (mod 4). -/
theorem hcond2_0 : ∀ t : Fin cfg2.N, cond2_0 (grid2.coords t) ↔ t.val % 4 = 0 :=
  (by decide +kernel : ∀ t : Fin grid2.N, cond2_0 (grid2.coords t) ↔ t.val % 4 = 0)

/-- The condition of the body's second conditional (the inner coordinate is 3). -/
abbrev cond2_1 (i : grid2.Coords) : Prop := k2_cond2 i = 1#1
/-- It holds at the points ≡ 3 (mod 4). -/
theorem hcond2_1 : ∀ t : Fin cfg2.N, cond2_1 (grid2.coords t) ↔ t.val % 4 = 3 :=
  (by decide +kernel : ∀ t : Fin grid2.N, cond2_1 (grid2.coords t) ↔ t.val % 4 = 3)

/-! ## The body on whole buffers, case by case -/

/-- The offsets of every load and store of the body: both zero. -/
theorem zeroOffsets2 : (![0, 0] : Fin 2 → ℕ) = fun _ => 0 := funext fun a => by fin_cases a <;> rfl

/-- A buffer whose last store was through the whole rectangle reads as that store's payload, whatever the view,
    the earlier stores and the contents before them. -/
theorem read_last_store2 {sig' : RefSig} {κ : Kind} {sp : Space} {S : Shape} {e : EltTy} (v : View sig' κ sp S e)
    (f : v.ty.Contents (Elt F)) {off : Fin S.rank → ℕ} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

set_option maxHeartbeats 1000000 in
/-- The body at a point with inner coordinate 0, on whole buffers: the four inputs at their blocks, the logits buffer and
    the scratch column at anything, the value buffer at `xi5`. It leaves the inputs and the value buffer as they were, the
    logits buffer at the block of logits and the scratch column at the zero column plus the row sums. -/
theorem kernelRun2_A (c : Dev nD) (i : grid2.Coords)
    (arg2 : Memref sig .tc .vmem S512x1024 .bf16) (harg2 : arg2.IsWhole) (arg3 : Memref sig .tc .vmem S2048x1024 .bf16) (harg3 : arg3.IsWhole)
    (arg4 : Memref sig .tc .vmem S1x2048 .f32) (harg4 : arg4.IsWhole) (arg5 : Memref sig .tc .vmem S1x1 .f32) (harg5 : arg5.IsWhole)
    (arg6 : Memref sig .tc .vmem S512x2048 .f32) (harg6 : arg6.IsWhole) (arg7 : Memref sig .tc .vmem S512x1 .f32) (harg7 : arg7.IsWhole)
    (arg8 : Memref sig .tc .vmem S512x1 .f32) (harg8 : arg8.IsWhole) (hc0 : cond2_0 i) (hc1 : ¬cond2_1 i)
    (x0 : Vec F S512x1024 .bf16) (x1 : Vec F S2048x1024 .bf16) (x2 : Vec F S1x2048 .f32) (x3 : Vec F S1x1 .f32)
    (xi5 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xi5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k2_pay2 x0 x1) ∗ owns (c : Thread nD τ) arg7 fullShare xi5
            ∗ owns (c : Thread nD τ) arg8 fullShare (k2_pay3 x0 x1 x2 (k2_pay1 (F := F)))) -∗ K ⟨⟩))
      ⊢ wp frame (wpE (defs₀ (F := F)) Variants.none c none) E
          (cc2__cosine_value_kernel i arg2 harg2 arg3 harg3 arg4 harg4 arg5 harg5 arg6 harg6 arg7 harg7 arg8 harg8) K := by
  simp only [cc2__cosine_value_kernel_eq_skeleton]; unfold cc2__cosine_value_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds, %fs, -, HS⟩, Hk⟩
  obtain rfl := harg2.eq_unread hf0; obtain rfl := harg3.eq_unread hf1; obtain rfl := harg4.eq_unread hf2
  obtain rfl := harg5.eq_unread hf3; obtain rfl := harg7.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_run_names
    rw [read_last_store2 _ _ zeroOffsets2]
    simp only [View.readAt_eq_ld, harg2.read_unread, harg3.read_unread, harg4.read_unread, harg5.read_unread, harg8.read_unread,
    View.ld_unit_zero (S := S512x1024) zeroOffsets2, View.ld_unit_zero (S := S2048x1024) zeroOffsets2, View.ld_unit_zero (S := S1x2048) zeroOffsets2,
    View.ld_unit_zero (S := S1x1) zeroOffsets2, View.ld_unit_zero (S := S512x1) zeroOffsets2, View.readCov_unit_zero (S := S512x1) _ zeroOffsets2]
  isplitl [H5]
  · iexists _; isplitr; · ipureintro; exact harg7.read_unread _
    iexact H5
  iexists _; isplitr
  swap; · iexact HS
  ipureintro
  sl_unfold_run_names
  rw [read_last_store2 _ _ zeroOffsets2]
  simp only [View.readAt_eq_ld, harg2.read_unread, harg3.read_unread, harg4.read_unread, harg5.read_unread, harg8.read_unread,
    View.ld_unit_zero (S := S512x1024) zeroOffsets2, View.ld_unit_zero (S := S2048x1024) zeroOffsets2, View.ld_unit_zero (S := S1x2048) zeroOffsets2,
    View.ld_unit_zero (S := S1x1) zeroOffsets2, View.ld_unit_zero (S := S512x1) zeroOffsets2, View.readCov_unit_zero (S := S512x1) _ zeroOffsets2]

set_option maxHeartbeats 1000000 in
/-- The body at a point with inner coordinate 1 or 2, on whole buffers: the four inputs at their blocks, the logits buffer
    at anything, the value buffer at `xi5`, the scratch column at `xs`. It leaves the inputs and the value buffer as they
    were, the logits buffer at the block of logits and the scratch column at `xs` plus the row sums. -/
theorem kernelRun2_B (c : Dev nD) (i : grid2.Coords)
    (arg2 : Memref sig .tc .vmem S512x1024 .bf16) (harg2 : arg2.IsWhole) (arg3 : Memref sig .tc .vmem S2048x1024 .bf16) (harg3 : arg3.IsWhole)
    (arg4 : Memref sig .tc .vmem S1x2048 .f32) (harg4 : arg4.IsWhole) (arg5 : Memref sig .tc .vmem S1x1 .f32) (harg5 : arg5.IsWhole)
    (arg6 : Memref sig .tc .vmem S512x2048 .f32) (harg6 : arg6.IsWhole) (arg7 : Memref sig .tc .vmem S512x1 .f32) (harg7 : arg7.IsWhole)
    (arg8 : Memref sig .tc .vmem S512x1 .f32) (harg8 : arg8.IsWhole) (hc0 : ¬cond2_0 i) (hc1 : ¬cond2_1 i)
    (x0 : Vec F S512x1024 .bf16) (x1 : Vec F S2048x1024 .bf16) (x2 : Vec F S1x2048 .f32) (x3 : Vec F S1x1 .f32)
    (xi5 : Vec F S512x1 .f32) (xs : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xi5
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k2_pay2 x0 x1) ∗ owns (c : Thread nD τ) arg7 fullShare xi5
            ∗ owns (c : Thread nD τ) arg8 fullShare (k2_pay3 x0 x1 x2 xs)) -∗ K ⟨⟩))
      ⊢ wp frame (wpE (defs₀ (F := F)) Variants.none c none) E
          (cc2__cosine_value_kernel i arg2 harg2 arg3 harg3 arg4 harg4 arg5 harg5 arg6 harg6 arg7 harg7 arg8 harg8) K := by
  simp only [cc2__cosine_value_kernel_eq_skeleton]; unfold cc2__cosine_value_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hf5; obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_run_names
    rw [read_last_store2 _ _ zeroOffsets2]
    simp only [View.readAt_eq_ld, harg2.read_unread, harg3.read_unread, harg4.read_unread, harg5.read_unread, harg8.read_unread,
    View.ld_unit_zero (S := S512x1024) zeroOffsets2, View.ld_unit_zero (S := S2048x1024) zeroOffsets2, View.ld_unit_zero (S := S1x2048) zeroOffsets2,
    View.ld_unit_zero (S := S1x1) zeroOffsets2, View.ld_unit_zero (S := S512x1) zeroOffsets2, View.readCov_unit_zero (S := S512x1) _ zeroOffsets2]
  isplitl [H5]
  · iexists _; isplitr; · ipureintro; exact harg7.read_unread _
    iexact H5
  iexists _; isplitr
  swap; · iexact HS
  ipureintro
  sl_unfold_run_names
  rw [read_last_store2 _ _ zeroOffsets2]
  simp only [View.readAt_eq_ld, harg2.read_unread, harg3.read_unread, harg4.read_unread, harg5.read_unread, harg8.read_unread,
    View.ld_unit_zero (S := S512x1024) zeroOffsets2, View.ld_unit_zero (S := S2048x1024) zeroOffsets2, View.ld_unit_zero (S := S1x2048) zeroOffsets2,
    View.ld_unit_zero (S := S1x1) zeroOffsets2, View.ld_unit_zero (S := S512x1) zeroOffsets2, View.readCov_unit_zero (S := S512x1) _ zeroOffsets2]

set_option maxHeartbeats 1000000 in
/-- The body at a point with inner coordinate 3, on whole buffers: the four inputs at their blocks, the logits buffer and
    the value buffer at anything, the scratch column at `xs`. It leaves the inputs as they were, the logits buffer at the
    block of logits, the scratch column at `xs` plus the row sums, and the value buffer at the logistic of that sum plus
    the bias. -/
theorem kernelRun2_C (c : Dev nD) (i : grid2.Coords)
    (arg2 : Memref sig .tc .vmem S512x1024 .bf16) (harg2 : arg2.IsWhole) (arg3 : Memref sig .tc .vmem S2048x1024 .bf16) (harg3 : arg3.IsWhole)
    (arg4 : Memref sig .tc .vmem S1x2048 .f32) (harg4 : arg4.IsWhole) (arg5 : Memref sig .tc .vmem S1x1 .f32) (harg5 : arg5.IsWhole)
    (arg6 : Memref sig .tc .vmem S512x2048 .f32) (harg6 : arg6.IsWhole) (arg7 : Memref sig .tc .vmem S512x1 .f32) (harg7 : arg7.IsWhole)
    (arg8 : Memref sig .tc .vmem S512x1 .f32) (harg8 : arg8.IsWhole) (hc0 : ¬cond2_0 i) (hc1 : cond2_1 i)
    (x0 : Vec F S512x1024 .bf16) (x1 : Vec F S2048x1024 .bf16) (x2 : Vec F S1x2048 .f32) (x3 : Vec F S1x1 .f32)
    (xs : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k2_pay2 x0 x1) ∗ owns (c : Thread nD τ) arg7 fullShare (k2_pay4 (k2_pay3 x0 x1 x2 xs) x3)
            ∗ owns (c : Thread nD τ) arg8 fullShare (k2_pay3 x0 x1 x2 xs)) -∗ K ⟨⟩))
      ⊢ wp frame (wpE (defs₀ (F := F)) Variants.none c none) E
          (cc2__cosine_value_kernel i arg2 harg2 arg3 harg3 arg4 harg4 arg5 harg5 arg6 harg6 arg7 harg7 arg8 harg8) K := by
  simp only [cc2__cosine_value_kernel_eq_skeleton]; unfold cc2__cosine_value_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs, %hfs, HS⟩, Hk⟩
  obtain rfl := harg2.eq_unread hf0; obtain rfl := harg3.eq_unread hf1; obtain rfl := harg4.eq_unread hf2
  obtain rfl := harg5.eq_unread hf3; obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_run_names
    rw [read_last_store2 _ _ zeroOffsets2]
    simp only [View.readAt_eq_ld, harg2.read_unread, harg3.read_unread, harg4.read_unread, harg5.read_unread, harg8.read_unread,
    View.ld_unit_zero (S := S512x1024) zeroOffsets2, View.ld_unit_zero (S := S2048x1024) zeroOffsets2, View.ld_unit_zero (S := S1x2048) zeroOffsets2,
    View.ld_unit_zero (S := S1x1) zeroOffsets2, View.ld_unit_zero (S := S512x1) zeroOffsets2, View.readCov_unit_zero (S := S512x1) _ zeroOffsets2]
  isplitl [H5]
  · iexists _; isplitr
    swap; · iexact H5
    ipureintro
    sl_unfold_run_names
    rw [read_last_store2 _ _ zeroOffsets2]
    simp only [View.readAt_eq_ld, harg2.read_unread, harg3.read_unread, harg4.read_unread, harg5.read_unread, harg8.read_unread,
    View.ld_unit_zero (S := S512x1024) zeroOffsets2, View.ld_unit_zero (S := S2048x1024) zeroOffsets2, View.ld_unit_zero (S := S1x2048) zeroOffsets2,
    View.ld_unit_zero (S := S1x1) zeroOffsets2, View.ld_unit_zero (S := S512x1) zeroOffsets2, View.readCov_unit_zero (S := S512x1) _ zeroOffsets2]
  iexists _; isplitr
  swap; · iexact HS
  ipureintro
  sl_unfold_run_names
  rw [read_last_store2 _ _ zeroOffsets2]
  simp only [View.readAt_eq_ld, harg2.read_unread, harg3.read_unread, harg4.read_unread, harg5.read_unread, harg8.read_unread,
    View.ld_unit_zero (S := S512x1024) zeroOffsets2, View.ld_unit_zero (S := S2048x1024) zeroOffsets2, View.ld_unit_zero (S := S1x2048) zeroOffsets2,
    View.ld_unit_zero (S := S1x1) zeroOffsets2, View.ld_unit_zero (S := S512x1) zeroOffsets2, View.readCov_unit_zero (S := S512x1) _ zeroOffsets2]

variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The scratch column the body carries from point to point. -/
abbrev scM2 : Memref sig .tc .vmem S512x1 .f32 := Memref.whole cc2_scratch0

/-- THE RUNNING SUM. What the scratch column holds after the body at point `n`: at a point with j = 0 (n ≡ 0 mod 4)
    the zero column plus this point's row sums; at any other point what the point before left plus this point's
    row sums (`k2_pay3`: the last argument is the column added to). -/
def acc2 (c : Dev nD) : (n : ℕ) → n < cfg2.N → Vec F S512x1 .f32
  | 0, hn => k2_pay3 (iblk2 V c 0 ⟨0, hn⟩) (iblk2 V c 1 ⟨0, hn⟩) (iblk2 V c 2 ⟨0, hn⟩) (k2_pay1 (F := F))
  | n + 1, hn =>
    if (n + 1) % 4 = 0 then
      k2_pay3 (iblk2 V c 0 ⟨n + 1, hn⟩) (iblk2 V c 1 ⟨n + 1, hn⟩) (iblk2 V c 2 ⟨n + 1, hn⟩) (k2_pay1 (F := F))
    else
      k2_pay3 (iblk2 V c 0 ⟨n + 1, hn⟩) (iblk2 V c 1 ⟨n + 1, hn⟩) (iblk2 V c 2 ⟨n + 1, hn⟩) (acc2 c n (Nat.lt_of_succ_lt hn))

theorem acc2_reset (c : Dev nD) (t : Fin cfg2.N) (h : t.val % 4 = 0) :
    acc2 V c t.val t.isLt = k2_pay3 (iblk2 V c 0 t) (iblk2 V c 1 t) (iblk2 V c 2 t) (k2_pay1 (F := F)) := by
  obtain ⟨n, hn⟩ := t
  cases n with
  | zero => rfl
  | succ n => exact if_pos h

theorem acc2_step (c : Dev nD) (t : Fin cfg2.N) (h : ¬ t.val % 4 = 0) :
    acc2 V c t.val t.isLt = k2_pay3 (iblk2 V c 0 t) (iblk2 V c 1 t) (iblk2 V c 2 t)
      (acc2 V c (t.val - 1) (Nat.lt_of_le_of_lt (Nat.sub_le _ _) t.isLt)) := by
  obtain ⟨n, hn⟩ := t
  cases n with
  | zero => exact absurd (Nat.zero_mod _) h
  | succ n => exact if_neg h

/-- The core's scoped buffers other than this call's staging buffers and its scratch column, each whole at some
    contents: the first two calls' staging buffers. -/
def others2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg5_1), ((c : Thread nD τ).loc cc1_stg5_1) ↦{fullShare} f))

/-- The call's invariant before position `n`: before the first point whatever the launch hands over (every scoped
    buffer at anything, the generator register at some state); afterwards the same with the scratch column at the
    running sum the point before left. -/
def PhiS2 (c : Dev nD) : (n : ℕ) → n ≤ cfg2.N → sProp 𝕄
  | 0, _ => Pipeline.ΦA spec2 c
  | n + 1, hn => iprop(owns (c : Thread nD τ) scM2 fullShare (acc2 V c n hn) ∗ others2 (F := F) c ∗ (∃ r, prngReg c r))

/-- The call's proof data on core `c`: the arrays as found; after the body at point `t` every input buffer still at
    its block, the logits buffer at the body's block of logits, the value buffer (written back only at j = 3, idle
    elsewhere) at the logistic of the running sum plus the bias; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay2 (iblk2 V c 0 t) (iblk2 V c 1 t)
    | ⟨5, _⟩ => k2_pay4 (acc2 V c t.val t.isLt) (iblk2 V c 3 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = k2_pay2 (iblk2 V c 0 t) (iblk2 V c 1 t) := by dsimp only [dat2]
theorem after2_5 (c : Dev nD) (t : Fin cfg2.N) : (dat2 V c).after 5 t = k2_pay4 (acc2 V c t.val t.isLt) (iblk2 V c 3 t) := by dsimp only [dat2]

/-! ## Where the windows are idle -/

/-- The inputs and the logits window are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
/-- Off the points with inner coordinate 3 the value window is idle, -/
theorem idleAt2_5 : ∀ t : Fin cfg2.N, ¬cond2_1 (grid2.coords t) → cfg2.idle 5 (grid2.coords t) = true := by decide +kernel
/-- and its block is not written back there. -/
theorem noFlush2_5 : ∀ t : Fin cfg2.N, ¬cond2_1 (grid2.coords t) → (cfg2.win 5).flush t = false := by decide +kernel
/-- At the points with inner coordinate 3 it is live. -/
theorem liveAt2_5 : ∀ t : Fin cfg2.N, cond2_1 (grid2.coords t) → cfg2.idle 5 (grid2.coords t) = false := by decide +kernel

/-! ## The staging buffers at a point -/

abbrev ms2_0 (t : Fin cfg2.N) : Memref sig .tc .vmem S512x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x2048 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x2048 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S512x1 .f32 := win2_5.stage (cfg2.slots t 5)
abbrev hs2_5 (t : Fin cfg2.N) : (ms2_5 t).IsWhole := hstage2_5 ((cfg2.slots t 5).cast nbuf2_5)

/-! ## The invariant, unfolded -/

/-- What the launch hands the call: the scratch column at anything, the other scoped buffers, the generator register. -/
theorem PhiA2_eq (c : Dev nD) :
    (Pipeline.ΦA spec2 c : sProp 𝕄)
      = iprop((∃ d, owns (c : Thread nD τ) scM2 fullShare d) ∗ others2 (F := F) c ∗ (∃ r, prngReg c r)) := by
  unfold Pipeline.ΦA; rw [scopedRest2_eq]; simp only [scM2, owns_whole]
  unfold others2
  refine BI.equiv_iff.mp ⟨?_, ?_⟩
  · show (_ : sProp 𝕄) ⊢ _
    iintro ⟨⟨H1, H2, H3, H4, H5, H6, H7, H8, H9, H10, H11, H12, H13, H14, H15, H16, HS⟩, Hg⟩
    isplitl [HS]; · iexact HS
    isplitl [H1 H2 H3 H4 H5 H6 H7 H8 H9 H10 H11 H12 H13 H14 H15 H16]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    iexact Hg
  · show (_ : sProp 𝕄) ⊢ _
    iintro ⟨HS, ⟨H1, H2, H3, H4, H5, H6, H7, H8, H9, H10, H11, H12, H13, H14, H15, H16⟩, Hg⟩
    isplitl [H1 H2 H3 H4 H5 H6 H7 H8 H9 H10 H11 H12 H13 H14 H15 H16 HS]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      iexact HS
    iexact Hg

theorem PhiS2_zero (c : Dev nD) (n : ℕ) (h : n ≤ cfg2.N) (hz : n = 0) : PhiS2 V c n h = Pipeline.ΦA spec2 c := by
  subst hz; rfl

/-- After point `n`: the scratch column at that point's running sum. -/
theorem PhiS2_succ (c : Dev nD) (n : ℕ) (hn : n < cfg2.N) :
    PhiS2 V c (n + 1) hn = iprop(owns (c : Thread nD τ) scM2 fullShare (acc2 V c n hn) ∗ others2 (F := F) c ∗ (∃ r, prngReg c r)) := rfl

/-- Before a point that is not the first: the scratch column at what the point before left. -/
theorem PhiS2_pos (c : Dev nD) (n : ℕ) (h : n ≤ cfg2.N) (hz : n ≠ 0) :
    PhiS2 V c n h = iprop(owns (c : Thread nD τ) scM2 fullShare (acc2 V c (n - 1) (by omega)) ∗ others2 (F := F) c ∗ (∃ r, prngReg c r)) := by
  cases n with
  | zero => exact absurd rfl hz
  | succ n => rfl

theorem PhiS2_castSucc (c : Dev nD) (t : Fin cfg2.N) :
    (dat2 V c).Φ t.castSucc = PhiS2 V c t.val (Nat.le_of_lt t.isLt) := by
  dsimp only [dat2]; simp only [Fin.coe_castSucc]

/-! ## What the inputs' buffers hold when the body runs -/

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point. The inputs' buffers hold their blocks; the point's inner coordinate says which of the three
    cases it is in; the invariant hands the body the scratch column (at anything at the first point, else at the running
    sum the point before left) and takes it back at this point's running sum; off the points with inner coordinate 3
    the value buffer is handed back as found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  by_cases h0 : t.val % 4 = 0
  · by_cases h1 : t.val % 4 = 3
    · exfalso; omega
    · have hc0 : cond2_0 (grid2.coords t) := (hcond2_0 t).mpr h0
      have hc1 : ¬cond2_1 (grid2.coords t) := fun h => h1 ((hcond2_1 t).mp h)
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [Dat.leavesExact_idle (dat2 V c) 5 t (idleAt2_5 t hc1) (noFlush2_5 t hc1)]
      rw [acc2_reset V c t h0]
      by_cases hz : t.val = 0
      · rw [PhiS2_castSucc V c t, PhiS2_zero V c _ _ hz, PhiA2_eq]
        iintro ⟨⟨HS, Hoth, Hg⟩, Ho, ⟨%d0, H0⟩, ⟨%d1, H1⟩, ⟨%d2, H2⟩, ⟨%d3, H3⟩, ⟨%d4, H4⟩, ⟨%d5, H5⟩⟩
        iapply (kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) hc0 hc1 (iblk2 V c 0 t) (iblk2 V c 1 t) (iblk2 V c 2 t) (iblk2 V c 3 t) ((dat2 V c).before 5 t d5) Set.univ _)
        isplitl [H0]; · iexact H0
        isplitl [H1]; · iexact H1
        isplitl [H2]; · iexact H2
        isplitl [H3]; · iexact H3
        isplitl [H4]; · iexists _; iexact H4
        isplitl [H5]; · iexact H5
        isplitl [HS]; · iexact HS
        iintro ⟨H0, H1, H2, H3, H4, H5, HS⟩
        isplitl [HS Hoth Hg]
        · isplitl [HS]; · iexact HS
          isplitl [Hoth]; · iexact Hoth
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS2_castSucc V c t, PhiS2_pos V c _ _ hz]
        iintro ⟨⟨HS, Hoth, Hg⟩, Ho, ⟨%d0, H0⟩, ⟨%d1, H1⟩, ⟨%d2, H2⟩, ⟨%d3, H3⟩, ⟨%d4, H4⟩, ⟨%d5, H5⟩⟩
        iapply (kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) hc0 hc1 (iblk2 V c 0 t) (iblk2 V c 1 t) (iblk2 V c 2 t) (iblk2 V c 3 t) ((dat2 V c).before 5 t d5) Set.univ _)
        isplitl [H0]; · iexact H0
        isplitl [H1]; · iexact H1
        isplitl [H2]; · iexact H2
        isplitl [H3]; · iexact H3
        isplitl [H4]; · iexists _; iexact H4
        isplitl [H5]; · iexact H5
        isplitl [HS]; · iexists _; iexact HS
        iintro ⟨H0, H1, H2, H3, H4, H5, HS⟩
        isplitl [HS Hoth Hg]
        · isplitl [HS]; · iexact HS
          isplitl [Hoth]; · iexact Hoth
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · have hz : t.val ≠ 0 := fun e => h0 (by rw [e])
    have hc0 : ¬cond2_0 (grid2.coords t) := fun h => h0 ((hcond2_0 t).mp h)
    by_cases h1 : t.val % 4 = 3
    · have hc1 : cond2_1 (grid2.coords t) := (hcond2_1 t).mpr h1
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t hc1], after2_5]
      rw [acc2_step V c t h0]
      rw [PhiS2_castSucc V c t, PhiS2_pos V c _ _ hz]
      iintro ⟨⟨HS, Hoth, Hg⟩, Ho, ⟨%d0, H0⟩, ⟨%d1, H1⟩, ⟨%d2, H2⟩, ⟨%d3, H3⟩, ⟨%d4, H4⟩, ⟨%d5, H5⟩⟩
      iapply (kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) hc0 hc1 (iblk2 V c 0 t) (iblk2 V c 1 t) (iblk2 V c 2 t) (iblk2 V c 3 t) (acc2 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS]; · iexact HS
      iintro ⟨H0, H1, H2, H3, H4, H5, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond2_1 (grid2.coords t) := fun h => h1 ((hcond2_1 t).mp h)
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [Dat.leavesExact_idle (dat2 V c) 5 t (idleAt2_5 t hc1) (noFlush2_5 t hc1)]
      rw [acc2_step V c t h0]
      rw [PhiS2_castSucc V c t, PhiS2_pos V c _ _ hz]
      iintro ⟨⟨HS, Hoth, Hg⟩, Ho, ⟨%d0, H0⟩, ⟨%d1, H1⟩, ⟨%d2, H2⟩, ⟨%d3, H3⟩, ⟨%d4, H4⟩, ⟨%d5, H5⟩⟩
      iapply (kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) hc0 hc1 (iblk2 V c 0 t) (iblk2 V c 1 t) (iblk2 V c 2 t) (iblk2 V c 3 t) ((dat2 V c).before 5 t d5) (acc2 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [H5]; · iexact H5
      isplitl [HS]; · iexact HS
      iintro ⟨H0, H1, H2, H3, H4, H5, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The pipeline rule's obligation at every point of the grid. -/
theorem body_obligation2 (c : Dev nD) : BodyObligation (dat2 (F := F) V c) (defs₀ (F := F)) Variants.none () Set.univ := fun t => by
  rw [bigSep_W2, bigSep_W2]
  exact sound_body2 V c t

/-- What the launch hands the call is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]

/-- After any point but the first the invariant gives the launch's back: the running sum is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨HS, Hoth, Hg⟩
  isplitl [HS]
  · iexists _; iexact HS
  isplitl [Hoth]; · iexact Hoth
  iexact Hg

/-- After the last point the invariant gives the scoped rest back, the scratch column's contents forgotten. -/
theorem hout2 (c : Dev nD) : (dat2 V c).Φ (Fin.last cfg2.N) ⊢ Pipeline.ΦA spec2 c :=
  Phi_out2 V c _ (by rw [Fin.val_last]; have : cfg2.N = 16 := N_2; omega)

end Cert.KernelIdeal.Hand

end
-- ==== Proof.KernelIdeal.Whole.lean ====
/-
  The run of the whole program, from the launch to the return: @main is six segments in order, a stretch of host
  operations (casts and reshapes of the arguments) before each of the three calls. The contents of every unscoped
  buffer of a core are followed through the six segments as a fold from the launch memory: a host stretch leaves
  what its operations compute; a call leaves its windows' arrays at what its write-backs fold to and every other
  buffer as it was entered. Each call is one segment over the thread state "every unscoped buffer at the boundary's
  contents, the generator register at some state, nothing owed". The first call's output reaches the third call's
  entry untouched, and so does the second's; no segment writes an argument array, so each ends as launched.
-/
import proofs.«176400_j46969762349635_1_alg».proof.Proof.Gen.KernelIdeal.Launch
import proofs.«176400_j46969762349635_1_alg».proof.Proof.Gen.KernelIdeal.Skeleton
import proofs.«176400_j46969762349635_1_alg».proof.Proof.Gen.KernelIdeal.Points
import proofs.«176400_j46969762349635_1_alg».proof.Proof.Gen.KernelIdeal.Regions
import proofs.«176400_j46969762349635_1_alg».proof.Proof.KernelIdeal.Enc0
import proofs.«176400_j46969762349635_1_alg».proof.Proof.KernelIdeal.Enc1
import proofs.«176400_j46969762349635_1_alg».proof.Proof.KernelIdeal.Cos
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each segment boundary: a fold through @main -/

/-- Core `c`'s buffers at launch. -/
abbrev W0 : Dev nD → Valuation τ sig (Elt F) := fun c b => (s₀ m ρ).mem ((c : Dev nD), b)

/-- After `hostOps0` (call 0's entry). -/
abbrev W1 : Dev nD → Valuation τ sig (Elt F) := fun c => StableHlo.after hostOps0 (W0 m ρ c)
/-- The same read at the TensorCore's references (what call 0's proof data take). -/
abbrev V1 : (c : Dev nD) → (b : Ref sig .tc) → Buf (Elt F) ((c : Thread nD τ).loc b) := fun c b => W1 m ρ c b
/-- At call 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (call 0's exit contents). -/
abbrev V2 : (c : Dev nD) → (b : Ref sig .tc) → Buf (Elt F) ((c : Thread nD τ).loc b) := fun c b => W2 m ρ c b
/-- At call 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (call 1's entry). -/
abbrev W3 : Dev nD → Valuation τ sig (Elt F) := fun c => StableHlo.after hostOps1 (W2 m ρ c)
/-- The same read at the TensorCore's references (what call 1's proof data take). -/
abbrev V3 : (c : Dev nD) → (b : Ref sig .tc) → Buf (Elt F) ((c : Thread nD τ).loc b) := fun c b => W3 m ρ c b
/-- At call 1's exit: its arrays at what the pipeline leaves (the inputs as entered, each output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (call 1's exit contents). -/
abbrev V4 : (c : Dev nD) → (b : Ref sig .tc) → Buf (Elt F) ((c : Thread nD τ).loc b) := fun c b => W4 m ρ c b
/-- At call 1's exit each of its arrays holds what the pipeline leaves (`hF1`) and every other buffer what it
    held at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (call 2's entry). -/
abbrev W5 : Dev nD → Valuation τ sig (Elt F) := fun c => StableHlo.after hostOps2 (W4 m ρ c)
/-- The same read at the TensorCore's references (what call 2's proof data take). -/
abbrev V5 : (c : Dev nD) → (b : Ref sig .tc) → Buf (Elt F) ((c : Thread nD τ).loc b) := fun c b => W5 m ρ c b
/-- At call 2's exit: its arrays at what the pipeline leaves (the inputs as entered, each output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (call 2's exit contents). -/
abbrev V6 : (c : Dev nD) → (b : Ref sig .tc) → Buf (Elt F) ((c : Thread nD τ).loc b) := fun c b => W6 m ρ c b
/-- At call 2's exit each of its arrays holds what the pipeline leaves (`hF2`) and every other buffer what it
    held at entry (`hrest2`). -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## What the fold leaves untouched

    A buffer no host stretch writes and no call has a window on holds at the end what the launch put there. -/

theorem W6_of_untouched (c : Dev nD) (r : Ref sig .tc)
    (h0 : r ∉ hostOps0_W) (h1 : r ∉ hostOps1_W) (h2 : r ∉ hostOps2_W)
    (a0 : ∀ w, Pipeline.arrRef spec0 w ≠ r) (a1 : ∀ w, Pipeline.arrRef spec1 w ≠ r) (a2 : ∀ w, Pipeline.arrRef spec2 w ≠ r) :
    W6 m ρ c (Proc.devRef .tc r) = m ((c : Thread nD τ).loc r) :=
  calc W6 m ρ c (Proc.devRef .tc r)
    _ = W5 m ρ c (Proc.devRef .tc r) := W6_of_ne m ρ c r a2
    _ = W4 m ρ c (Proc.devRef .tc r) := StableHlo.after_of_writes_sub hostOps2 _ hostOps2_writes h2
    _ = W3 m ρ c (Proc.devRef .tc r) := W4_of_ne m ρ c r a1
    _ = W2 m ρ c (Proc.devRef .tc r) := StableHlo.after_of_writes_sub hostOps1 _ hostOps1_writes h1
    _ = W1 m ρ c (Proc.devRef .tc r) := W2_of_ne m ρ c r a0
    _ = W0 m ρ c (Proc.devRef .tc r) := StableHlo.after_of_writes_sub hostOps0 _ hostOps0_writes h0
    _ = m ((c : Thread nD τ).loc r) := rfl

/-! ### The arguments end as launched: no host operation writes one and no call has a window on one -/

theorem W6_main_arg0 (c : Dev nD) : W6 m ρ c (Proc.devRef .tc main_arg0) = m ((c : Thread nD τ).loc main_arg0) :=
  W6_of_untouched m ρ c main_arg0 (by decide) (by decide) (by decide) (by decide) (by decide) (by decide)
theorem W6_main_arg1 (c : Dev nD) : W6 m ρ c (Proc.devRef .tc main_arg1) = m ((c : Thread nD τ).loc main_arg1) :=
  W6_of_untouched m ρ c main_arg1 (by decide) (by decide) (by decide) (by decide) (by decide) (by decide)
theorem W6_main_arg2 (c : Dev nD) : W6 m ρ c (Proc.devRef .tc main_arg2) = m ((c : Thread nD τ).loc main_arg2) :=
  W6_of_untouched m ρ c main_arg2 (by decide) (by decide) (by decide) (by decide) (by decide) (by decide)
theorem W6_main_arg3 (c : Dev nD) : W6 m ρ c (Proc.devRef .tc main_arg3) = m ((c : Thread nD τ).loc main_arg3) :=
  W6_of_untouched m ρ c main_arg3 (by decide) (by decide) (by decide) (by decide) (by decide) (by decide)
theorem W6_main_arg4 (c : Dev nD) : W6 m ρ c (Proc.devRef .tc main_arg4) = m ((c : Thread nD τ).loc main_arg4) :=
  W6_of_untouched m ρ c main_arg4 (by decide) (by decide) (by decide) (by decide) (by decide) (by decide)
theorem W6_main_arg5 (c : Dev nD) : W6 m ρ c (Proc.devRef .tc main_arg5) = m ((c : Thread nD τ).loc main_arg5) :=
  W6_of_untouched m ρ c main_arg5 (by decide) (by decide) (by decide) (by decide) (by decide) (by decide)
theorem W6_main_arg6 (c : Dev nD) : W6 m ρ c (Proc.devRef .tc main_arg6) = m ((c : Thread nD τ).loc main_arg6) :=
  W6_of_untouched m ρ c main_arg6 (by decide) (by decide) (by decide) (by decide) (by decide) (by decide)
theorem W6_main_arg7 (c : Dev nD) : W6 m ρ c (Proc.devRef .tc main_arg7) = m ((c : Thread nD τ).loc main_arg7) :=
  W6_of_untouched m ρ c main_arg7 (by decide) (by decide) (by decide) (by decide) (by decide) (by decide)
theorem W6_main_arg8 (c : Dev nD) : W6 m ρ c (Proc.devRef .tc main_arg8) = m ((c : Thread nD τ).loc main_arg8) :=
  W6_of_untouched m ρ c main_arg8 (by decide) (by decide) (by decide) (by decide) (by decide) (by decide)
theorem W6_main_arg9 (c : Dev nD) : W6 m ρ c (Proc.devRef .tc main_arg9) = m ((c : Thread nD τ).loc main_arg9) :=
  W6_of_untouched m ρ c main_arg9 (by decide) (by decide) (by decide) (by decide) (by decide) (by decide)
theorem W6_main_arg10 (c : Dev nD) : W6 m ρ c (Proc.devRef .tc main_arg10) = m ((c : Thread nD τ).loc main_arg10) :=
  W6_of_untouched m ρ c main_arg10 (by decide) (by decide) (by decide) (by decide) (by decide) (by decide)
theorem W6_main_arg11 (c : Dev nD) : W6 m ρ c (Proc.devRef .tc main_arg11) = m ((c : Thread nD τ).loc main_arg11) :=
  W6_of_untouched m ρ c main_arg11 (by decide) (by decide) (by decide) (by decide) (by decide) (by decide)

/-! ### The calls' outputs -/

/-- The logits array at the end is what the third call's write-backs leave. -/
theorem W6_out0 (c : Dev nD) : W6 m ρ c (Proc.devRef .tc main_v14_0) = (dat2 (V5 m ρ) c).arrAt 4 cfg2.N :=
  W6_arr m ρ c 4
/-- The value column at the end is what the third call's write-backs leave. -/
theorem W6_out1 (c : Dev nD) : W6 m ρ c (Proc.devRef .tc main_v14_1) = (dat2 (V5 m ρ) c).arrAt 5 cfg2.N :=
  W6_arr m ρ c 5

/-- The first call's output reaches the third call untouched: the second call has no window on it and no host
    stretch after the first call writes it. -/
theorem V5_v5 (c : Dev nD) : V5 m ρ c main_v5 = (dat0 (V1 m ρ) c).arrAt 5 cfg0.N :=
  calc W5 m ρ c (Proc.devRef .tc main_v5)
    _ = W4 m ρ c (Proc.devRef .tc main_v5) := StableHlo.after_of_writes_sub hostOps2 _ hostOps2_writes (by decide)
    _ = W3 m ρ c (Proc.devRef .tc main_v5) := W4_of_ne m ρ c main_v5 (by decide)
    _ = W2 m ρ c (Proc.devRef .tc main_v5) := StableHlo.after_of_writes_sub hostOps1 _ hostOps1_writes (by decide)
    _ = (dat0 (V1 m ρ) c).arrAt 5 cfg0.N := W2_arr m ρ c 5
/-- The second call's output reaches the third call untouched. -/
theorem V5_v11 (c : Dev nD) : V5 m ρ c main_v11 = (dat1 (V3 m ρ) c).arrAt 5 cfg1.N :=
  calc W5 m ρ c (Proc.devRef .tc main_v11)
    _ = W4 m ρ c (Proc.devRef .tc main_v11) := StableHlo.after_of_writes_sub hostOps2 _ hostOps2_writes (by decide)
    _ = (dat1 (V3 m ρ) c).arrAt 5 cfg1.N := W4_arr m ρ c 5

/-! # The proof data family and the thread state -/

/-- Every call's proof data, each at its call's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves
    those references at what the stretch's operations compute from `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W6`, the
    generator register at some state. -/
abbrev Tₙ (c : Dev nD) : sProp 𝕄 := iprop(StableHlo.held (c : Thread nD τ) (Pipeline.ucRefs τ sig) (W6 m ρ c) ∗ ∃ r, prngReg c r)

/-! # The calls as segments -/

set_option backward.isDefEq.respectTransparency.types false in
/-- CALL 0 over the thread state: entered from every unscoped buffer at `W1`, left at `W2`. Its arrays are
    split out of the unscoped buffers and put back at the exit contents; the generator register goes into the
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- CALL 1 over the thread state: entered from every unscoped buffer at `W3`, left at `W4`. Its arrays are
    split out of the unscoped buffers and put back at the exit contents; the generator register goes into the
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- CALL 2 over the thread state: entered from every unscoped buffer at `W5`, left at `W6`. Its arrays are
    split out of the unscoped buffers and put back at the exit contents; the generator register goes into the
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIClass.entails_trans ?_ (show Pipeline.ΦA spec2 c ⊢ (pdats m ρ 2 c).Φ 0 from hin2 (V5 m ρ) c)
    unfold Pipeline.ΦA
    iintro ⟨Hp, -, Hr⟩
    isplitl [Hr]; · iexact Hr
    iexact Hp
  hout c := by
    refine BIClass.entails_trans (show (pdats m ρ 2 c).Φ (Fin.last _) ⊢ Pipeline.ΦA spec2 c from hout2 (V5 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # @main as segments, and the launch -/

/-- @main's six segments in order: a host segment per stretch from its boundary's contents, a segment per call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- @main is the run of the segments. -/
theorem main_run (c : Dev nD) : main (F := F) c = Pipeline.Seg.run (segs m ρ) := (main_chain c).trans (by chain_rfl)

set_option backward.isDefEq.respectTransparency.types false in
/-- THE RUN. At the compiled mesh, from any memory with zero counters, every weakly fair execution of @main on the
    TensorCores terminates, nothing faulting, and in every final state each core's unscoped buffers hold the fold's
    last contents `W6`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- THE FRAME: the run's final state read at the twelve argument arrays, each of which the fold leaves as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (run_all m ρ).mono fun r h c =>
   ⟨(h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c),
    (h c _ (mem_uc main_arg7 (by decide))).trans (W6_main_arg7 m ρ c),
    (h c _ (mem_uc main_arg8 (by decide))).trans (W6_main_arg8 m ρ c),
    (h c _ (mem_uc main_arg9 (by decide))).trans (W6_main_arg9 m ρ c),
    (h c _ (mem_uc main_arg10 (by decide))).trans (W6_main_arg10 m ρ c),
    (h c _ (mem_uc main_arg11 (by decide))).trans (W6_main_arg11 m ρ c)⟩

end Cert.KernelIdeal.Hand

end
-- ==== Proof.Spec.lean ====
/-
  What both programs compute, as plain functions of coordinates over the extended reals.
  An encoder is a two-layer perceptron followed by a row normalisation, and acts on every row by itself:
  hidden unit k of a row x is max(Σ_d x_d·W1[d,k] + b1[k], 0); output unit q before normalising is
  Σ_k hidden_k·W2[k,q] + b2[q]; the row is then divided by max(sqrt(Σ_e out_e²), ε).
  A logit is (1 + ⟨message row, candidate row⟩)·½; a value is the logistic function of
  Σ_n logit_n·v_n + bias. The float literals (ε, 1, ½) are kept as their words: both programs spell the same words.
-/
import Idealize.ShloMosaic.PureOps.Ideal
import Idealize.ShloMosaic.Lib.ValueIdx

noncomputable section

open scoped BigOperators

namespace Cert.Spec

open Idealize.ShloMosaic Idealize.ShloMosaic.ValueIdx

/-- A rank-2 array of extended reals, and a rank-1 one. -/
abbrev A2 (n0 n1 : Nat) : Type := (⟨2, ![n0, n1]⟩ : Shape).Idx → EReal
abbrev A1 (n : Nat) : Type := (⟨1, ![n]⟩ : Shape).Idx → EReal

/-- Hidden unit `k` of a row: the rectified affine image. -/
def hid (x : Fin 1024 → EReal) (w1 : Fin 1024 → Fin 4096 → EReal) (b1 : Fin 4096 → EReal) (k : Fin 4096) : EReal :=
  max ((∑ d : Fin 1024, x d * w1 d k) + b1 k) 0

/-- Output unit `q` of a row before the normalisation. -/
def pre (x : Fin 1024 → EReal) (w1 : Fin 1024 → Fin 4096 → EReal) (b1 : Fin 4096 → EReal)
    (w2 : Fin 4096 → Fin 1024 → EReal) (b2 : Fin 1024 → EReal) (q : Fin 1024) : EReal :=
  (∑ k : Fin 4096, hid x w1 b1 k * w2 k q) + b2 q

/-- Output unit `q` of a row: divided by the row's Euclidean norm, the norm kept at least ε. -/
def encRow (x : Fin 1024 → EReal) (w1 : Fin 1024 → Fin 4096 → EReal) (b1 : Fin 4096 → EReal)
    (w2 : Fin 4096 → Fin 1024 → EReal) (b2 : Fin 1024 → EReal) (q : Fin 1024) : EReal :=
  Ideal.div (pre x w1 b1 w2 b2 q)
    (max (Ideal.sqrt (∑ e : Fin 1024, pre x w1 b1 w2 b2 e * pre x w1 b1 w2 b2 e)) (Ideal.ofBits .f32 0x322BCC77#32))

/-- The logit of a message row against a candidate row. -/
def logit (mrow crow : Fin 1024 → EReal) : EReal :=
  (Ideal.ofBits .f32 0x3F800000#32 + ∑ e : Fin 1024, mrow e * crow e) * Ideal.ofBits .f32 0x3F000000#32

/-- The value of a row of logits. -/
def valueOf (l vw : Fin 8192 → EReal) (vb : EReal) : EReal :=
  Ideal.logistic ((∑ n : Fin 8192, l n * vw n) + vb)

/-- The logit at (p, n) from the ten argument arrays it depends on. -/
def specLogit (a0 : A2 2048 1024) (a1 : A2 8192 1024) (a2 : A2 1024 4096) (a3 : A1 4096) (a4 : A2 4096 1024) (a5 : A1 1024)
    (a6 : A2 1024 4096) (a7 : A1 4096) (a8 : A2 4096 1024) (a9 : A1 1024) (p : Fin 2048) (n : Fin 8192) : EReal :=
  logit
    (encRow (fun d => a0 (ix2 p d)) (fun d k => a2 (ix2 d k)) (fun k => a3 (ix1 k)) (fun k q => a4 (ix2 k q)) (fun q => a5 (ix1 q)))
    (encRow (fun d => a1 (ix2 n d)) (fun d k => a6 (ix2 d k)) (fun k => a7 (ix1 k)) (fun k q => a8 (ix2 k q)) (fun q => a9 (ix1 q)))

/-- The value at row p from the twelve argument arrays. -/
def specValue (a0 : A2 2048 1024) (a1 : A2 8192 1024) (a2 : A2 1024 4096) (a3 : A1 4096) (a4 : A2 4096 1024) (a5 : A1 1024)
    (a6 : A2 1024 4096) (a7 : A1 4096) (a8 : A2 4096 1024) (a9 : A1 1024) (a10 : A2 8192 1) (a11 : A1 1) (p : Fin 2048) : EReal :=
  valueOf (fun n => specLogit a0 a1 a2 a3 a4 a5 a6 a7 a8 a9 p n) (fun n => a10 (ix2 n 0)) (a11 (ix1 0))

end Cert.Spec

end
-- ==== Proof.EncValue0.lean ====
/-
  The first encoder call's result array, read at an index, at the exact instance: row p, column q of what the call
  leaves in its output array is output unit q of the encoder applied to row p of its input array — the call's
  eight row blocks tile the array, and each block's rows are computed from that block's rows alone.
-/
import proofs.«176400_j46969762349635_1_alg».proof.Proof.KernelIdeal.Enc0
import proofs.«176400_j46969762349635_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

namespace Enc0

/-! ## The two matrix products at an index -/

/-! The operand indices of the first product at an output index and a contraction index, axis by axis. -/

theorem lhs_mm1_0 (i : S256x4096.Idx) (q : dot_S256x1024_S1024x4096_S256x4096_1_0_0_1_n_n.contr.Idx) :
    (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl
theorem lhs_mm1_1 (i : S256x4096.Idx) (q : dot_S256x1024_S1024x4096_S256x4096_1_0_0_1_n_n.contr.Idx) :
    (dot_S256x1024_S1024x4096_S256x4096_1_0_0_1_n_n.lhsIdx i q 1).val = (q ⟨0, by decide⟩).val :=
  dot_S256x1024_S1024x4096_S256x4096_1_0_0_1_n_n.lhsIdx_val_of_single rfl i q
theorem rhs_mm1_0 (i : S256x4096.Idx) (q : dot_S256x1024_S1024x4096_S256x4096_1_0_0_1_n_n.contr.Idx) :
    (dot_S256x1024_S1024x4096_S256x4096_1_0_0_1_n_n.rhsIdx i q 0).val = (q ⟨0, by decide⟩).val :=
  dot_S256x1024_S1024x4096_S256x4096_1_0_0_1_n_n.rhsIdx_val_of_single rfl i q
theorem rhs_mm1_1 (i : S256x4096.Idx) (q : dot_S256x1024_S1024x4096_S256x4096_1_0_0_1_n_n.contr.Idx) :
    (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

/-- The first product: row r of the left operand against column k of the right. -/
theorem mm1_apply (a : FVec Ideal S256x1024 .bf16) (b : FVec Ideal S1024x4096 .bf16) (r : Fin 256) (k : Fin 4096) :
    matmul dot_S256x1024_S1024x4096_S256x4096_1_0_0_1_n_n none a b (constant (F := Ideal) S256x4096 .f32 0x00000000#32) (ix2 r k)
      = ∑ d : Fin 1024, a (ix2 r d) * b (ix2 d k) := by
  show FloatOps.matmul dot_S256x1024_S1024x4096_S256x4096_1_0_0_1_n_n none a b (constant (F := Ideal) S256x4096 .f32 0x00000000#32) (ix2 r k) = _
  rw [Ideal.matmul_constant_zero_apply, ← Equiv.sum_comp (ValueIdx.contrEquiv1 dot_S256x1024_S1024x4096_S256x4096_1_0_0_1_n_n 1024 rfl rfl).symm]
  refine Finset.sum_congr rfl fun d _ => ?_
  have hk := ValueIdx.contrEquiv1_symm_val dot_S256x1024_S1024x4096_S256x4096_1_0_0_1_n_n 1024 rfl rfl d
  have el : dot_S256x1024_S1024x4096_S256x4096_1_0_0_1_n_n.lhsIdx (ix2 r k) ((ValueIdx.contrEquiv1 dot_S256x1024_S1024x4096_S256x4096_1_0_0_1_n_n 1024 rfl rfl).symm d) = ix2 r d := funext fun x => Fin.ext (by
    match x with
    | ⟨0, _⟩ => exact lhs_mm1_0 _ _
    | ⟨1, _⟩ => exact (lhs_mm1_1 _ _).trans hk)
  have er : dot_S256x1024_S1024x4096_S256x4096_1_0_0_1_n_n.rhsIdx (ix2 r k) ((ValueIdx.contrEquiv1 dot_S256x1024_S1024x4096_S256x4096_1_0_0_1_n_n 1024 rfl rfl).symm d) = ix2 d k := funext fun x => Fin.ext (by
    match x with
    | ⟨0, _⟩ => exact (rhs_mm1_0 _ _).trans hk
    | ⟨1, _⟩ => exact rhs_mm1_1 _ _)
  rw [el, er]

/-! The operand indices of the second product, axis by axis. -/

theorem lhs_mm2_0 (i : S256x1024.Idx) (q : dot_S256x4096_S4096x1024_S256x1024_1_0_0_1_n_n.contr.Idx) :
    (dot_S256x4096_S4096x1024_S256x1024_1_0_0_1_n_n.lhsIdx i q 0).val = (i 0).val := by
  unfold DotDims.lhsIdx
  rw [dif_neg (show ¬(0 : Fin S256x4096.rank) ∈ dot_S256x4096_S4096x1024_S256x1024_1_0_0_1_n_n.lhsBatch by decide), dif_pos (show (0 : Fin S256x4096.rank) ∈ dot_S256x4096_S4096x1024_S256x1024_1_0_0_1_n_n.lhsNonContracting by decide)]
  rfl
theorem lhs_mm2_1 (i : S256x1024.Idx) (q : dot_S256x4096_S4096x1024_S256x1024_1_0_0_1_n_n.contr.Idx) :
    (dot_S256x4096_S4096x1024_S256x1024_1_0_0_1_n_n.lhsIdx i q 1).val = (q ⟨0, by decide⟩).val :=
  dot_S256x4096_S4096x1024_S256x1024_1_0_0_1_n_n.lhsIdx_val_of_single rfl i q
theorem rhs_mm2_0 (i : S256x1024.Idx) (q : dot_S256x4096_S4096x1024_S256x1024_1_0_0_1_n_n.contr.Idx) :
    (dot_S256x4096_S4096x1024_S256x1024_1_0_0_1_n_n.rhsIdx i q 0).val = (q ⟨0, by decide⟩).val :=
  dot_S256x4096_S4096x1024_S256x1024_1_0_0_1_n_n.rhsIdx_val_of_single rfl i q
theorem rhs_mm2_1 (i : S256x1024.Idx) (q : dot_S256x4096_S4096x1024_S256x1024_1_0_0_1_n_n.contr.Idx) :
    (dot_S256x4096_S4096x1024_S256x1024_1_0_0_1_n_n.rhsIdx i q 1).val = (i 1).val := by
  unfold DotDims.rhsIdx
  rw [dif_neg (show ¬(1 : Fin S4096x1024.rank) ∈ dot_S256x4096_S4096x1024_S256x1024_1_0_0_1_n_n.rhsBatch by decide), dif_pos (show (1 : Fin S4096x1024.rank) ∈ dot_S256x4096_S4096x1024_S256x1024_1_0_0_1_n_n.rhsNonContracting by decide)]
  rfl

/-- The second product: row r of the left operand against column q of the right. -/
theorem mm2_apply (a : FVec Ideal S256x4096 .bf16) (b : FVec Ideal S4096x1024 .bf16) (r : Fin 256) (q : Fin 1024) :
    matmul dot_S256x4096_S4096x1024_S256x1024_1_0_0_1_n_n none a b (constant (F := Ideal) S256x1024 .f32 0x00000000#32) (ix2 r q)
      = ∑ k : Fin 4096, a (ix2 r k) * b (ix2 k q) := by
  show FloatOps.matmul dot_S256x4096_S4096x1024_S256x1024_1_0_0_1_n_n none a b (constant (F := Ideal) S256x1024 .f32 0x00000000#32) (ix2 r q) = _
  rw [Ideal.matmul_constant_zero_apply, ← Equiv.sum_comp (ValueIdx.contrEquiv1 dot_S256x4096_S4096x1024_S256x1024_1_0_0_1_n_n 4096 rfl rfl).symm]
  refine Finset.sum_congr rfl fun k _ => ?_
  have hk := ValueIdx.contrEquiv1_symm_val dot_S256x4096_S4096x1024_S256x1024_1_0_0_1_n_n 4096 rfl rfl k
  have el : dot_S256x4096_S4096x1024_S256x1024_1_0_0_1_n_n.lhsIdx (ix2 r q) ((ValueIdx.contrEquiv1 dot_S256x4096_S4096x1024_S256x1024_1_0_0_1_n_n 4096 rfl rfl).symm k) = ix2 r k := funext fun x => Fin.ext (by
    match x with
    | ⟨0, _⟩ => exact lhs_mm2_0 _ _
    | ⟨1, _⟩ => exact (lhs_mm2_1 _ _).trans hk)
  have er : dot_S256x4096_S4096x1024_S256x1024_1_0_0_1_n_n.rhsIdx (ix2 r q) ((ValueIdx.contrEquiv1 dot_S256x4096_S4096x1024_S256x1024_1_0_0_1_n_n 4096 rfl rfl).symm k) = ix2 k q := funext fun x => Fin.ext (by
    match x with
    | ⟨0, _⟩ => exact (rhs_mm2_0 _ _).trans hk
    | ⟨1, _⟩ => exact rhs_mm2_1 _ _)
  rw [el, er]

/-! ## The layout operations and the lane sum at an index -/

/-- A column of `a` entries cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the operand's row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along a row of a `[256, 1024]` array, at row `r`. -/
theorem rowSum_apply (v : FVec Ideal S256x1024 .f32) (h : S256x1024.Reduces [1] S256) (hφ : FKind.Formats FTy.f32)
    (hacc : (0x00000000#32 : BitVec 32) = 0x00000000#32) (r : Fin 256) :
    multiReduction (F := Ideal) .add [1] S256 v 0x00000000#32 h hφ hacc (ix1 r) = ∑ e : Fin 1024, v (ix2 r e) := by
  refine (Ideal.multiReduction_add_single v 0x00000000#32 h hφ hacc (ix1 r)).trans ?_
  refine Finset.sum_congr rfl fun e _ => congrArg v (funext fun x => Fin.ext ?_)
  match x with
  | ⟨0, _⟩ => rfl
  | ⟨1, _⟩ => rfl

/-! ## The body's stored value at an index -/

/-- A lane-by-lane square root reads the square root of the lane. -/
theorem sqrt_apply {s : Shape} {φ : FTy} (a : FVec Ideal s φ) (i : s.Idx) : sqrt a i = Ideal.sqrt (a i) := rfl

/-- The block's rows before the normalisation, as the body computes them from its five blocks: the rectified first
    product plus bias, times the second weight block, plus the second bias. -/
def preK (x0 : FVec Ideal S256x1024 .bf16) (x1 : FVec Ideal S1024x4096 .bf16) (x2 : FVec Ideal S1x4096 .f32)
    (x3 : FVec Ideal S4096x1024 .bf16) (x4 : FVec Ideal S1x1024 .f32) : FVec Ideal S256x1024 .f32 :=
  addf (matmul dot_S256x4096_S4096x1024_S256x1024_1_0_0_1_n_n none
      (truncf .bf16 (maximumf (addf (matmul dot_S256x1024_S1024x4096_S256x4096_1_0_0_1_n_n none x0 x1 (constant (F := Ideal) S256x4096 .f32 0x00000000#32))
          (broadcastTo S256x4096 x2 broadcasts_S1x4096_S256x4096)) (broadcast S256x4096 (FloatOps.ofBits (F := Ideal) .f32 0x00000000#32))) bitsLt_bf16_f32)
      x3 (constant (F := Ideal) S256x1024 .f32 0x00000000#32))
    (broadcastTo S256x1024 x4 broadcasts_S1x1024_S256x1024)

/-- The sums of squares along the rows of an array. -/
def sqNorm (v : FVec Ideal S256x1024 .f32) : FVec Ideal S256 .f32 :=
  multiReduction (F := Ideal) .add [1] S256 (mulf v v) 0x00000000#32 reduces_S256x1024_S256 (.inl rfl) rfl

/-- The stored value is the rows before the normalisation, each divided by the larger of its Euclidean norm and ε. -/
theorem pay_eq (x0 : FVec Ideal S256x1024 .bf16) (x1 : FVec Ideal S1024x4096 .bf16) (x2 : FVec Ideal S1x4096 .f32)
    (x3 : FVec Ideal S4096x1024 .bf16) (x4 : FVec Ideal S1x1024 .f32) :
    k0_pay1 (F := Ideal) x0 x1 x2 x3 x4
      = truncf .bf16 (divf (preK x0 x1 x2 x3 x4) (broadcastTo S256x1024 (maximumf (sqrt (shapeCast S256x1 (sqNorm (preK x0 x1 x2 x3 x4)) shapeCasts_S256_S256x1))
          (broadcast S256x1 (FloatOps.ofBits (F := Ideal) .f32 0x322BCC77#32))) broadcasts_S256x1_S256x1024)) bitsLt_bf16_f32 := by
  unfold k0_pay1 preK sqNorm
  simp only [shapeCast_self]

/-- Row r, column q before the normalisation is the specification's. -/
theorem preK_apply (x0 : FVec Ideal S256x1024 .bf16) (x1 : FVec Ideal S1024x4096 .bf16) (x2 : FVec Ideal S1x4096 .f32)
    (x3 : FVec Ideal S4096x1024 .bf16) (x4 : FVec Ideal S1x1024 .f32) (r : Fin 256) (q : Fin 1024) :
    preK x0 x1 x2 x3 x4 (ix2 r q)
      = Cert.Spec.pre (fun d => x0 (ix2 r d)) (fun d k => x1 (ix2 d k)) (fun k => x2 (ix2 0 k))
          (fun k q' => x3 (ix2 k q')) (fun q' => x4 (ix2 0 q')) q := by
  unfold preK Cert.Spec.pre Cert.Spec.hid
  simp only [truncf_apply, addf_apply, maximumf_apply, broadcast_apply, mm2_apply, mm1_apply, broadcastTo_1b_ab_apply,
    Ideal.ofBits_def, Ideal.ofBits_zero_f32]

/-- The sum of squares of row r. -/
theorem sqNorm_apply (v : FVec Ideal S256x1024 .f32) (r : Fin 256) : sqNorm v (ix1 r) = ∑ e : Fin 1024, v (ix2 r e) * v (ix2 r e) := by
  unfold sqNorm
  exact rowSum_apply (mulf v v) _ _ _ r

/-- Row r, column q of the value the body stores: output unit q of the encoder on row r of the first block, with the
    weights and bias rows the other four blocks hold. -/
theorem pay_apply (x0 : FVec Ideal S256x1024 .bf16) (x1 : FVec Ideal S1024x4096 .bf16) (x2 : FVec Ideal S1x4096 .f32)
    (x3 : FVec Ideal S4096x1024 .bf16) (x4 : FVec Ideal S1x1024 .f32) (r : Fin 256) (q : Fin 1024) :
    k0_pay1 (F := Ideal) x0 x1 x2 x3 x4 (ix2 r q)
      = Cert.Spec.encRow (fun d => x0 (ix2 r d)) (fun d k => x1 (ix2 d k)) (fun k => x2 (ix2 0 k))
          (fun k q' => x3 (ix2 k q')) (fun q' => x4 (ix2 0 q')) q := by
  rw [pay_eq]
  unfold Cert.Spec.encRow
  simp only [truncf_apply, divf_apply, maximumf_apply, broadcast_apply, sqrt_apply, broadcastTo_a1_ab_apply,
    shapeCast_a_a1_apply, sqNorm_apply, preK_apply, Ideal.ofBits_def]

/-! ## From the eight row blocks to the array -/

/-- The encoder applied to every row of an array of inputs: at (p, q), output unit q of row p. -/
def encArr (A0 : S2048x1024.Idx → EReal) (W1 : S1024x4096.Idx → EReal) (B1 : S1x4096.Idx → EReal)
    (W2 : S4096x1024.Idx → EReal) (B2 : S1x1024.Idx → EReal) : S2048x1024.Idx → EReal := fun i =>
  Cert.Spec.encRow (fun d => A0 (ix2 (⟨(i 0).val, idx2_lt0 i⟩ : Fin 2048) d)) (fun d k => W1 (ix2 d k)) (fun k => B1 (ix2 0 k))
    (fun k q' => W2 (ix2 k q')) (fun q' => B2 (ix2 0 q')) (⟨(i 1).val, idx2_lt1 i⟩ : Fin 1024)

/-- The body's stored value at an index of its block is the encoder's array at an index of the whole array, when the
    first block's row there is the array's row and the other four blocks are the weights and biases. -/
theorem pay_block (A0 : S2048x1024.Idx → EReal) (W1 : S1024x4096.Idx → EReal) (B1 : S1x4096.Idx → EReal)
    (W2 : S4096x1024.Idx → EReal) (B2 : S1x1024.Idx → EReal)
    (x0 : FVec Ideal S256x1024 .bf16) (x1 : FVec Ideal S1024x4096 .bf16) (x2 : FVec Ideal S1x4096 .f32)
    (x3 : FVec Ideal S4096x1024 .bf16) (x4 : FVec Ideal S1x1024 .f32) (j : S256x1024.Idx) (i : S2048x1024.Idx)
    (h0 : ∀ d : Fin 1024, x0 (ix2 (⟨(j 0).val, idx2_lt0 j⟩ : Fin 256) d) = A0 (ix2 (⟨(i 0).val, idx2_lt0 i⟩ : Fin 2048) d))
    (h1 : ∀ (d : Fin 1024) (k : Fin 4096), x1 (ix2 d k) = W1 (ix2 d k))
    (h2 : ∀ k : Fin 4096, x2 (ix2 (0 : Fin 1) k) = B1 (ix2 (0 : Fin 1) k))
    (h3 : ∀ (k : Fin 4096) (q : Fin 1024), x3 (ix2 k q) = W2 (ix2 k q))
    (h4 : ∀ q : Fin 1024, x4 (ix2 (0 : Fin 1) q) = B2 (ix2 (0 : Fin 1) q))
    (hq : (j 1).val = (i 1).val) :
    k0_pay1 (F := Ideal) x0 x1 x2 x3 x4 j = encArr A0 W1 B1 W2 B2 i := by
  refine (congrArg (k0_pay1 (F := Ideal) x0 x1 x2 x3 x4) (eq_ix2 j)).trans ?_
  refine (pay_apply x0 x1 x2 x3 x4 (⟨(j 0).val, idx2_lt0 j⟩ : Fin 256) (⟨(j 1).val, idx2_lt1 j⟩ : Fin 1024)).trans ?_
  unfold encArr
  simp only [h0, h1, h2, h3, h4]
  exact congrArg _ (Fin.ext hq)

/-- The index maps over the grid, decided: the input rows' block moves with the output's, every other input's block
    is its whole array, and the output's block index is the point. -/
theorem idx_facts : ∀ t : Fin cfg0.N, win0_0.index t (0 : Fin 2) = win0_5.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What the array ends holding: the encoder on every row of the input array, with the weights and biases as found. -/
abbrev G (c : Dev nD) : S2048x1024.Idx → EReal :=
  encArr (V c main_v0 : S2048x1024.Idx → EReal) (V c main_v1 : S1024x4096.Idx → EReal) (V c main_v3 : S1x4096.Idx → EReal)
    (V c main_v2 : S4096x1024.Idx → EReal) (V c main_v4 : S1x1024.Idx → EReal)

/-- What point t writes back is block t of that array. -/
theorem flushed_eq (c : Dev nD) (t : Fin cfg0.N) :
    (dat0 (F := Ideal) V c).flushed 5 t = ((cfg0.win 5).blk t).view.read (Elt Ideal) (G V c) := by
  show (cfg0.win 5).cut (grid0.coords t) ((dat0 (F := Ideal) V c).after 5 t) = _
  rw [after0_5]
  obtain ⟨e00, e01, e10, e11, e20, e21, e30, e31, e40, e41, e50, e51⟩ := idx_facts t
  funext j
  have hj0 : (j 0).val < 256 := (j 0).isLt
  have hj1 : (j 1).val < 1024 := (j 1).isLt
  refine pay_block (V c main_v0 : S2048x1024.Idx → EReal) (V c main_v1 : S1024x4096.Idx → EReal) (V c main_v3 : S1x4096.Idx → EReal)
    (V c main_v2 : S4096x1024.Idx → EReal) (V c main_v4 : S1x1024.Idx → EReal)
    (iblk0 V c 0 t) (iblk0 V c 1 t) (iblk0 V c 2 t) (iblk0 V c 3 t) (iblk0 V c 4 t)
    ((cfg0.win 5).xinj (grid0.coords t) j) (((cfg0.win 5).blk t).view.emb j) ?_ ?_ ?_ ?_ ?_ ?_
  · intro d
    show (V c main_v0 : S2048x1024.Idx → EReal) (((cfg0.win 0).blk t).view.emb (ix2 (⟨(j 0).val, hj0⟩ : Fin 256) d))
      = (V c main_v0 : S2048x1024.Idx → EReal) (ix2 (⟨(((cfg0.win 5).blk t).view.emb j 0).val, idx2_lt0 _⟩ : Fin 2048) d)
    refine congrArg _ (funext fun a => Fin.ext ?_)
    match a with
    | ⟨0, _⟩ => show win0_0.index t (0 : Fin 2) * 256 + 1 * (j 0).val = win0_5.index t (0 : Fin 2) * 256 + 1 * (j 0).val; omega
    | ⟨1, _⟩ => show win0_0.index t (1 : Fin 2) * 1024 + 1 * d.val = d.val; omega
  · intro d k
    show (V c main_v1 : S1024x4096.Idx → EReal) (((cfg0.win 1).blk t).view.emb (ix2 d k)) = (V c main_v1 : S1024x4096.Idx → EReal) (ix2 d k)
    refine congrArg _ (funext fun a => Fin.ext ?_)
    match a with
    | ⟨0, _⟩ => show win0_1.index t (0 : Fin 2) * 1024 + 1 * d.val = d.val; omega
    | ⟨1, _⟩ => show win0_1.index t (1 : Fin 2) * 4096 + 1 * k.val = k.val; omega
  · intro k
    show (V c main_v3 : S1x4096.Idx → EReal) (((cfg0.win 2).blk t).view.emb (ix2 (0 : Fin 1) k)) = (V c main_v3 : S1x4096.Idx → EReal) (ix2 (0 : Fin 1) k)
    refine congrArg _ (funext fun a => Fin.ext ?_)
    match a with
    | ⟨0, _⟩ => show win0_2.index t (0 : Fin 2) * 1 + 1 * 0 = 0; omega
    | ⟨1, _⟩ => show win0_2.index t (1 : Fin 2) * 4096 + 1 * k.val = k.val; omega
  · intro k q
    show (V c main_v2 : S4096x1024.Idx → EReal) (((cfg0.win 3).blk t).view.emb (ix2 k q)) = (V c main_v2 : S4096x1024.Idx → EReal) (ix2 k q)
    refine congrArg _ (funext fun a => Fin.ext ?_)
    match a with
    | ⟨0, _⟩ => show win0_3.index t (0 : Fin 2) * 4096 + 1 * k.val = k.val; omega
    | ⟨1, _⟩ => show win0_3.index t (1 : Fin 2) * 1024 + 1 * q.val = q.val; omega
  · intro q
    show (V c main_v4 : S1x1024.Idx → EReal) (((cfg0.win 4).blk t).view.emb (ix2 (0 : Fin 1) q)) = (V c main_v4 : S1x1024.Idx → EReal) (ix2 (0 : Fin 1) q)
    refine congrArg _ (funext fun a => Fin.ext ?_)
    match a with
    | ⟨0, _⟩ => show win0_4.index t (0 : Fin 2) * 1 + 1 * 0 = 0; omega
    | ⟨1, _⟩ => show win0_4.index t (1 : Fin 2) * 1024 + 1 * q.val = q.val; omega
  · show (j 1).val = win0_5.index t (1 : Fin 2) * 1024 + 1 * (j 1).val
    omega

/-- An index of the array is in point t's block iff each coordinate is in the block's range on its axis. -/
theorem mem_blk (t : Fin cfg0.N) (i : S2048x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v5).slice (win0_5.rect t)).set ↔ _
  rw [View.set_slice_whole, Rect.mem_set_unit]
  exact Iff.rfl

/-- Every index of the array is in some point's block: row r lies in the block of the point r / 256. -/
theorem cover (i : S2048x1024.Idx) : ∃ t : Fin cfg0.N, (cfg0.win 5).flush t = true ∧ i ∈ ((cfg0.win 5).blk t).view.set := by
  have hi0 : (i 0).val < 2048 := (i 0).isLt
  have hi1 : (i 1).val < 1024 := (i 1).isLt
  have hN : cfg0.N = 8 := N_0
  obtain ⟨t, ht⟩ : ∃ t : Fin cfg0.N, t.val = (i 0).val / 256 := ⟨⟨(i 0).val / 256, by rw [hN]; omega⟩, rfl⟩
  obtain ⟨e00, e01, e10, e11, e20, e21, e30, e31, e40, e41, e50, e51⟩ := idx_facts t
  refine ⟨t, flush0_5 t, ?_⟩
  rw [mem_blk]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 1024 ≤ (i 1).val ∧ (i 1).val < win0_5.index t (1 : Fin 2) * 1024 + 1024; omega

/-- The array after the call is the encoder on every row of the input array. -/
theorem final (c : Dev nD) : (dat0 (F := Ideal) V c).arrAt 5 cfg0.N = G V c :=
  (dat0 (F := Ideal) V c).arrAt_eq_of_cover 5 (G V c) (fun t _ => flushed_eq V c t) cover

end Enc0

/-- Row p, column q of the first encoder call's output array after the call. The weights and biases are read from the
    arrays the call is handed: the first weight matrix is window 1's array, the first bias row (1 × 4096) window 2's,
    the second weight matrix window 3's, the second bias row (1 × 1024) window 4's. -/
theorem enc0_value (c : Dev nD) (p : Fin 2048) (q : Fin 1024) :
    ((dat0 (F := Ideal) V c).arrAt 5 cfg0.N : S2048x1024.Idx → EReal) (ix2 p q)
      = Cert.Spec.encRow (fun d => (V c main_v0 : S2048x1024.Idx → EReal) (ix2 p d))
          (fun d k => (V c main_v1 : S1024x4096.Idx → EReal) (ix2 d k))
          (fun k => (V c main_v3 : S1x4096.Idx → EReal) (ix2 0 k))
          (fun k q' => (V c main_v2 : S4096x1024.Idx → EReal) (ix2 k q'))
          (fun q' => (V c main_v4 : S1x1024.Idx → EReal) (ix2 0 q')) q := by
  rw [Enc0.final]
  rfl

end Cert.KernelIdeal.Val

end
-- ==== Proof.EncValue1.lean ====
/-
  The second encoder call's result array, read at an index, at the exact instance: row p, column q of what the call
  leaves in its output array is output unit q of the encoder applied to row p of its input array — the call's
  thirty-two row blocks tile the array, and each block's rows are computed from that block's rows alone.
-/
import proofs.«176400_j46969762349635_1_alg».proof.Proof.KernelIdeal.Enc1
import proofs.«176400_j46969762349635_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

namespace Enc1

/-! ## The two matrix products at an index -/

/-! The operand indices of the first product at an output index and a contraction index, axis by axis. -/

theorem lhs_mm1_0 (i : S256x4096.Idx) (q : dot_S256x1024_S1024x4096_S256x4096_1_0_0_1_n_n.contr.Idx) :
    (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl
theorem lhs_mm1_1 (i : S256x4096.Idx) (q : dot_S256x1024_S1024x4096_S256x4096_1_0_0_1_n_n.contr.Idx) :
    (dot_S256x1024_S1024x4096_S256x4096_1_0_0_1_n_n.lhsIdx i q 1).val = (q ⟨0, by decide⟩).val :=
  dot_S256x1024_S1024x4096_S256x4096_1_0_0_1_n_n.lhsIdx_val_of_single rfl i q
theorem rhs_mm1_0 (i : S256x4096.Idx) (q : dot_S256x1024_S1024x4096_S256x4096_1_0_0_1_n_n.contr.Idx) :
    (dot_S256x1024_S1024x4096_S256x4096_1_0_0_1_n_n.rhsIdx i q 0).val = (q ⟨0, by decide⟩).val :=
  dot_S256x1024_S1024x4096_S256x4096_1_0_0_1_n_n.rhsIdx_val_of_single rfl i q
theorem rhs_mm1_1 (i : S256x4096.Idx) (q : dot_S256x1024_S1024x4096_S256x4096_1_0_0_1_n_n.contr.Idx) :
    (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

/-- The first product: row r of the left operand against column k of the right. -/
theorem mm1_apply (a : FVec Ideal S256x1024 .bf16) (b : FVec Ideal S1024x4096 .bf16) (r : Fin 256) (k : Fin 4096) :
    matmul dot_S256x1024_S1024x4096_S256x4096_1_0_0_1_n_n none a b (constant (F := Ideal) S256x4096 .f32 0x00000000#32) (ix2 r k)
      = ∑ d : Fin 1024, a (ix2 r d) * b (ix2 d k) := by
  show FloatOps.matmul dot_S256x1024_S1024x4096_S256x4096_1_0_0_1_n_n none a b (constant (F := Ideal) S256x4096 .f32 0x00000000#32) (ix2 r k) = _
  rw [Ideal.matmul_constant_zero_apply, ← Equiv.sum_comp (ValueIdx.contrEquiv1 dot_S256x1024_S1024x4096_S256x4096_1_0_0_1_n_n 1024 rfl rfl).symm]
  refine Finset.sum_congr rfl fun d _ => ?_
  have hk := ValueIdx.contrEquiv1_symm_val dot_S256x1024_S1024x4096_S256x4096_1_0_0_1_n_n 1024 rfl rfl d
  have el : dot_S256x1024_S1024x4096_S256x4096_1_0_0_1_n_n.lhsIdx (ix2 r k) ((ValueIdx.contrEquiv1 dot_S256x1024_S1024x4096_S256x4096_1_0_0_1_n_n 1024 rfl rfl).symm d) = ix2 r d := funext fun x => Fin.ext (by
    match x with
    | ⟨0, _⟩ => exact lhs_mm1_0 _ _
    | ⟨1, _⟩ => exact (lhs_mm1_1 _ _).trans hk)
  have er : dot_S256x1024_S1024x4096_S256x4096_1_0_0_1_n_n.rhsIdx (ix2 r k) ((ValueIdx.contrEquiv1 dot_S256x1024_S1024x4096_S256x4096_1_0_0_1_n_n 1024 rfl rfl).symm d) = ix2 d k := funext fun x => Fin.ext (by
    match x with
    | ⟨0, _⟩ => exact (rhs_mm1_0 _ _).trans hk
    | ⟨1, _⟩ => exact rhs_mm1_1 _ _)
  rw [el, er]

/-! The operand indices of the second product, axis by axis. -/

theorem lhs_mm2_0 (i : S256x1024.Idx) (q : dot_S256x4096_S4096x1024_S256x1024_1_0_0_1_n_n.contr.Idx) :
    (dot_S256x4096_S4096x1024_S256x1024_1_0_0_1_n_n.lhsIdx i q 0).val = (i 0).val := by
  unfold DotDims.lhsIdx
  rw [dif_neg (show ¬(0 : Fin S256x4096.rank) ∈ dot_S256x4096_S4096x1024_S256x1024_1_0_0_1_n_n.lhsBatch by decide), dif_pos (show (0 : Fin S256x4096.rank) ∈ dot_S256x4096_S4096x1024_S256x1024_1_0_0_1_n_n.lhsNonContracting by decide)]
  rfl
theorem lhs_mm2_1 (i : S256x1024.Idx) (q : dot_S256x4096_S4096x1024_S256x1024_1_0_0_1_n_n.contr.Idx) :
    (dot_S256x4096_S4096x1024_S256x1024_1_0_0_1_n_n.lhsIdx i q 1).val = (q ⟨0, by decide⟩).val :=
  dot_S256x4096_S4096x1024_S256x1024_1_0_0_1_n_n.lhsIdx_val_of_single rfl i q
theorem rhs_mm2_0 (i : S256x1024.Idx) (q : dot_S256x4096_S4096x1024_S256x1024_1_0_0_1_n_n.contr.Idx) :
    (dot_S256x4096_S4096x1024_S256x1024_1_0_0_1_n_n.rhsIdx i q 0).val = (q ⟨0, by decide⟩).val :=
  dot_S256x4096_S4096x1024_S256x1024_1_0_0_1_n_n.rhsIdx_val_of_single rfl i q
theorem rhs_mm2_1 (i : S256x1024.Idx) (q : dot_S256x4096_S4096x1024_S256x1024_1_0_0_1_n_n.contr.Idx) :
    (dot_S256x4096_S4096x1024_S256x1024_1_0_0_1_n_n.rhsIdx i q 1).val = (i 1).val := by
  unfold DotDims.rhsIdx
  rw [dif_neg (show ¬(1 : Fin S4096x1024.rank) ∈ dot_S256x4096_S4096x1024_S256x1024_1_0_0_1_n_n.rhsBatch by decide), dif_pos (show (1 : Fin S4096x1024.rank) ∈ dot_S256x4096_S4096x1024_S256x1024_1_0_0_1_n_n.rhsNonContracting by decide)]
  rfl

/-- The second product: row r of the left operand against column q of the right. -/
theorem mm2_apply (a : FVec Ideal S256x4096 .bf16) (b : FVec Ideal S4096x1024 .bf16) (r : Fin 256) (q : Fin 1024) :
    matmul dot_S256x4096_S4096x1024_S256x1024_1_0_0_1_n_n none a b (constant (F := Ideal) S256x1024 .f32 0x00000000#32) (ix2 r q)
      = ∑ k : Fin 4096, a (ix2 r k) * b (ix2 k q) := by
  show FloatOps.matmul dot_S256x4096_S4096x1024_S256x1024_1_0_0_1_n_n none a b (constant (F := Ideal) S256x1024 .f32 0x00000000#32) (ix2 r q) = _
  rw [Ideal.matmul_constant_zero_apply, ← Equiv.sum_comp (ValueIdx.contrEquiv1 dot_S256x4096_S4096x1024_S256x1024_1_0_0_1_n_n 4096 rfl rfl).symm]
  refine Finset.sum_congr rfl fun k _ => ?_
  have hk := ValueIdx.contrEquiv1_symm_val dot_S256x4096_S4096x1024_S256x1024_1_0_0_1_n_n 4096 rfl rfl k
  have el : dot_S256x4096_S4096x1024_S256x1024_1_0_0_1_n_n.lhsIdx (ix2 r q) ((ValueIdx.contrEquiv1 dot_S256x4096_S4096x1024_S256x1024_1_0_0_1_n_n 4096 rfl rfl).symm k) = ix2 r k := funext fun x => Fin.ext (by
    match x with
    | ⟨0, _⟩ => exact lhs_mm2_0 _ _
    | ⟨1, _⟩ => exact (lhs_mm2_1 _ _).trans hk)
  have er : dot_S256x4096_S4096x1024_S256x1024_1_0_0_1_n_n.rhsIdx (ix2 r q) ((ValueIdx.contrEquiv1 dot_S256x4096_S4096x1024_S256x1024_1_0_0_1_n_n 4096 rfl rfl).symm k) = ix2 k q := funext fun x => Fin.ext (by
    match x with
    | ⟨0, _⟩ => exact (rhs_mm2_0 _ _).trans hk
    | ⟨1, _⟩ => exact rhs_mm2_1 _ _)
  rw [el, er]

/-! ## The layout operations and the lane sum at an index -/

/-- A column of `a` entries cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the operand's row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along a row of a `[256, 1024]` array, at row `r`. -/
theorem rowSum_apply (v : FVec Ideal S256x1024 .f32) (h : S256x1024.Reduces [1] S256) (hφ : FKind.Formats FTy.f32)
    (hacc : (0x00000000#32 : BitVec 32) = 0x00000000#32) (r : Fin 256) :
    multiReduction (F := Ideal) .add [1] S256 v 0x00000000#32 h hφ hacc (ix1 r) = ∑ e : Fin 1024, v (ix2 r e) := by
  refine (Ideal.multiReduction_add_single v 0x00000000#32 h hφ hacc (ix1 r)).trans ?_
  refine Finset.sum_congr rfl fun e _ => congrArg v (funext fun x => Fin.ext ?_)
  match x with
  | ⟨0, _⟩ => rfl
  | ⟨1, _⟩ => rfl

/-! ## The body's stored value at an index -/

/-- A lane-by-lane square root reads the square root of the lane. -/
theorem sqrt_apply {s : Shape} {φ : FTy} (a : FVec Ideal s φ) (i : s.Idx) : sqrt a i = Ideal.sqrt (a i) := rfl

/-- The block's rows before the normalisation, as the body computes them from its five blocks: the rectified first
    product plus bias, times the second weight block, plus the second bias. -/
def preK (x0 : FVec Ideal S256x1024 .bf16) (x1 : FVec Ideal S1024x4096 .bf16) (x2 : FVec Ideal S1x4096 .f32)
    (x3 : FVec Ideal S4096x1024 .bf16) (x4 : FVec Ideal S1x1024 .f32) : FVec Ideal S256x1024 .f32 :=
  addf (matmul dot_S256x4096_S4096x1024_S256x1024_1_0_0_1_n_n none
      (truncf .bf16 (maximumf (addf (matmul dot_S256x1024_S1024x4096_S256x4096_1_0_0_1_n_n none x0 x1 (constant (F := Ideal) S256x4096 .f32 0x00000000#32))
          (broadcastTo S256x4096 x2 broadcasts_S1x4096_S256x4096)) (broadcast S256x4096 (FloatOps.ofBits (F := Ideal) .f32 0x00000000#32))) bitsLt_bf16_f32)
      x3 (constant (F := Ideal) S256x1024 .f32 0x00000000#32))
    (broadcastTo S256x1024 x4 broadcasts_S1x1024_S256x1024)

/-- The sums of squares along the rows of an array. -/
def sqNorm (v : FVec Ideal S256x1024 .f32) : FVec Ideal S256 .f32 :=
  multiReduction (F := Ideal) .add [1] S256 (mulf v v) 0x00000000#32 reduces_S256x1024_S256 (.inl rfl) rfl

/-- The stored value is the rows before the normalisation, each divided by the larger of its Euclidean norm and ε. -/
theorem pay_eq (x0 : FVec Ideal S256x1024 .bf16) (x1 : FVec Ideal S1024x4096 .bf16) (x2 : FVec Ideal S1x4096 .f32)
    (x3 : FVec Ideal S4096x1024 .bf16) (x4 : FVec Ideal S1x1024 .f32) :
    k1_pay1 (F := Ideal) x0 x1 x2 x3 x4
      = truncf .bf16 (divf (preK x0 x1 x2 x3 x4) (broadcastTo S256x1024 (maximumf (sqrt (shapeCast S256x1 (sqNorm (preK x0 x1 x2 x3 x4)) shapeCasts_S256_S256x1))
          (broadcast S256x1 (FloatOps.ofBits (F := Ideal) .f32 0x322BCC77#32))) broadcasts_S256x1_S256x1024)) bitsLt_bf16_f32 := by
  unfold k1_pay1 preK sqNorm
  simp only [shapeCast_self]

/-- Row r, column q before the normalisation is the specification's. -/
theorem preK_apply (x0 : FVec Ideal S256x1024 .bf16) (x1 : FVec Ideal S1024x4096 .bf16) (x2 : FVec Ideal S1x4096 .f32)
    (x3 : FVec Ideal S4096x1024 .bf16) (x4 : FVec Ideal S1x1024 .f32) (r : Fin 256) (q : Fin 1024) :
    preK x0 x1 x2 x3 x4 (ix2 r q)
      = Cert.Spec.pre (fun d => x0 (ix2 r d)) (fun d k => x1 (ix2 d k)) (fun k => x2 (ix2 0 k))
          (fun k q' => x3 (ix2 k q')) (fun q' => x4 (ix2 0 q')) q := by
  unfold preK Cert.Spec.pre Cert.Spec.hid
  simp only [truncf_apply, addf_apply, maximumf_apply, broadcast_apply, mm2_apply, mm1_apply, broadcastTo_1b_ab_apply,
    Ideal.ofBits_def, Ideal.ofBits_zero_f32]

/-- The sum of squares of row r. -/
theorem sqNorm_apply (v : FVec Ideal S256x1024 .f32) (r : Fin 256) : sqNorm v (ix1 r) = ∑ e : Fin 1024, v (ix2 r e) * v (ix2 r e) := by
  unfold sqNorm
  exact rowSum_apply (mulf v v) _ _ _ r

/-- Row r, column q of the value the body stores: output unit q of the encoder on row r of the first block, with the
    weights and bias rows the other four blocks hold. -/
theorem pay_apply (x0 : FVec Ideal S256x1024 .bf16) (x1 : FVec Ideal S1024x4096 .bf16) (x2 : FVec Ideal S1x4096 .f32)
    (x3 : FVec Ideal S4096x1024 .bf16) (x4 : FVec Ideal S1x1024 .f32) (r : Fin 256) (q : Fin 1024) :
    k1_pay1 (F := Ideal) x0 x1 x2 x3 x4 (ix2 r q)
      = Cert.Spec.encRow (fun d => x0 (ix2 r d)) (fun d k => x1 (ix2 d k)) (fun k => x2 (ix2 0 k))
          (fun k q' => x3 (ix2 k q')) (fun q' => x4 (ix2 0 q')) q := by
  rw [pay_eq]
  unfold Cert.Spec.encRow
  simp only [truncf_apply, divf_apply, maximumf_apply, broadcast_apply, sqrt_apply, broadcastTo_a1_ab_apply,
    shapeCast_a_a1_apply, sqNorm_apply, preK_apply, Ideal.ofBits_def]

/-! ## From the thirty-two row blocks to the array -/

/-- The encoder applied to every row of an array of inputs: at (p, q), output unit q of row p. -/
def encArr (A0 : S8192x1024.Idx → EReal) (W1 : S1024x4096.Idx → EReal) (B1 : S1x4096.Idx → EReal)
    (W2 : S4096x1024.Idx → EReal) (B2 : S1x1024.Idx → EReal) : S8192x1024.Idx → EReal := fun i =>
  Cert.Spec.encRow (fun d => A0 (ix2 (⟨(i 0).val, idx2_lt0 i⟩ : Fin 8192) d)) (fun d k => W1 (ix2 d k)) (fun k => B1 (ix2 0 k))
    (fun k q' => W2 (ix2 k q')) (fun q' => B2 (ix2 0 q')) (⟨(i 1).val, idx2_lt1 i⟩ : Fin 1024)

/-- The body's stored value at an index of its block is the encoder's array at an index of the whole array, when the
    first block's row there is the array's row and the other four blocks are the weights and biases. -/
theorem pay_block (A0 : S8192x1024.Idx → EReal) (W1 : S1024x4096.Idx → EReal) (B1 : S1x4096.Idx → EReal)
    (W2 : S4096x1024.Idx → EReal) (B2 : S1x1024.Idx → EReal)
    (x0 : FVec Ideal S256x1024 .bf16) (x1 : FVec Ideal S1024x4096 .bf16) (x2 : FVec Ideal S1x4096 .f32)
    (x3 : FVec Ideal S4096x1024 .bf16) (x4 : FVec Ideal S1x1024 .f32) (j : S256x1024.Idx) (i : S8192x1024.Idx)
    (h0 : ∀ d : Fin 1024, x0 (ix2 (⟨(j 0).val, idx2_lt0 j⟩ : Fin 256) d) = A0 (ix2 (⟨(i 0).val, idx2_lt0 i⟩ : Fin 8192) d))
    (h1 : ∀ (d : Fin 1024) (k : Fin 4096), x1 (ix2 d k) = W1 (ix2 d k))
    (h2 : ∀ k : Fin 4096, x2 (ix2 (0 : Fin 1) k) = B1 (ix2 (0 : Fin 1) k))
    (h3 : ∀ (k : Fin 4096) (q : Fin 1024), x3 (ix2 k q) = W2 (ix2 k q))
    (h4 : ∀ q : Fin 1024, x4 (ix2 (0 : Fin 1) q) = B2 (ix2 (0 : Fin 1) q))
    (hq : (j 1).val = (i 1).val) :
    k1_pay1 (F := Ideal) x0 x1 x2 x3 x4 j = encArr A0 W1 B1 W2 B2 i := by
  refine (congrArg (k1_pay1 (F := Ideal) x0 x1 x2 x3 x4) (eq_ix2 j)).trans ?_
  refine (pay_apply x0 x1 x2 x3 x4 (⟨(j 0).val, idx2_lt0 j⟩ : Fin 256) (⟨(j 1).val, idx2_lt1 j⟩ : Fin 1024)).trans ?_
  unfold encArr
  simp only [h0, h1, h2, h3, h4]
  exact congrArg _ (Fin.ext hq)

/-- The index maps over the grid, decided: the input rows' block moves with the output's, every other input's block
    is its whole array, and the output's block index is the point. -/
theorem idx_facts : ∀ t : Fin cfg1.N, win1_0.index t (0 : Fin 2) = win1_5.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What the array ends holding: the encoder on every row of the input array, with the weights and biases as found. -/
abbrev G (c : Dev nD) : S8192x1024.Idx → EReal :=
  encArr (V c main_v6 : S8192x1024.Idx → EReal) (V c main_v7 : S1024x4096.Idx → EReal) (V c main_v9 : S1x4096.Idx → EReal)
    (V c main_v8 : S4096x1024.Idx → EReal) (V c main_v10 : S1x1024.Idx → EReal)

/-- What point t writes back is block t of that array. -/
theorem flushed_eq (c : Dev nD) (t : Fin cfg1.N) :
    (dat1 (F := Ideal) V c).flushed 5 t = ((cfg1.win 5).blk t).view.read (Elt Ideal) (G V c) := by
  show (cfg1.win 5).cut (grid1.coords t) ((dat1 (F := Ideal) V c).after 5 t) = _
  rw [after1_5]
  obtain ⟨e00, e01, e10, e11, e20, e21, e30, e31, e40, e41, e50, e51⟩ := idx_facts t
  funext j
  have hj0 : (j 0).val < 256 := (j 0).isLt
  have hj1 : (j 1).val < 1024 := (j 1).isLt
  refine pay_block (V c main_v6 : S8192x1024.Idx → EReal) (V c main_v7 : S1024x4096.Idx → EReal) (V c main_v9 : S1x4096.Idx → EReal)
    (V c main_v8 : S4096x1024.Idx → EReal) (V c main_v10 : S1x1024.Idx → EReal)
    (iblk1 V c 0 t) (iblk1 V c 1 t) (iblk1 V c 2 t) (iblk1 V c 3 t) (iblk1 V c 4 t)
    ((cfg1.win 5).xinj (grid1.coords t) j) (((cfg1.win 5).blk t).view.emb j) ?_ ?_ ?_ ?_ ?_ ?_
  · intro d
    show (V c main_v6 : S8192x1024.Idx → EReal) (((cfg1.win 0).blk t).view.emb (ix2 (⟨(j 0).val, hj0⟩ : Fin 256) d))
      = (V c main_v6 : S8192x1024.Idx → EReal) (ix2 (⟨(((cfg1.win 5).blk t).view.emb j 0).val, idx2_lt0 _⟩ : Fin 8192) d)
    refine congrArg _ (funext fun a => Fin.ext ?_)
    match a with
    | ⟨0, _⟩ => show win1_0.index t (0 : Fin 2) * 256 + 1 * (j 0).val = win1_5.index t (0 : Fin 2) * 256 + 1 * (j 0).val; omega
    | ⟨1, _⟩ => show win1_0.index t (1 : Fin 2) * 1024 + 1 * d.val = d.val; omega
  · intro d k
    show (V c main_v7 : S1024x4096.Idx → EReal) (((cfg1.win 1).blk t).view.emb (ix2 d k)) = (V c main_v7 : S1024x4096.Idx → EReal) (ix2 d k)
    refine congrArg _ (funext fun a => Fin.ext ?_)
    match a with
    | ⟨0, _⟩ => show win1_1.index t (0 : Fin 2) * 1024 + 1 * d.val = d.val; omega
    | ⟨1, _⟩ => show win1_1.index t (1 : Fin 2) * 4096 + 1 * k.val = k.val; omega
  · intro k
    show (V c main_v9 : S1x4096.Idx → EReal) (((cfg1.win 2).blk t).view.emb (ix2 (0 : Fin 1) k)) = (V c main_v9 : S1x4096.Idx → EReal) (ix2 (0 : Fin 1) k)
    refine congrArg _ (funext fun a => Fin.ext ?_)
    match a with
    | ⟨0, _⟩ => show win1_2.index t (0 : Fin 2) * 1 + 1 * 0 = 0; omega
    | ⟨1, _⟩ => show win1_2.index t (1 : Fin 2) * 4096 + 1 * k.val = k.val; omega
  · intro k q
    show (V c main_v8 : S4096x1024.Idx → EReal) (((cfg1.win 3).blk t).view.emb (ix2 k q)) = (V c main_v8 : S4096x1024.Idx → EReal) (ix2 k q)
    refine congrArg _ (funext fun a => Fin.ext ?_)
    match a with
    | ⟨0, _⟩ => show win1_3.index t (0 : Fin 2) * 4096 + 1 * k.val = k.val; omega
    | ⟨1, _⟩ => show win1_3.index t (1 : Fin 2) * 1024 + 1 * q.val = q.val; omega
  · intro q
    show (V c main_v10 : S1x1024.Idx → EReal) (((cfg1.win 4).blk t).view.emb (ix2 (0 : Fin 1) q)) = (V c main_v10 : S1x1024.Idx → EReal) (ix2 (0 : Fin 1) q)
    refine congrArg _ (funext fun a => Fin.ext ?_)
    match a with
    | ⟨0, _⟩ => show win1_4.index t (0 : Fin 2) * 1 + 1 * 0 = 0; omega
    | ⟨1, _⟩ => show win1_4.index t (1 : Fin 2) * 1024 + 1 * q.val = q.val; omega
  · show (j 1).val = win1_5.index t (1 : Fin 2) * 1024 + 1 * (j 1).val
    omega

/-- An index of the array is in point t's block iff each coordinate is in the block's range on its axis. -/
theorem mem_blk (t : Fin cfg1.N) (i : S8192x1024.Idx) :
    i ∈ ((cfg1.win 5).blk t).view.set ↔ ∀ a : Fin 2, win1_5.index t a * S256x1024.size a ≤ (i a).val ∧ (i a).val < win1_5.index t a * S256x1024.size a + S256x1024.size a := by
  show i ∈ ((View.whole main_v11).slice (win1_5.rect t)).set ↔ _
  rw [View.set_slice_whole, Rect.mem_set_unit]
  exact Iff.rfl

/-- Every index of the array is in some point's block: row r lies in the block of the point r / 256. -/
theorem cover (i : S8192x1024.Idx) : ∃ t : Fin cfg1.N, (cfg1.win 5).flush t = true ∧ i ∈ ((cfg1.win 5).blk t).view.set := by
  have hi0 : (i 0).val < 8192 := (i 0).isLt
  have hi1 : (i 1).val < 1024 := (i 1).isLt
  have hN : cfg1.N = 32 := N_1
  obtain ⟨t, ht⟩ : ∃ t : Fin cfg1.N, t.val = (i 0).val / 256 := ⟨⟨(i 0).val / 256, by rw [hN]; omega⟩, rfl⟩
  obtain ⟨e00, e01, e10, e11, e20, e21, e30, e31, e40, e41, e50, e51⟩ := idx_facts t
  refine ⟨t, flush1_5 t, ?_⟩
  rw [mem_blk]
  intro a
  match a with
  | ⟨0, _⟩ => show win1_5.index t (0 : Fin 2) * 256 ≤ (i 0).val ∧ (i 0).val < win1_5.index t (0 : Fin 2) * 256 + 256; omega
  | ⟨1, _⟩ => show win1_5.index t (1 : Fin 2) * 1024 ≤ (i 1).val ∧ (i 1).val < win1_5.index t (1 : Fin 2) * 1024 + 1024; omega

/-- The array after the call is the encoder on every row of the input array. -/
theorem final (c : Dev nD) : (dat1 (F := Ideal) V c).arrAt 5 cfg1.N = G V c :=
  (dat1 (F := Ideal) V c).arrAt_eq_of_cover 5 (G V c) (fun t _ => flushed_eq V c t) cover

end Enc1

/-- Row p, column q of the second encoder call's output array after the call. The weights and biases are read from the
    arrays the call is handed: the first weight matrix is window 1's array, the first bias row (1 × 4096) window 2's,
    the second weight matrix window 3's, the second bias row (1 × 1024) window 4's. -/
theorem enc1_value (c : Dev nD) (p : Fin 8192) (q : Fin 1024) :
    ((dat1 (F := Ideal) V c).arrAt 5 cfg1.N : S8192x1024.Idx → EReal) (ix2 p q)
      = Cert.Spec.encRow (fun d => (V c main_v6 : S8192x1024.Idx → EReal) (ix2 p d))
          (fun d k => (V c main_v7 : S1024x4096.Idx → EReal) (ix2 d k))
          (fun k => (V c main_v9 : S1x4096.Idx → EReal) (ix2 0 k))
          (fun k q' => (V c main_v8 : S4096x1024.Idx → EReal) (ix2 k q'))
          (fun q' => (V c main_v10 : S1x1024.Idx → EReal) (ix2 0 q')) q := by
  rw [Enc1.final]
  rfl

end Cert.KernelIdeal.Val

end
-- ==== Proof.CosValue.lean ====
/-
  The third call's two result arrays, read at an index, at the exact instance. Entry (p, n) of the logits array is the
  logit of row p of the normalised messages against row n of the normalised candidates: the 4 × 4 blocks tile the
  array and each is computed from its own row blocks. Entry p of the value column is the logistic of
  Σ_n logit(p, n)·v_n + bias: over the four points of row block i the scratch column accumulates, from zero, the four
  partial sums over the column blocks, which together are the sum over all n.
-/
import proofs.«176400_j46969762349635_1_alg».proof.Proof.KernelIdeal.Cos
import proofs.«176400_j46969762349635_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

/-! ## The body's arithmetic at an index -/

/-! The operand indices of the product at an output index (r, l) and a shared coordinate k: (r, k) on the left,
    (k, l) on the right; one statement per axis. -/

theorem lhs_mc_0 (i : S512x2048.Idx) (q : dot_S512x1024_S1024x2048_S512x2048_1_0_0_1_n_n.contr.Idx) :
    (dot_S512x1024_S1024x2048_S512x2048_1_0_0_1_n_n.lhsIdx i q 0).val = (i 0).val := by
  unfold DotDims.lhsIdx
  rw [dif_neg (show ¬(0 : Fin S512x1024.rank) ∈ dot_S512x1024_S1024x2048_S512x2048_1_0_0_1_n_n.lhsBatch by decide), dif_pos (show (0 : Fin S512x1024.rank) ∈ dot_S512x1024_S1024x2048_S512x2048_1_0_0_1_n_n.lhsNonContracting by decide)]
  rfl
theorem lhs_mc_1 (i : S512x2048.Idx) (q : dot_S512x1024_S1024x2048_S512x2048_1_0_0_1_n_n.contr.Idx) :
    (dot_S512x1024_S1024x2048_S512x2048_1_0_0_1_n_n.lhsIdx i q 1).val = (q ⟨0, by decide⟩).val :=
  dot_S512x1024_S1024x2048_S512x2048_1_0_0_1_n_n.lhsIdx_val_of_single rfl i q
theorem rhs_mc_0 (i : S512x2048.Idx) (q : dot_S512x1024_S1024x2048_S512x2048_1_0_0_1_n_n.contr.Idx) :
    (dot_S512x1024_S1024x2048_S512x2048_1_0_0_1_n_n.rhsIdx i q 0).val = (q ⟨0, by decide⟩).val :=
  dot_S512x1024_S1024x2048_S512x2048_1_0_0_1_n_n.rhsIdx_val_of_single rfl i q
theorem rhs_mc_1 (i : S512x2048.Idx) (q : dot_S512x1024_S1024x2048_S512x2048_1_0_0_1_n_n.contr.Idx) :
    (dot_S512x1024_S1024x2048_S512x2048_1_0_0_1_n_n.rhsIdx i q 1).val = (i 1).val := by
  unfold DotDims.rhsIdx
  rw [dif_neg (show ¬(1 : Fin S1024x2048.rank) ∈ dot_S512x1024_S1024x2048_S512x2048_1_0_0_1_n_n.rhsBatch by decide), dif_pos (show (1 : Fin S1024x2048.rank) ∈ dot_S512x1024_S1024x2048_S512x2048_1_0_0_1_n_n.rhsNonContracting by decide)]
  rfl

/-- The product into a zero accumulator, at (r, l): the sum over the 1024 shared coordinates. -/
theorem mm_apply (a : FVec Ideal S512x1024 .bf16) (b : FVec Ideal S1024x2048 .bf16) (r : Fin 512) (l : Fin 2048) :
    matmul dot_S512x1024_S1024x2048_S512x2048_1_0_0_1_n_n none a b (constant (F := Ideal) S512x2048 .f32 0x00000000#32) (ix2 r l)
      = ∑ k : Fin 1024, a (ix2 r k) * b (ix2 k l) := by
  refine (Ideal.matmul_constant_zero_apply dot_S512x1024_S1024x2048_S512x2048_1_0_0_1_n_n none a b (ix2 r l)).trans ?_
  rw [← Equiv.sum_comp (ValueIdx.contrEquiv1 dot_S512x1024_S1024x2048_S512x2048_1_0_0_1_n_n 1024 rfl rfl).symm]
  refine Finset.sum_congr rfl fun k _ => ?_
  have hk := ValueIdx.contrEquiv1_symm_val dot_S512x1024_S1024x2048_S512x2048_1_0_0_1_n_n 1024 rfl rfl k
  have el : dot_S512x1024_S1024x2048_S512x2048_1_0_0_1_n_n.lhsIdx (ix2 r l) ((ValueIdx.contrEquiv1 dot_S512x1024_S1024x2048_S512x2048_1_0_0_1_n_n 1024 rfl rfl).symm k) = ix2 r k := funext fun a => Fin.ext (by
    match a with
    | ⟨0, _⟩ => exact lhs_mc_0 _ _
    | ⟨1, _⟩ => exact (lhs_mc_1 _ _).trans hk)
  have er : dot_S512x1024_S1024x2048_S512x2048_1_0_0_1_n_n.rhsIdx (ix2 r l) ((ValueIdx.contrEquiv1 dot_S512x1024_S1024x2048_S512x2048_1_0_0_1_n_n 1024 rfl rfl).symm k) = ix2 k l := funext fun a => Fin.ext (by
    match a with
    | ⟨0, _⟩ => exact (rhs_mc_0 _ _).trans hk
    | ⟨1, _⟩ => exact rhs_mc_1 _ _)
  rw [el, er]

/-- The logits block at (r, l): the logit of row r of the message block against row l of the candidate block. -/
theorem pay2_apply (x0 : Vec Ideal S512x1024 .bf16) (x1 : Vec Ideal S2048x1024 .bf16) (r : Fin 512) (l : Fin 2048) :
    k2_pay2 (F := Ideal) x0 x1 (ix2 r l) = Cert.Spec.logit (fun e => x0 (ix2 r e)) (fun e => x1 (ix2 l e)) := by
  unfold k2_pay2 Cert.Spec.logit
  rw [shapeCast_self, shapeCast_self]
  show (Ideal.ofBits .f32 0x3F800000#32 + matmul dot_S512x1024_S1024x2048_S512x2048_1_0_0_1_n_n none x0 _ (constant (F := Ideal) S512x2048 .f32 0x00000000#32) (ix2 r l)) * Ideal.ofBits .f32 0x3F000000#32 = _
  rw [mm_apply]
  refine congrArg (fun s => (Ideal.ofBits .f32 0x3F800000#32 + s) * Ideal.ofBits .f32 0x3F000000#32) ?_
  refine Finset.sum_congr rfl fun k _ => ?_
  rw [transpose_ix2_apply]

/-- A vector of 512 entries cast to a 512 × 1 column reads, at (r, u), the vector at r. -/
theorem shapeCast_a_a1_apply {a : ℕ} (x : (⟨1, ![a]⟩ : Shape).Idx → EReal) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The zero column. -/
theorem pay1_apply (j : S512x1.Idx) : k2_pay1 (F := Ideal) j = 0 := by
  unfold k2_pay1
  rw [shapeCast_self]
  exact Ideal.ofBits_zero_f32

/-- The lane sum of a 512 × 2048 block, at row r. -/
theorem laneSum_apply (src : FVec Ideal S512x2048 .f32) (h : S512x2048.Reduces [1] S512) (hφ : FKind.Formats FTy.f32)
    (hacc : (0x00000000#32 : BitVec 32) = 0x00000000#32) (r : Fin 512) :
    multiReduction .add [1] S512 src 0x00000000#32 h hφ hacc (ix1 r) = ∑ l : Fin 2048, src (ix2 r l) := by
  refine (Ideal.multiReduction_add_single src 0x00000000#32 h hφ hacc (ix1 r)).trans ?_
  refine Finset.sum_congr rfl fun l _ => congrArg src ?_
  funext a
  apply Fin.ext
  match a with
  | ⟨0, _⟩ => rfl
  | ⟨1, _⟩ => rfl

/-- The running column after a point, at row r: what it held plus the row sum of logits × weights over the
    block's 2048 columns. -/
theorem pay3_apply (x0 : Vec Ideal S512x1024 .bf16) (x1 : Vec Ideal S2048x1024 .bf16) (w : Vec Ideal S1x2048 .f32)
    (acc : Vec Ideal S512x1 .f32) (r : Fin 512) (u : Fin 1) :
    k2_pay3 (F := Ideal) x0 x1 w acc (ix2 r u)
      = acc (ix2 r u) + ∑ l : Fin 2048, k2_pay2 (F := Ideal) x0 x1 (ix2 r l) * w (ix2 0 l) := by
  unfold k2_pay3
  rw [shapeCast_self, shapeCast_self]
  show acc (ix2 r u) + shapeCast S512x1 (multiReduction (F := Ideal) (φ := .f32) .add [1] S512 _ 0x00000000#32 _ _ _) _ (ix2 r u) = _
  rw [shapeCast_a_a1_apply, laneSum_apply]
  refine congrArg (fun s => acc (ix2 r u) + s) ?_
  refine Finset.sum_congr rfl fun l _ => ?_
  show k2_pay2 (F := Ideal) x0 x1 (ix2 r l) * broadcastTo S512x2048 w _ (ix2 r l) = _
  rw [broadcastTo_1b_ab_apply]

/-- The value block at row r: the logistic function of the running column plus the bias. -/
theorem pay4_apply (acc : Vec Ideal S512x1 .f32) (b : Vec Ideal S1x1 .f32) (r : Fin 512) (u : Fin 1) :
    k2_pay4 (F := Ideal) acc b (ix2 r u) = Ideal.logistic (acc (ix2 r u) + b (ix2 0 u)) := by
  unfold k2_pay4
  rw [shapeCast_self]
  show Ideal.logistic (acc (ix2 r u) + broadcastTo S512x1 b _ (ix2 r u)) = _
  rw [broadcastTo_1b_ab_apply]

variable (V : (c : Dev nD) → (b : Ref sig .tc) → Buf (Elt Ideal) ((c : Thread nD τ).loc b))

/-! ## The blocks the body reads, as parts of the arrays -/

/-- The printed index maps in closed form, decided over the grid: point t = 4·i + j takes row block i of the
    messages, row block j of the candidates, column block j of the weights, the one bias block, and writes block
    (i, j) of the logits and block i of the value column. -/
theorem idx_facts2 : ∀ t : Fin cfg2.N,
    win2_0.index t (0 : Fin 2) = t.val / 4 ∧ win2_0.index t (1 : Fin 2) = 0
    ∧ win2_1.index t (0 : Fin 2) = t.val % 4 ∧ win2_1.index t (1 : Fin 2) = 0
    ∧ win2_2.index t (0 : Fin 2) = 0 ∧ win2_2.index t (1 : Fin 2) = t.val % 4
    ∧ win2_3.index t (0 : Fin 2) = 0 ∧ win2_3.index t (1 : Fin 2) = 0
    ∧ win2_4.index t (0 : Fin 2) = t.val / 4 ∧ win2_4.index t (1 : Fin 2) = t.val % 4
    ∧ win2_5.index t (0 : Fin 2) = t.val / 4 ∧ win2_5.index t (1 : Fin 2) = 0 :=
  (by decide +kernel : ∀ t : Fin grid2.N, _)

theorem lt16 (t : Fin cfg2.N) : t.val < 16 := lt_of_lt_of_eq t.isLt N_2

/-- The message block at point t, at (r, e): row 512·(t / 4) + r of the messages. -/
theorem mblk_apply (c : Dev nD) (t : Fin cfg2.N) (r : Fin 512) (e : Fin 1024) :
    (iblk2 (F := Ideal) V c 0 t : S512x1024.Idx → EReal) (ix2 r e)
      = (V c main_v5 : S2048x1024.Idx → EReal) (ix2 ⟨512 * (t.val / 4) + r.val, by have := lt16 t; omega⟩ e) := by
  unfold iblk2
  rw [View.read_apply]
  show (V c main_v5 : S2048x1024.Idx → EReal) (((cfg2.win 0).blk t).view.emb (ix2 r e)) = _
  refine congrArg (V c main_v5 : S2048x1024.Idx → EReal) ?_
  obtain ⟨e0, e1, -⟩ := idx_facts2 t
  funext a
  apply Fin.ext
  match a with
  | ⟨0, _⟩ => show win2_0.index t (0 : Fin 2) * 512 + 1 * r.val = 512 * (t.val / 4) + r.val; rw [e0]; omega
  | ⟨1, _⟩ => show win2_0.index t (1 : Fin 2) * 1024 + 1 * e.val = e.val; rw [e1]; omega

/-- The candidate block at point t, at (l, e): row 2048·(t % 4) + l of the candidates. -/
theorem cblk_apply (c : Dev nD) (t : Fin cfg2.N) (l : Fin 2048) (e : Fin 1024) :
    (iblk2 (F := Ideal) V c 1 t : S2048x1024.Idx → EReal) (ix2 l e)
      = (V c main_v11 : S8192x1024.Idx → EReal) (ix2 ⟨2048 * (t.val % 4) + l.val, by omega⟩ e) := by
  unfold iblk2
  rw [View.read_apply]
  show (V c main_v11 : S8192x1024.Idx → EReal) (((cfg2.win 1).blk t).view.emb (ix2 l e)) = _
  refine congrArg (V c main_v11 : S8192x1024.Idx → EReal) ?_
  obtain ⟨-, -, e2, e3, -⟩ := idx_facts2 t
  funext a
  apply Fin.ext
  match a with
  | ⟨0, _⟩ => show win2_1.index t (0 : Fin 2) * 2048 + 1 * l.val = 2048 * (t.val % 4) + l.val; rw [e2]; omega
  | ⟨1, _⟩ => show win2_1.index t (1 : Fin 2) * 1024 + 1 * e.val = e.val; rw [e3]; omega

/-- The weight block at point t, at (u, l): entry 2048·(t % 4) + l of the weight row. -/
theorem wblk_apply (c : Dev nD) (t : Fin cfg2.N) (u : Fin 1) (l : Fin 2048) :
    (iblk2 (F := Ideal) V c 2 t : S1x2048.Idx → EReal) (ix2 u l)
      = (V c main_v12 : S1x8192.Idx → EReal) (ix2 0 ⟨2048 * (t.val % 4) + l.val, by omega⟩) := by
  unfold iblk2
  rw [View.read_apply]
  show (V c main_v12 : S1x8192.Idx → EReal) (((cfg2.win 2).blk t).view.emb (ix2 u l)) = _
  refine congrArg (V c main_v12 : S1x8192.Idx → EReal) ?_
  obtain ⟨-, -, -, -, e4, e5, -⟩ := idx_facts2 t
  funext a
  apply Fin.ext
  match a with
  | ⟨0, _⟩ => show win2_2.index t (0 : Fin 2) * 1 + 1 * u.val = 0; rw [e4]; omega
  | ⟨1, _⟩ => show win2_2.index t (1 : Fin 2) * 2048 + 1 * l.val = 2048 * (t.val % 4) + l.val; rw [e5]; omega

/-- The bias block at any point: the one bias. -/
theorem bblk_apply (c : Dev nD) (t : Fin cfg2.N) (u u' : Fin 1) :
    (iblk2 (F := Ideal) V c 3 t : S1x1.Idx → EReal) (ix2 u u')
      = (V c main_v13 : S1x1.Idx → EReal) (ix2 0 0) := by
  unfold iblk2
  rw [View.read_apply]
  show (V c main_v13 : S1x1.Idx → EReal) (((cfg2.win 3).blk t).view.emb (ix2 u u')) = _
  refine congrArg (V c main_v13 : S1x1.Idx → EReal) ?_
  obtain ⟨-, -, -, -, -, -, e6, e7, -⟩ := idx_facts2 t
  funext a
  apply Fin.ext
  match a with
  | ⟨0, _⟩ => show win2_3.index t (0 : Fin 2) * 1 + 1 * u.val = 0; rw [e6]; omega
  | ⟨1, _⟩ => show win2_3.index t (1 : Fin 2) * 1 + 1 * u'.val = 0; rw [e7]; omega

/-! ## The logits array -/

/-- The logit of message row p against candidate row n, from the two arrays as the call finds them. -/
def logitAt (c : Dev nD) (p : Fin 2048) (n : Fin 8192) : EReal :=
  Cert.Spec.logit (fun e => (V c main_v5 : S2048x1024.Idx → EReal) (ix2 p e))
    (fun e => (V c main_v11 : S8192x1024.Idx → EReal) (ix2 n e))

/-- The body's logits block at point t, at (r, l): the logit of message row 512·(t / 4) + r against candidate row
    2048·(t % 4) + l. -/
theorem point_logit (c : Dev nD) (t : Fin cfg2.N) (r : Fin 512) (l : Fin 2048) :
    k2_pay2 (F := Ideal) (iblk2 V c 0 t) (iblk2 V c 1 t) (ix2 r l)
      = logitAt V c ⟨512 * (t.val / 4) + r.val, by have := lt16 t; omega⟩ ⟨2048 * (t.val % 4) + l.val, by omega⟩ := by
  refine (pay2_apply (iblk2 (F := Ideal) V c 0 t) (iblk2 (F := Ideal) V c 1 t) r l).trans ?_
  unfold logitAt
  exact congrArg₂ Cert.Spec.logit (funext fun e => mblk_apply V c t r e) (funext fun e => cblk_apply V c t l e)

/-- The whole logits array: entry (p, n) is the logit of message row p against candidate row n. -/
def logitsArr (c : Dev nD) : S2048x8192.Idx → EReal :=
  fun i => logitAt V c ⟨(i 0).val, idx2_lt0 i⟩ ⟨(i 1).val, idx2_lt1 i⟩

/-- What point t writes back of the logits is block t of that array. -/
theorem flushed4_eq (c : Dev nD) (t : Fin cfg2.N) :
    (dat2 (F := Ideal) V c).flushed 4 t = ((cfg2.win 4).blk t).view.read (Elt Ideal) (logitsArr V c) := by
  show (cfg2.win 4).cut (grid2.coords t) ((dat2 (F := Ideal) V c).after 4 t) = _
  rw [after2_4]
  funext j
  obtain ⟨r, l, rfl⟩ : ∃ (r : Fin 512) (l : Fin 2048), j = ix2 r l := ⟨j 0, j 1, eq_ix2 j⟩
  rw [View.read_apply]
  show k2_pay2 (F := Ideal) (iblk2 V c 0 t) (iblk2 V c 1 t) (ix2 r l) = logitsArr V c (((cfg2.win 4).blk t).view.emb (ix2 r l))
  refine (point_logit V c t r l).trans ?_
  unfold logitsArr
  obtain ⟨-, -, -, -, -, -, -, -, e8, e9, -⟩ := idx_facts2 t
  refine congrArg₂ (logitAt V c) (Fin.ext ?_) (Fin.ext ?_)
  · show 512 * (t.val / 4) + r.val = win2_4.index t (0 : Fin 2) * 512 + 1 * r.val
    rw [e8]; omega
  · show 2048 * (t.val % 4) + l.val = win2_4.index t (1 : Fin 2) * 2048 + 1 * l.val
    rw [e9]; omega

/-- An entry of the logits array is in point t's block iff each coordinate is in the block's range on its axis. -/
theorem mem_blk4 (t : Fin cfg2.N) (i : S2048x8192.Idx) :
    i ∈ ((cfg2.win 4).blk t).view.set ↔ ∀ a : Fin 2, win2_4.index t a * S512x2048.size a ≤ (i a).val ∧ (i a).val < win2_4.index t a * S512x2048.size a + S512x2048.size a := by
  show i ∈ ((View.whole main_v14_0).slice (win2_4.rect t)).set ↔ _
  rw [View.set_slice_whole, Rect.mem_set_unit]
  exact Iff.rfl

/-- Entry (p, n) lies in the block of point 4·(p / 512) + n / 2048. -/
theorem cover4 (i : S2048x8192.Idx) :
    ∃ t : Fin cfg2.N, (cfg2.win 4).flush t = true ∧ i ∈ ((cfg2.win 4).blk t).view.set := by
  have hi0 : (i 0).val < 2048 := idx2_lt0 i
  have hi1 : (i 1).val < 8192 := idx2_lt1 i
  obtain ⟨t, ht⟩ : ∃ t : Fin cfg2.N, t.val = 4 * ((i 0).val / 512) + (i 1).val / 2048 :=
    ⟨⟨4 * ((i 0).val / 512) + (i 1).val / 2048, lt_of_lt_of_eq (by omega) N_2.symm⟩, rfl⟩
  obtain ⟨-, -, -, -, -, -, -, -, e8, e9, -⟩ := idx_facts2 t
  refine ⟨t, flush2_4 t, ?_⟩
  rw [mem_blk4]
  intro a
  match a with
  | ⟨0, _⟩ => show win2_4.index t (0 : Fin 2) * 512 ≤ (i 0).val ∧ (i 0).val < win2_4.index t (0 : Fin 2) * 512 + 512; rw [e8]; omega
  | ⟨1, _⟩ => show win2_4.index t (1 : Fin 2) * 2048 ≤ (i 1).val ∧ (i 1).val < win2_4.index t (1 : Fin 2) * 2048 + 2048; rw [e9]; omega

/-- The logits array after the call. -/
theorem final4 (c : Dev nD) : (dat2 (F := Ideal) V c).arrAt 4 cfg2.N = logitsArr V c :=
  (dat2 (F := Ideal) V c).arrAt_eq_of_cover 4 (logitsArr V c) (fun t _ => flushed4_eq V c t) cover4

/-- Entry (p, n) of the logits array after the third call. -/
theorem cos_logits (c : Dev nD) (p : Fin 2048) (n : Fin 8192) :
    ((dat2 (F := Ideal) V c).arrAt 4 cfg2.N : S2048x8192.Idx → EReal) (ix2 p n)
      = Cert.Spec.logit (fun e => (V c main_v5 : S2048x1024.Idx → EReal) (ix2 p e))
          (fun e => (V c main_v11 : S8192x1024.Idx → EReal) (ix2 n e)) := by
  rw [final4]
  rfl

/-! ## The value column -/

/-- A sum over the 8192 candidates, in four column blocks of 2048. -/
theorem sum_four_blocks (f : Fin 8192 → EReal) :
    ∑ n : Fin 8192, f n = ∑ s : Fin 4, ∑ l : Fin 2048, f ⟨2048 * s.val + l.val, by omega⟩ := by
  rw [← Equiv.sum_comp (finProdFinEquiv : Fin 4 × Fin 2048 ≃ Fin 8192) f, Fintype.sum_prod_type]
  refine Finset.sum_congr rfl fun s _ => Finset.sum_congr rfl fun l _ => congrArg f (Fin.ext ?_)
  show l.val + 2048 * s.val = 2048 * s.val + l.val
  omega

/-- Row p's partial sum over column block s: Σ over the block's 2048 candidates of logit × weight. -/
def partSum (c : Dev nD) (p : Fin 2048) (s : Fin 4) : EReal :=
  ∑ l : Fin 2048, logitAt V c p ⟨2048 * s.val + l.val, by omega⟩
    * (V c main_v12 : S1x8192.Idx → EReal) (ix2 0 ⟨2048 * s.val + l.val, by omega⟩)

/-- What point n adds to the running column at row j: the partial sum of row 512·(n / 4) + j over column block n % 4
    (stated for every natural n, the row block reduced mod 4 so that no bound is asked; only n < 16 is ever used,
    where n / 4 is below 4 already). -/
def addend (c : Dev nD) (n : ℕ) : S512x1.Idx → EReal :=
  fun j => partSum V c ⟨512 * (n / 4 % 4) + (j 0).val, by have := idx2_lt0 j; omega⟩ ⟨n % 4, Nat.mod_lt _ (by decide)⟩

/-- One step of the body at point t: the running column plus the point's addend. -/
theorem point_step (c : Dev nD) (t : Fin cfg2.N) (acc : Vec Ideal S512x1 .f32) (j : S512x1.Idx) :
    k2_pay3 (F := Ideal) (iblk2 V c 0 t) (iblk2 V c 1 t) (iblk2 V c 2 t) acc j = acc j + addend V c t.val j := by
  obtain ⟨r, u, rfl⟩ : ∃ (r : Fin 512) (u : Fin 1), j = ix2 r u := ⟨j 0, j 1, eq_ix2 j⟩
  refine (pay3_apply (iblk2 (F := Ideal) V c 0 t) (iblk2 (F := Ideal) V c 1 t) (iblk2 (F := Ideal) V c 2 t) acc r u).trans ?_
  refine congrArg (fun s => acc (ix2 r u) + s) ?_
  unfold addend partSum
  have ht := lt16 t
  have hp : (⟨512 * (t.val / 4) + r.val, by omega⟩ : Fin 2048) = ⟨512 * (t.val / 4 % 4) + r.val, by omega⟩ :=
    Fin.ext (by show 512 * (t.val / 4) + r.val = 512 * (t.val / 4 % 4) + r.val; omega)
  refine Finset.sum_congr rfl fun l _ => ?_
  refine congrArg₂ (· * ·) ((point_logit V c t r l).trans (congrArg (fun p => logitAt V c p _) hp)) (wblk_apply V c t 0 l)

/-- The running column after point t: the sum of the addends of the points of t's row block up to t. -/
theorem acc_apply (c : Dev nD) (t : Fin cfg2.N) (j : S512x1.Idx) :
    acc2 (F := Ideal) V c t.val t.isLt j
      = ∑ s ∈ Finset.range (t.val % 4 + 1), addend V c (4 * (t.val / 4) + s) j := by
  have h' : 4 * (t.val / 4) + t.val % 4 < cfg2.N := by rw [Nat.div_add_mod]; exact t.isLt
  have key := Pipeline.eq_accAt_of_mod (N := cfg2.N) (acc2 (F := Ideal) V c) 4
    (fun n h => k2_pay3 (F := Ideal) (iblk2 V c 0 ⟨n, h⟩) (iblk2 V c 1 ⟨n, h⟩) (iblk2 V c 2 ⟨n, h⟩) (k2_pay1 (F := Ideal)))
    (fun n h acc => k2_pay3 (F := Ideal) (iblk2 V c 0 ⟨n, h⟩) (iblk2 V c 1 ⟨n, h⟩) (iblk2 V c 2 ⟨n, h⟩) acc)
    (fun n h hm => acc2_reset (F := Ideal) V c ⟨n, h⟩ hm)
    (fun n h hm => acc2_step (F := Ideal) V c ⟨n + 1, h⟩ hm)
    (by decide) t.val t.isLt h'
  rw [key]
  refine (Pipeline.accAt_add_apply (N := cfg2.N) (ι := S512x1.Idx) (β := EReal) _ _ (fun _ => 0) (addend V c) (4 * (t.val / 4)) 3
    (fun h i => ?_) (fun n h acc i _ _ => ?_) (t.val % 4) (by omega) h' j).trans (zero_add _)
  · exact (point_step V c ⟨4 * (t.val / 4), h⟩ (k2_pay1 (F := Ideal)) i).trans (congrArg (· + _) (pay1_apply i))
  · exact point_step V c ⟨n, h⟩ acc i

/-- Row p's value: the logistic function of Σ_n logit(p, n)·v_n plus the bias. -/
def valueAt (c : Dev nD) (p : Fin 2048) : EReal :=
  Cert.Spec.valueOf (fun n => logitAt V c p n) (fun n => (V c main_v12 : S1x8192.Idx → EReal) (ix2 0 n))
    ((V c main_v13 : S1x1.Idx → EReal) (ix2 0 0))

/-- The whole value column. -/
def valueArr (c : Dev nD) : S2048x1.Idx → EReal := fun i => valueAt V c ⟨(i 0).val, idx2_lt0 i⟩

/-- Σ_n logit(p, n)·v_n is the sum of row p's four partial sums. -/
theorem total_eq (c : Dev nD) (p : Fin 2048) :
    ∑ n : Fin 8192, logitAt V c p n * (V c main_v12 : S1x8192.Idx → EReal) (ix2 0 n) = ∑ s : Fin 4, partSum V c p s := by
  unfold partSum
  exact sum_four_blocks (fun n => logitAt V c p n * (V c main_v12 : S1x8192.Idx → EReal) (ix2 0 n))

/-- At the last point of a row block the running column holds, at row r, the whole sum Σ_n logit(p, n)·v_n of row
    p = 512·(t / 4) + r. -/
theorem acc_last (c : Dev nD) (t : Fin cfg2.N) (h3 : t.val % 4 = 3) (r : Fin 512) (u : Fin 1) :
    acc2 (F := Ideal) V c t.val t.isLt (ix2 r u)
      = ∑ n : Fin 8192, logitAt V c ⟨512 * (t.val / 4) + r.val, by have := lt16 t; omega⟩ n
          * (V c main_v12 : S1x8192.Idx → EReal) (ix2 0 n) := by
  have ht := lt16 t
  have h4 : t.val % 4 + 1 = 4 := by omega
  rw [acc_apply, h4, total_eq, Finset.sum_range]
  refine Finset.sum_congr rfl fun s _ => ?_
  unfold addend
  refine congrArg₂ (partSum V c) (Fin.ext ?_) (Fin.ext ?_)
  · show 512 * ((4 * (t.val / 4) + s.val) / 4 % 4) + r.val = 512 * (t.val / 4) + r.val
    omega
  · show (4 * (t.val / 4) + s.val) % 4 = s.val
    omega

/-- What a last point of a row block writes back of the value column is block t of the whole column. -/
theorem flushed5_eq (c : Dev nD) (t : Fin cfg2.N) (hf : (cfg2.win 5).flush t = true) :
    (dat2 (F := Ideal) V c).flushed 5 t = ((cfg2.win 5).blk t).view.read (Elt Ideal) (valueArr V c) := by
  have h3 : t.val % 4 = 3 := (flush2_5 t).mp hf
  have ht := lt16 t
  show (cfg2.win 5).cut (grid2.coords t) ((dat2 (F := Ideal) V c).after 5 t) = _
  rw [after2_5]
  funext j
  obtain ⟨r, u, rfl⟩ : ∃ (r : Fin 512) (u : Fin 1), j = ix2 r u := ⟨j 0, j 1, eq_ix2 j⟩
  rw [View.read_apply]
  show k2_pay4 (F := Ideal) (acc2 V c t.val t.isLt) (iblk2 V c 3 t) (ix2 r u) = valueArr V c (((cfg2.win 5).blk t).view.emb (ix2 r u))
  refine (pay4_apply (acc2 (F := Ideal) V c t.val t.isLt) (iblk2 (F := Ideal) V c 3 t) r u).trans ?_
  refine (congrArg₂ (fun x y => Ideal.logistic (x + y)) (acc_last V c t h3 r u) (bblk_apply V c t 0 u)).trans ?_
  obtain ⟨-, -, -, -, -, -, -, -, -, -, e10, -⟩ := idx_facts2 t
  unfold valueArr
  refine (congrArg (valueAt V c) (Fin.ext ?_) : valueAt V c ⟨512 * (t.val / 4) + r.val, by omega⟩ = _)
  show 512 * (t.val / 4) + r.val = win2_5.index t (0 : Fin 2) * 512 + 1 * r.val
  rw [e10]; omega

/-- An entry of the value column is in point t's block iff each coordinate is in the block's range on its axis. -/
theorem mem_blk5 (t : Fin cfg2.N) (i : S2048x1.Idx) :
    i ∈ ((cfg2.win 5).blk t).view.set ↔ ∀ a : Fin 2, win2_5.index t a * S512x1.size a ≤ (i a).val ∧ (i a).val < win2_5.index t a * S512x1.size a + S512x1.size a := by
  show i ∈ ((View.whole main_v14_1).slice (win2_5.rect t)).set ↔ _
  rw [View.set_slice_whole, Rect.mem_set_unit]
  exact Iff.rfl

/-- Row p lies in the block written back at point 4·(p / 512) + 3. -/
theorem cover5 (i : S2048x1.Idx) :
    ∃ t : Fin cfg2.N, (cfg2.win 5).flush t = true ∧ i ∈ ((cfg2.win 5).blk t).view.set := by
  have hi0 : (i 0).val < 2048 := idx2_lt0 i
  have hi1 : (i 1).val < 1 := idx2_lt1 i
  obtain ⟨t, ht⟩ : ∃ t : Fin cfg2.N, t.val = 4 * ((i 0).val / 512) + 3 :=
    ⟨⟨4 * ((i 0).val / 512) + 3, lt_of_lt_of_eq (by omega) N_2.symm⟩, rfl⟩
  obtain ⟨-, -, -, -, -, -, -, -, -, -, e10, e11⟩ := idx_facts2 t
  refine ⟨t, (flush2_5 t).mpr (by omega), ?_⟩
  rw [mem_blk5]
  intro a
  match a with
  | ⟨0, _⟩ => show win2_5.index t (0 : Fin 2) * 512 ≤ (i 0).val ∧ (i 0).val < win2_5.index t (0 : Fin 2) * 512 + 512; rw [e10]; omega
  | ⟨1, _⟩ => show win2_5.index t (1 : Fin 2) * 1 ≤ (i 1).val ∧ (i 1).val < win2_5.index t (1 : Fin 2) * 1 + 1; rw [e11]; omega

/-- The value column after the call. -/
theorem final5 (c : Dev nD) : (dat2 (F := Ideal) V c).arrAt 5 cfg2.N = valueArr V c :=
  (dat2 (F := Ideal) V c).arrAt_eq_of_cover 5 (valueArr V c) (fun t hf => flushed5_eq V c t hf) cover5

/-- Entry p of the value column after the third call. -/
theorem cos_value (c : Dev nD) (p : Fin 2048) :
    ((dat2 (F := Ideal) V c).arrAt 5 cfg2.N : S2048x1.Idx → EReal) (ix2 p 0)
      = Cert.Spec.valueOf
          (fun n => Cert.Spec.logit (fun e => (V c main_v5 : S2048x1024.Idx → EReal) (ix2 p e))
            (fun e => (V c main_v11 : S8192x1024.Idx → EReal) (ix2 n e)))
          (fun n => (V c main_v12 : S1x8192.Idx → EReal) (ix2 0 n))
          ((V c main_v13 : S1x1.Idx → EReal) (ix2 0 0)) := by
  rw [final5]
  rfl

end Cert.KernelIdeal.Val

end
-- ==== Proof.HostReads.lean ====
/-
  What the host operations between the calls leave, read at an index, at the exact instance: a change of float
  format is the identity, and a reshape of a vector into a one-row matrix (or of a column into a row) reads the same
  entries. Stated for any contents `W` of the buffers before the stretch of host operations.
-/
import proofs.«176400_j46969762349635_1_alg».proof.Proof.Gen.KernelIdeal.Launch
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Val

open Cert.KernelIdeal Cert.KernelIdeal.Gen
open Idealize.ShloMosaic Idealize.ShloMosaic.TcCoe Idealize.ShloMosaic.ValueIdx
open Idealize.SL Idealize.SL.Sem

variable (W : Valuation τ sig (Elt Ideal))

/-! ## Before the first encoder call: the message input and its weights narrowed, its biases made rows -/

theorem hostOps0_v0 (i : S2048x1024.Idx) :
    (StableHlo.after hostOps0 W (Proc.devRef .tc main_v0) : S2048x1024.Idx → EReal) i = (W (Proc.devRef .tc main_arg0) : S2048x1024.Idx → EReal) i := by
  have e : (StableHlo.after hostOps0 W (Proc.devRef .tc main_v0) : S2048x1024.Idx → EReal)
      = (truncf .bf16 (W (Proc.devRef .tc main_arg0) : FVec Ideal S2048x1024 .f32) bitsLt_bf16_f32 : FVec Ideal S2048x1024 .bf16) := by
    after_results
  rw [e]; rfl

theorem hostOps0_v1 (i : S1024x4096.Idx) :
    (StableHlo.after hostOps0 W (Proc.devRef .tc main_v1) : S1024x4096.Idx → EReal) i = (W (Proc.devRef .tc main_arg2) : S1024x4096.Idx → EReal) i := by
  have e : (StableHlo.after hostOps0 W (Proc.devRef .tc main_v1) : S1024x4096.Idx → EReal)
      = (truncf .bf16 (W (Proc.devRef .tc main_arg2) : FVec Ideal S1024x4096 .f32) bitsLt_bf16_f32 : FVec Ideal S1024x4096 .bf16) := by
    after_results
  rw [e]; rfl

theorem hostOps0_v2 (i : S4096x1024.Idx) :
    (StableHlo.after hostOps0 W (Proc.devRef .tc main_v2) : S4096x1024.Idx → EReal) i = (W (Proc.devRef .tc main_arg4) : S4096x1024.Idx → EReal) i := by
  have e : (StableHlo.after hostOps0 W (Proc.devRef .tc main_v2) : S4096x1024.Idx → EReal)
      = (truncf .bf16 (W (Proc.devRef .tc main_arg4) : FVec Ideal S4096x1024 .f32) bitsLt_bf16_f32 : FVec Ideal S4096x1024 .bf16) := by
    after_results
  rw [e]; rfl

theorem hostOps0_v3 (k : Fin 4096) :
    (StableHlo.after hostOps0 W (Proc.devRef .tc main_v3) : S1x4096.Idx → EReal) (ix2 0 k) = (W (Proc.devRef .tc main_arg3) : S4096.Idx → EReal) (ix1 k) := by
  have e : (StableHlo.after hostOps0 W (Proc.devRef .tc main_v3) : S1x4096.Idx → EReal)
      = shapeCast S1x4096 (W (Proc.devRef .tc main_arg3) : FVec Ideal S4096 .f32) shapeCasts_S4096_S1x4096 := by
    after_results; rfl
  rw [e]; exact shapeCast_a_1a_apply _ _ 0 k

theorem hostOps0_v4 (k : Fin 1024) :
    (StableHlo.after hostOps0 W (Proc.devRef .tc main_v4) : S1x1024.Idx → EReal) (ix2 0 k) = (W (Proc.devRef .tc main_arg5) : S1024.Idx → EReal) (ix1 k) := by
  have e : (StableHlo.after hostOps0 W (Proc.devRef .tc main_v4) : S1x1024.Idx → EReal)
      = shapeCast S1x1024 (W (Proc.devRef .tc main_arg5) : FVec Ideal S1024 .f32) shapeCasts_S1024_S1x1024 := by
    after_results; rfl
  rw [e]; exact shapeCast_a_1a_apply _ _ 0 k

/-! ## Before the second encoder call: the same for the candidates -/

theorem hostOps1_v6 (i : S8192x1024.Idx) :
    (StableHlo.after hostOps1 W (Proc.devRef .tc main_v6) : S8192x1024.Idx → EReal) i = (W (Proc.devRef .tc main_arg1) : S8192x1024.Idx → EReal) i := by
  have e : (StableHlo.after hostOps1 W (Proc.devRef .tc main_v6) : S8192x1024.Idx → EReal)
      = (truncf .bf16 (W (Proc.devRef .tc main_arg1) : FVec Ideal S8192x1024 .f32) bitsLt_bf16_f32 : FVec Ideal S8192x1024 .bf16) := by
    after_results
  rw [e]; rfl

theorem hostOps1_v7 (i : S1024x4096.Idx) :
    (StableHlo.after hostOps1 W (Proc.devRef .tc main_v7) : S1024x4096.Idx → EReal) i = (W (Proc.devRef .tc main_arg6) : S1024x4096.Idx → EReal) i := by
  have e : (StableHlo.after hostOps1 W (Proc.devRef .tc main_v7) : S1024x4096.Idx → EReal)
      = (truncf .bf16 (W (Proc.devRef .tc main_arg6) : FVec Ideal S1024x4096 .f32) bitsLt_bf16_f32 : FVec Ideal S1024x4096 .bf16) := by
    after_results
  rw [e]; rfl

theorem hostOps1_v8 (i : S4096x1024.Idx) :
    (StableHlo.after hostOps1 W (Proc.devRef .tc main_v8) : S4096x1024.Idx → EReal) i = (W (Proc.devRef .tc main_arg8) : S4096x1024.Idx → EReal) i := by
  have e : (StableHlo.after hostOps1 W (Proc.devRef .tc main_v8) : S4096x1024.Idx → EReal)
      = (truncf .bf16 (W (Proc.devRef .tc main_arg8) : FVec Ideal S4096x1024 .f32) bitsLt_bf16_f32 : FVec Ideal S4096x1024 .bf16) := by
    after_results
  rw [e]; rfl

theorem hostOps1_v9 (k : Fin 4096) :
    (StableHlo.after hostOps1 W (Proc.devRef .tc main_v9) : S1x4096.Idx → EReal) (ix2 0 k) = (W (Proc.devRef .tc main_arg7) : S4096.Idx → EReal) (ix1 k) := by
  have e : (StableHlo.after hostOps1 W (Proc.devRef .tc main_v9) : S1x4096.Idx → EReal)
      = shapeCast S1x4096 (W (Proc.devRef .tc main_arg7) : FVec Ideal S4096 .f32) shapeCasts_S4096_S1x4096 := by
    after_results; rfl
  rw [e]; exact shapeCast_a_1a_apply _ _ 0 k

theorem hostOps1_v10 (k : Fin 1024) :
    (StableHlo.after hostOps1 W (Proc.devRef .tc main_v10) : S1x1024.Idx → EReal) (ix2 0 k) = (W (Proc.devRef .tc main_arg9) : S1024.Idx → EReal) (ix1 k) := by
  have e : (StableHlo.after hostOps1 W (Proc.devRef .tc main_v10) : S1x1024.Idx → EReal)
      = shapeCast S1x1024 (W (Proc.devRef .tc main_arg9) : FVec Ideal S1024 .f32) shapeCasts_S1024_S1x1024 := by
    after_results; rfl
  rw [e]; exact shapeCast_a_1a_apply _ _ 0 k

/-! ## Before the third call: the value weights' column made a row, the bias a 1 × 1 matrix -/

theorem hostOps2_v12 (n : Fin 8192) :
    (StableHlo.after hostOps2 W (Proc.devRef .tc main_v12) : S1x8192.Idx → EReal) (ix2 0 n) = (W (Proc.devRef .tc main_arg10) : S8192x1.Idx → EReal) (ix2 n 0) := by
  have e : (StableHlo.after hostOps2 W (Proc.devRef .tc main_v12) : S1x8192.Idx → EReal)
      = shapeCast S1x8192 (W (Proc.devRef .tc main_arg10) : FVec Ideal S8192x1 .f32) shapeCasts_S8192x1_S1x8192 := by
    after_results; rfl
  rw [e]
  refine shapeCast_apply (s := S8192x1) (t := S1x8192) _ _ _ (ix2 n 0) ?_
  rw [Shape.rowMajor_val_two (d := ![8192, 1]), Shape.rowMajor_val_two (d := ![1, 8192])]
  show n.val * 1 + 0 = 0 * 8192 + n.val
  omega

theorem hostOps2_v13 (k : Fin 1) :
    (StableHlo.after hostOps2 W (Proc.devRef .tc main_v13) : S1x1.Idx → EReal) (ix2 0 k) = (W (Proc.devRef .tc main_arg11) : S1.Idx → EReal) (ix1 k) := by
  have e : (StableHlo.after hostOps2 W (Proc.devRef .tc main_v13) : S1x1.Idx → EReal)
      = shapeCast S1x1 (W (Proc.devRef .tc main_arg11) : FVec Ideal S1 .f32) shapeCasts_S1_S1x1 := by
    after_results; rfl
  rw [e]; exact shapeCast_a_1a_apply _ _ 0 k

end Cert.KernelIdeal.Val

end
-- ==== Proof.KernelValue.lean ====
/-
  The kernel's two result arrays as functions of the twelve arguments, at the exact instance. The run of the whole
  program leaves in the logits array what the third call wrote, from the two encoder calls' outputs, which the host
  operations between the calls do not touch; those outputs are the encoder applied to the rows of the narrowed inputs,
  and a narrowing is the identity here. Composing the three calls' index-by-index statements with the host operations'
  gives the specification's function of the arguments.
-/
import proofs.«176400_j46969762349635_1_alg».proof.Proof.KernelIdeal.Whole
import proofs.«176400_j46969762349635_1_alg».proof.Proof.EncValue0
import proofs.«176400_j46969762349635_1_alg».proof.Proof.EncValue1
import proofs.«176400_j46969762349635_1_alg».proof.Proof.CosValue
import proofs.«176400_j46969762349635_1_alg».proof.Proof.HostReads
import proofs.«176400_j46969762349635_1_alg».proof.Proof.Spec
import proofs.«176400_j46969762349635_1_alg».proof.Proof.Gen.KernelIdeal.Regions

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-! ## The arguments at the boundaries the host stretches read them at -/

/-- An argument array still holds its launch contents when the second stretch of host operations reads it: the first
    stretch and the first encoder call write other buffers. -/
theorem W2_arg (c : Dev nD) (r : Ref sig .tc) (h0 : r ∉ hostOps0_W) (hr : ∀ w, Pipeline.arrRef spec0 w ≠ r) :
    W2 m ρ c (Proc.devRef .tc r) = m ((c : Thread nD τ).loc r) :=
  (W2_of_ne m ρ c r hr).trans (StableHlo.after_of_writes_sub hostOps0 _ hostOps0_writes h0)

/-- The same when the third stretch reads it. -/
theorem W4_arg (c : Dev nD) (r : Ref sig .tc) (h0 : r ∉ hostOps0_W) (hr0 : ∀ w, Pipeline.arrRef spec0 w ≠ r)
    (h1 : r ∉ hostOps1_W) (hr1 : ∀ w, Pipeline.arrRef spec1 w ≠ r) :
    W4 m ρ c (Proc.devRef .tc r) = m ((c : Thread nD τ).loc r) :=
  (W4_of_ne m ρ c r hr1).trans ((StableHlo.after_of_writes_sub hostOps1 _ hostOps1_writes h1).trans (W2_arg m ρ c r h0 hr0))

/-! ## The encoders' operands, read at an index, are the arguments -/

theorem V1_v0 (c : Dev nD) (i : S2048x1024.Idx) : (V1 m ρ c main_v0 : S2048x1024.Idx → EReal) i = (m ((c.tc : Thread nD τ).loc main_arg0)) i :=
  hostOps0_v0 (W0 m ρ c) i
theorem V1_v1 (c : Dev nD) (i : S1024x4096.Idx) : (V1 m ρ c main_v1 : S1024x4096.Idx → EReal) i = (m ((c.tc : Thread nD τ).loc main_arg2)) i :=
  hostOps0_v1 (W0 m ρ c) i
theorem V1_v2 (c : Dev nD) (i : S4096x1024.Idx) : (V1 m ρ c main_v2 : S4096x1024.Idx → EReal) i = (m ((c.tc : Thread nD τ).loc main_arg4)) i :=
  hostOps0_v2 (W0 m ρ c) i
theorem V1_v3 (c : Dev nD) (k : Fin 4096) : (V1 m ρ c main_v3 : S1x4096.Idx → EReal) (ix2 0 k) = (m ((c.tc : Thread nD τ).loc main_arg3)) (ix1 k) :=
  hostOps0_v3 (W0 m ρ c) k
theorem V1_v4 (c : Dev nD) (q : Fin 1024) : (V1 m ρ c main_v4 : S1x1024.Idx → EReal) (ix2 0 q) = (m ((c.tc : Thread nD τ).loc main_arg5)) (ix1 q) :=
  hostOps0_v4 (W0 m ρ c) q

theorem V3_v6 (c : Dev nD) (i : S8192x1024.Idx) : (V3 m ρ c main_v6 : S8192x1024.Idx → EReal) i = (m ((c.tc : Thread nD τ).loc main_arg1)) i :=
  (hostOps1_v6 (W2 m ρ c) i).trans (congrFun (W2_arg m ρ c main_arg1 (by decide) (by decide)) i)
theorem V3_v7 (c : Dev nD) (i : S1024x4096.Idx) : (V3 m ρ c main_v7 : S1024x4096.Idx → EReal) i = (m ((c.tc : Thread nD τ).loc main_arg6)) i :=
  (hostOps1_v7 (W2 m ρ c) i).trans (congrFun (W2_arg m ρ c main_arg6 (by decide) (by decide)) i)
theorem V3_v8 (c : Dev nD) (i : S4096x1024.Idx) : (V3 m ρ c main_v8 : S4096x1024.Idx → EReal) i = (m ((c.tc : Thread nD τ).loc main_arg8)) i :=
  (hostOps1_v8 (W2 m ρ c) i).trans (congrFun (W2_arg m ρ c main_arg8 (by decide) (by decide)) i)
theorem V3_v9 (c : Dev nD) (k : Fin 4096) : (V3 m ρ c main_v9 : S1x4096.Idx → EReal) (ix2 0 k) = (m ((c.tc : Thread nD τ).loc main_arg7)) (ix1 k) :=
  (hostOps1_v9 (W2 m ρ c) k).trans (congrFun (W2_arg m ρ c main_arg7 (by decide) (by decide)) (ix1 k))
theorem V3_v10 (c : Dev nD) (q : Fin 1024) : (V3 m ρ c main_v10 : S1x1024.Idx → EReal) (ix2 0 q) = (m ((c.tc : Thread nD τ).loc main_arg9)) (ix1 q) :=
  (hostOps1_v10 (W2 m ρ c) q).trans (congrFun (W2_arg m ρ c main_arg9 (by decide) (by decide)) (ix1 q))

theorem V5_v12 (c : Dev nD) (n : Fin 8192) : (V5 m ρ c main_v12 : S1x8192.Idx → EReal) (ix2 0 n) = (m ((c.tc : Thread nD τ).loc main_arg10)) (ix2 n 0) :=
  (hostOps2_v12 (W4 m ρ c) n).trans (congrFun (W4_arg m ρ c main_arg10 (by decide) (by decide) (by decide) (by decide)) (ix2 n 0))
theorem V5_v13 (c : Dev nD) : (V5 m ρ c main_v13 : S1x1.Idx → EReal) (ix2 0 0) = (m ((c.tc : Thread nD τ).loc main_arg11)) (ix1 0) :=
  (hostOps2_v13 (W4 m ρ c) 0).trans (congrFun (W4_arg m ρ c main_arg11 (by decide) (by decide) (by decide) (by decide)) (ix1 0))

/-! ## The specification's functions depend on their arguments only through their values -/

theorem encRow_congr {x x' : Fin 1024 → EReal} {w1 w1' : Fin 1024 → Fin 4096 → EReal} {b1 b1' : Fin 4096 → EReal}
    {w2 w2' : Fin 4096 → Fin 1024 → EReal} {b2 b2' : Fin 1024 → EReal}
    (hx : ∀ d, x d = x' d) (hw1 : ∀ d k, w1 d k = w1' d k) (hb1 : ∀ k, b1 k = b1' k)
    (hw2 : ∀ k q, w2 k q = w2' k q) (hb2 : ∀ q, b2 q = b2' q) (q : Fin 1024) :
    Cert.Spec.encRow x w1 b1 w2 b2 q = Cert.Spec.encRow x' w1' b1' w2' b2' q := by
  obtain rfl : x = x' := funext hx
  obtain rfl : w1 = w1' := funext fun d => funext fun k => hw1 d k
  obtain rfl : b1 = b1' := funext hb1
  obtain rfl : w2 = w2' := funext fun k => funext fun q => hw2 k q
  obtain rfl : b2 = b2' := funext hb2
  rfl

theorem logit_congr {a a' b b' : Fin 1024 → EReal} (ha : ∀ e, a e = a' e) (hb : ∀ e, b e = b' e) :
    Cert.Spec.logit a b = Cert.Spec.logit a' b' := by
  obtain rfl : a = a' := funext ha
  obtain rfl : b = b' := funext hb
  rfl

theorem valueOf_congr {l l' vw vw' : Fin 8192 → EReal} {vb vb' : EReal} (hl : ∀ n, l n = l' n) (hv : ∀ n, vw n = vw' n)
    (hb : vb = vb') : Cert.Spec.valueOf l vw vb = Cert.Spec.valueOf l' vw' vb' := by
  obtain rfl : l = l' := funext hl
  obtain rfl : vw = vw' := funext hv
  subst hb
  rfl

/-! ## The encoded rows -/

/-- Row p of the normalised messages, as the third call finds it: the encoder of row p of the first argument. -/
theorem msg_row (c : Dev nD) (p : Fin 2048) (e : Fin 1024) :
    (V5 m ρ c main_v5 : S2048x1024.Idx → EReal) (ix2 p e)
      = Cert.Spec.encRow (fun d => (m ((c.tc : Thread nD τ).loc main_arg0)) (ix2 p d)) (fun d k => (m ((c.tc : Thread nD τ).loc main_arg2)) (ix2 d k)) (fun k => (m ((c.tc : Thread nD τ).loc main_arg3)) (ix1 k))
          (fun k q => (m ((c.tc : Thread nD τ).loc main_arg4)) (ix2 k q)) (fun q => (m ((c.tc : Thread nD τ).loc main_arg5)) (ix1 q)) e := by
  rw [V5_v5 m ρ c, enc0_value (V1 m ρ) c p e]
  exact encRow_congr (fun d => V1_v0 m ρ c (ix2 p d)) (fun d k => V1_v1 m ρ c (ix2 d k)) (fun k => V1_v3 m ρ c k)
    (fun k q => V1_v2 m ρ c (ix2 k q)) (fun q => V1_v4 m ρ c q) e

/-- Row n of the normalised candidates: the encoder of row n of the second argument. -/
theorem cand_row (c : Dev nD) (n : Fin 8192) (e : Fin 1024) :
    (V5 m ρ c main_v11 : S8192x1024.Idx → EReal) (ix2 n e)
      = Cert.Spec.encRow (fun d => (m ((c.tc : Thread nD τ).loc main_arg1)) (ix2 n d)) (fun d k => (m ((c.tc : Thread nD τ).loc main_arg6)) (ix2 d k)) (fun k => (m ((c.tc : Thread nD τ).loc main_arg7)) (ix1 k))
          (fun k q => (m ((c.tc : Thread nD τ).loc main_arg8)) (ix2 k q)) (fun q => (m ((c.tc : Thread nD τ).loc main_arg9)) (ix1 q)) e := by
  rw [V5_v11 m ρ c, enc1_value (V3 m ρ) c n e]
  exact encRow_congr (fun d => V3_v6 m ρ c (ix2 n d)) (fun d k => V3_v7 m ρ c (ix2 d k)) (fun k => V3_v9 m ρ c k)
    (fun k q => V3_v8 m ρ c (ix2 k q)) (fun q => V3_v10 m ρ c q) e

/-! ## The two results -/

/-- Entry (p, n) of the logits array at the end of the run. -/
theorem kernel_logits (c : Dev nD) (p : Fin 2048) (n : Fin 8192) :
    (W6 m ρ c (Proc.devRef .tc main_v14_0) : S2048x8192.Idx → EReal) (ix2 p n)
      = Cert.Spec.specLogit (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) p n := by
  rw [W6_out0 m ρ c, cos_logits (V5 m ρ) c p n]
  unfold Cert.Spec.specLogit
  exact logit_congr (fun e => msg_row m ρ c p e) (fun e => cand_row m ρ c n e)

/-- Entry p of the value column at the end of the run. -/
theorem kernel_value (c : Dev nD) (p : Fin 2048) :
    (W6 m ρ c (Proc.devRef .tc main_v14_1) : S2048x1.Idx → EReal) (ix2 p 0)
      = Cert.Spec.specValue (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) p := by
  rw [W6_out1 m ρ c, cos_value (V5 m ρ) c p]
  unfold Cert.Spec.specValue Cert.Spec.specLogit
  exact valueOf_congr (fun n => logit_congr (fun e => msg_row m ρ c p e) (fun e => cand_row m ρ c n e))
    (fun n => V5_v12 m ρ c n) (V5_v13 m ρ c)

/-! ## The run, with both results and the arguments read off the last boundary -/

theorem run_values : θ_run (defs (F := Ideal)) (onTc (τ := τ) (main (F := Ideal))) ⟨m, fun _ => 0, ρ⟩ (fun r => ∀ c : Dev nD,
      r.2.mem ((c.tc : Thread nD τ).loc main_v14_0) = W6 m ρ c (Proc.devRef .tc main_v14_0)
      ∧ r.2.mem ((c.tc : Thread nD τ).loc main_v14_1) = W6 m ρ c (Proc.devRef .tc main_v14_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨h c _ (mem_uc main_v14_0 (by decide)), h c _ (mem_uc main_v14_1 (by decide)),
      (h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c),
      (h c _ (mem_uc main_arg7 (by decide))).trans (W6_main_arg7 m ρ c),
      (h c _ (mem_uc main_arg8 (by decide))).trans (W6_main_arg8 m ρ c),
      (h c _ (mem_uc main_arg9 (by decide))).trans (W6_main_arg9 m ρ c),
      (h c _ (mem_uc main_arg10 (by decide))).trans (W6_main_arg10 m ρ c),
      (h c _ (mem_uc main_arg11 (by decide))).trans (W6_main_arg11 m ρ c)⟩)
    (run_all (F := Ideal) m ρ)

end Cert.KernelIdeal.Val

end
-- ==== Proof.RefValue.lean ====
/-
  The reference program's two results, read at an index, at the exact instance: entry (p, n) of its first result is
  the logit of the encoded row p of the first argument against the encoded row n of the second, and entry p of its
  second result the logistic of the weighted row sum plus the bias — the functions of the twelve argument arrays the
  specification names.
-/
import proofs.«176400_j46969762349635_1_alg».proof.Proof.Gen.ReferenceIdeal.Run
import proofs.«176400_j46969762349635_1_alg».proof.Proof.Gen.ReferenceIdeal.Read
import proofs.«176400_j46969762349635_1_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Value Cert.ReferenceIdeal.Read
open Idealize.ShloMosaic Idealize.ShloMosaic.TcCoe Idealize.ShloMosaic.ValueIdx
open Idealize.SL Idealize.SL.Sem

/-! ## The message encoder: the first layer, the second layer, the normalisation -/

section Message

variable (x0 : (⟨S2048x1024, .f32⟩ : BufTy).Contents (Elt Ideal)) (x2 : (⟨S1024x4096, .f32⟩ : BufTy).Contents (Elt Ideal))
  (x3 : (⟨S4096, .f32⟩ : BufTy).Contents (Elt Ideal)) (x4 : (⟨S4096x1024, .f32⟩ : BufTy).Contents (Elt Ideal))
  (x5 : (⟨S1024, .f32⟩ : BufTy).Contents (Elt Ideal))

theorem lidx_hid_msg (p : Fin 2048) (k : Fin 4096) (d : Fin 1024) : lidx_main_v0 (ix2 p k) d = ix2 p d :=
  funext fun a => by match a with | ⟨0, _⟩ => rfl | ⟨1, _⟩ => rfl
theorem ridx_hid_msg (p : Fin 2048) (k : Fin 4096) (d : Fin 1024) : ridx_main_v0 (ix2 p k) d = ix2 d k :=
  funext fun a => by match a with | ⟨0, _⟩ => rfl | ⟨1, _⟩ => rfl
theorem idx_bias1_msg (p : Fin 2048) (k : Fin 4096) : idx_main_v1 (idx_main_v2 (ix2 p k)) = ix1 k :=
  funext fun a => by match a with | ⟨0, _⟩ => rfl

/-- The rectified first layer at (p, k) is hidden unit k of row p. -/
theorem hid_msg (p : Fin 2048) (k : Fin 4096) :
    (val_main_v4 (F := Ideal) x0 x2 x3 : S2048x4096.Idx → EReal) (ix2 p k)
      = Cert.Spec.hid (fun d => x0 (ix2 p d)) (fun d k => x2 (ix2 d k)) (fun k => x3 (ix1 k)) k := by
  rw [val_main_v4_apply, val_main_v3_apply, val_main_v0_apply, val_main_v2_apply, val_main_v1_apply,
    val_main_call0_v0_apply, val_main_call0_cst_apply]
  simp only [lidx_hid_msg, ridx_hid_msg, idx_bias1_msg, Ideal.maximumf_def, Ideal.addf_def, Ideal.ofBits_def,
    Ideal.ofBits_zero_f32]
  rfl

theorem lidx_pre_msg (p : Fin 2048) (q : Fin 1024) (k : Fin 4096) : lidx_main_v5 (ix2 p q) k = ix2 p k :=
  funext fun a => by match a with | ⟨0, _⟩ => rfl | ⟨1, _⟩ => rfl
theorem ridx_pre_msg (p : Fin 2048) (q : Fin 1024) (k : Fin 4096) : ridx_main_v5 (ix2 p q) k = ix2 k q :=
  funext fun a => by match a with | ⟨0, _⟩ => rfl | ⟨1, _⟩ => rfl
theorem idx_bias2_msg (p : Fin 2048) (q : Fin 1024) : idx_main_v6 (idx_main_v7 (ix2 p q)) = ix1 q :=
  funext fun a => by match a with | ⟨0, _⟩ => rfl

/-- The second layer at (p, q) is output unit q of row p before the normalisation. -/
theorem pre_msg (p : Fin 2048) (q : Fin 1024) :
    (val_main_v8 (F := Ideal) x0 x2 x3 x4 x5 : S2048x1024.Idx → EReal) (ix2 p q)
      = Cert.Spec.pre (fun d => x0 (ix2 p d)) (fun d k => x2 (ix2 d k)) (fun k => x3 (ix1 k)) (fun k q => x4 (ix2 k q)) (fun q => x5 (ix1 q)) q := by
  rw [val_main_v8_apply, val_main_v5_apply, val_main_v7_apply, val_main_v6_apply]
  simp only [lidx_pre_msg, ridx_pre_msg, idx_bias2_msg, hid_msg, Ideal.addf_def]
  rfl

theorem idx_norm_msg (p : Fin 2048) (q e : Fin 1024) :
    idx_main_call2_v1 (idx_main_call2_v2 (idx_main_v21 (ix2 p q))) e = ix2 p e :=
  funext fun a => by match a with | ⟨0, _⟩ => rfl | ⟨1, _⟩ => rfl

/-- The normalised row at (p, q) is output unit q of the encoded row p. -/
theorem enc_msg (p : Fin 2048) (q : Fin 1024) :
    (val_main_v22 (F := Ideal) x0 x2 x3 x4 x5 : S2048x1024.Idx → EReal) (ix2 p q)
      = Cert.Spec.encRow (fun d => x0 (ix2 p d)) (fun d k => x2 (ix2 d k)) (fun k => x3 (ix1 k)) (fun k q => x4 (ix2 k q)) (fun q => x5 (ix1 q)) q := by
  rw [val_main_v22_apply, val_main_v21_apply, val_main_v20_apply, val_main_v18_apply, val_main_call2_v2_apply,
    val_main_call2_v1_apply, val_main_call2_cst_apply, val_main_v19_apply, val_main_cst_apply]
  simp only [val_main_call2_v0_apply, idx_norm_msg, pre_msg, Ideal.hostDivf_def, Ideal.maximumf_def,
    Ideal.hostUnary_sqrt_def, Ideal.mulf_def, Ideal.ofBits_def, Ideal.ofBits_zero_f32, zero_add]
  rfl

end Message

/-! ## The candidate encoder: the same three stages on the second argument's rows -/

section Candidate

variable (x1 : (⟨S8192x1024, .f32⟩ : BufTy).Contents (Elt Ideal)) (x6 : (⟨S1024x4096, .f32⟩ : BufTy).Contents (Elt Ideal))
  (x7 : (⟨S4096, .f32⟩ : BufTy).Contents (Elt Ideal)) (x8 : (⟨S4096x1024, .f32⟩ : BufTy).Contents (Elt Ideal))
  (x9 : (⟨S1024, .f32⟩ : BufTy).Contents (Elt Ideal))

theorem lidx_hid_cand (p : Fin 8192) (k : Fin 4096) (d : Fin 1024) : lidx_main_v9 (ix2 p k) d = ix2 p d :=
  funext fun a => by match a with | ⟨0, _⟩ => rfl | ⟨1, _⟩ => rfl
theorem ridx_hid_cand (p : Fin 8192) (k : Fin 4096) (d : Fin 1024) : ridx_main_v9 (ix2 p k) d = ix2 d k :=
  funext fun a => by match a with | ⟨0, _⟩ => rfl | ⟨1, _⟩ => rfl
theorem idx_bias1_cand (p : Fin 8192) (k : Fin 4096) : idx_main_v10 (idx_main_v11 (ix2 p k)) = ix1 k :=
  funext fun a => by match a with | ⟨0, _⟩ => rfl

/-- The rectified first layer at (p, k) is hidden unit k of row p. -/
theorem hid_cand (p : Fin 8192) (k : Fin 4096) :
    (val_main_v13 (F := Ideal) x1 x6 x7 : S8192x4096.Idx → EReal) (ix2 p k)
      = Cert.Spec.hid (fun d => x1 (ix2 p d)) (fun d k => x6 (ix2 d k)) (fun k => x7 (ix1 k)) k := by
  rw [val_main_v13_apply, val_main_v12_apply, val_main_v9_apply, val_main_v11_apply, val_main_v10_apply,
    val_main_call1_v0_apply, val_main_call1_cst_apply]
  simp only [lidx_hid_cand, ridx_hid_cand, idx_bias1_cand, Ideal.maximumf_def, Ideal.addf_def, Ideal.ofBits_def,
    Ideal.ofBits_zero_f32]
  rfl

theorem lidx_pre_cand (p : Fin 8192) (q : Fin 1024) (k : Fin 4096) : lidx_main_v14 (ix2 p q) k = ix2 p k :=
  funext fun a => by match a with | ⟨0, _⟩ => rfl | ⟨1, _⟩ => rfl
theorem ridx_pre_cand (p : Fin 8192) (q : Fin 1024) (k : Fin 4096) : ridx_main_v14 (ix2 p q) k = ix2 k q :=
  funext fun a => by match a with | ⟨0, _⟩ => rfl | ⟨1, _⟩ => rfl
theorem idx_bias2_cand (p : Fin 8192) (q : Fin 1024) : idx_main_v15 (idx_main_v16 (ix2 p q)) = ix1 q :=
  funext fun a => by match a with | ⟨0, _⟩ => rfl

/-- The second layer at (p, q) is output unit q of row p before the normalisation. -/
theorem pre_cand (p : Fin 8192) (q : Fin 1024) :
    (val_main_v17 (F := Ideal) x1 x6 x7 x8 x9 : S8192x1024.Idx → EReal) (ix2 p q)
      = Cert.Spec.pre (fun d => x1 (ix2 p d)) (fun d k => x6 (ix2 d k)) (fun k => x7 (ix1 k)) (fun k q => x8 (ix2 k q)) (fun q => x9 (ix1 q)) q := by
  rw [val_main_v17_apply, val_main_v14_apply, val_main_v16_apply, val_main_v15_apply]
  simp only [lidx_pre_cand, ridx_pre_cand, idx_bias2_cand, hid_cand, Ideal.addf_def]
  rfl

theorem idx_norm_cand (p : Fin 8192) (q e : Fin 1024) :
    idx_main_call3_v1 (idx_main_call3_v2 (idx_main_v26 (ix2 p q))) e = ix2 p e :=
  funext fun a => by match a with | ⟨0, _⟩ => rfl | ⟨1, _⟩ => rfl

/-- The normalised row at (p, q) is output unit q of the encoded row p. -/
theorem enc_cand (p : Fin 8192) (q : Fin 1024) :
    (val_main_v27 (F := Ideal) x1 x6 x7 x8 x9 : S8192x1024.Idx → EReal) (ix2 p q)
      = Cert.Spec.encRow (fun d => x1 (ix2 p d)) (fun d k => x6 (ix2 d k)) (fun k => x7 (ix1 k)) (fun k q => x8 (ix2 k q)) (fun q => x9 (ix1 q)) q := by
  rw [val_main_v27_apply, val_main_v26_apply, val_main_v25_apply, val_main_v23_apply, val_main_call3_v2_apply,
    val_main_call3_v1_apply, val_main_call3_cst_apply, val_main_v24_apply, val_main_cst_0_apply]
  simp only [val_main_call3_v0_apply, idx_norm_cand, pre_cand, Ideal.hostDivf_def, Ideal.maximumf_def,
    Ideal.hostUnary_sqrt_def, Ideal.mulf_def, Ideal.ofBits_def, Ideal.ofBits_zero_f32, zero_add]
  rfl

end Candidate

/-! ## The logits and the value -/

section Results

variable (x0 : (⟨S2048x1024, .f32⟩ : BufTy).Contents (Elt Ideal)) (x1 : (⟨S8192x1024, .f32⟩ : BufTy).Contents (Elt Ideal))
  (x2 : (⟨S1024x4096, .f32⟩ : BufTy).Contents (Elt Ideal)) (x3 : (⟨S4096, .f32⟩ : BufTy).Contents (Elt Ideal))
  (x4 : (⟨S4096x1024, .f32⟩ : BufTy).Contents (Elt Ideal)) (x5 : (⟨S1024, .f32⟩ : BufTy).Contents (Elt Ideal))
  (x6 : (⟨S1024x4096, .f32⟩ : BufTy).Contents (Elt Ideal)) (x7 : (⟨S4096, .f32⟩ : BufTy).Contents (Elt Ideal))
  (x8 : (⟨S4096x1024, .f32⟩ : BufTy).Contents (Elt Ideal)) (x9 : (⟨S1024, .f32⟩ : BufTy).Contents (Elt Ideal))
  (x10 : (⟨S8192x1, .f32⟩ : BufTy).Contents (Elt Ideal)) (x11 : (⟨S1, .f32⟩ : BufTy).Contents (Elt Ideal))

theorem lidx_logit (p : Fin 2048) (n : Fin 8192) (e : Fin 1024) : lidx_main_v29 (ix2 p n) e = ix2 p e :=
  funext fun a => by match a with | ⟨0, _⟩ => rfl | ⟨1, _⟩ => rfl
theorem ridx_logit (p : Fin 2048) (n : Fin 8192) (e : Fin 1024) : idx_main_v28 (ridx_main_v29 (ix2 p n) e) = ix2 n e :=
  funext fun a => by match a with | ⟨0, _⟩ => rfl | ⟨1, _⟩ => rfl

/-- The scaled, shifted product of the two encoded arrays at (p, n) is the logit of row p against row n. -/
theorem logit_eq (p : Fin 2048) (n : Fin 8192) :
    (val_main_v33 (F := Ideal) x0 x1 x2 x3 x4 x5 x6 x7 x8 x9 : S2048x8192.Idx → EReal) (ix2 p n)
      = Cert.Spec.specLogit x0 x1 x2 x3 x4 x5 x6 x7 x8 x9 p n := by
  rw [val_main_v33_apply, val_main_v31_apply, val_main_v30_apply, val_main_cst_1_apply, val_main_v32_apply,
    val_main_cst_2_apply, val_main_v29_apply]
  simp only [val_main_v28_apply, lidx_logit, ridx_logit, enc_msg, enc_cand, Ideal.mulf_def, Ideal.addf_def, Ideal.ofBits_def]
  rfl

theorem lidx_value (p : Fin 2048) (n : Fin 8192) : lidx_main_v34 (ix2 p 0) n = ix2 p n :=
  funext fun a => by match a with | ⟨0, _⟩ => rfl | ⟨1, _⟩ => rfl
theorem ridx_value (p : Fin 2048) (n : Fin 8192) : ridx_main_v34 (ix2 p 0) n = ix2 n 0 :=
  funext fun a => by match a with | ⟨0, _⟩ => rfl | ⟨1, _⟩ => rfl
theorem idx_vbias (p : Fin 2048) : idx_main_v35 (idx_main_v36 (ix2 p 0)) = ix1 0 :=
  funext fun a => by match a with | ⟨0, _⟩ => rfl

/-- One over one plus the exponential of minus the biased weighted row sum is the value of row p. -/
theorem value_eq (p : Fin 2048) :
    (val_main_v43 (F := Ideal) x0 x1 x2 x3 x4 x5 x6 x7 x8 x9 x10 x11 : S2048x1.Idx → EReal) (ix2 p 0)
      = Cert.Spec.specValue x0 x1 x2 x3 x4 x5 x6 x7 x8 x9 x10 x11 p := by
  rw [val_main_v43_apply, val_main_v42_apply, val_main_cst_4_apply, val_main_v41_apply, val_main_v40_apply,
    val_main_cst_3_apply, val_main_v39_apply, val_main_v38_apply, val_main_v37_apply, val_main_v36_apply,
    val_main_v35_apply, val_main_v34_apply]
  simp only [lidx_value, ridx_value, idx_vbias, logit_eq, Ideal.hostDivf_def, Ideal.addf_def, Ideal.hostUnary_exp_def,
    Ideal.hostNegf_def, Ideal.negf_def, Ideal.ofBits_def, Ideal.ofBits_one_f32]
  rfl

end Results

variable (m : (ℓ : Loc nD τ sig) → Buf (Elt Ideal) ℓ)

/-- Entry (p, n) of the reference's first result. -/
theorem ref_logits (c : Dev nD) (p : Fin 2048) (n : Fin 8192) :
    (res_main_v33 (F := Ideal) m c : S2048x8192.Idx → EReal) (ix2 p n)
      = Cert.Spec.specLogit (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) p n :=
  (congrFun (val_main_v33_eq (F := Ideal) m c) (ix2 p n)).trans (logit_eq _ _ _ _ _ _ _ _ _ _ p n)

/-- Entry p of the reference's second result. -/
theorem ref_value (c : Dev nD) (p : Fin 2048) :
    (res_main_v43 (F := Ideal) m c : S2048x1.Idx → EReal) (ix2 p 0)
      = Cert.Spec.specValue (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11)) p :=
  (congrFun (val_main_v43_eq (F := Ideal) m c) (ix2 p 0)).trans (value_eq _ _ _ _ _ _ _ _ _ _ _ _ p)

end Cert.ReferenceIdeal.RefValue

end
-- ==== Proof.lean ====
/-
  The five claims. Both programs compute, from the same twelve arrays, the logits (1 + ⟨enc(message row p), enc(candidate
  row n)⟩)·½ and the values logistic(Σ_n logit(p, n)·v_n + bias), where enc is a two-layer perceptron followed by a row
  normalisation. The kernel does it in three calls: two encoder calls over row blocks, then a call over a 4 × 4 grid of
  (message block, candidate block) pairs that writes the logits block and accumulates the value's sum over the four
  candidate blocks in a scratch column. Each call's frame is proved from its body's run at every grid point; the
  program's run threads the buffer contents through the host operations and the three calls. At the exact instance every
  change of float format is the identity, the matrix products and reductions are finite sums over the extended reals, the
  logistic function is by definition 1 / (1 + exp(−x)), and the sum over 8192 candidates regroups as four sums over 2048:
  sums in a commutative monoid, so no finiteness of the inputs is used. The kernel's idealization rewrote nothing, so
  the preservation claim is trivial.
-/
import proofs.«176400_j46969762349635_1_alg».proof.Defs
import proofs.«176400_j46969762349635_1_alg».proof.Proof.Gen.Kernel
import proofs.«176400_j46969762349635_1_alg».proof.Proof.Gen.KernelIdeal
import proofs.«176400_j46969762349635_1_alg».proof.Proof.Gen.ReferenceIdeal
import proofs.«176400_j46969762349635_1_alg».proof.Proof.Gen.Pre_finite_inputs
import proofs.«176400_j46969762349635_1_alg».proof.Proof.Gen.ReferenceIdeal.Run
import proofs.«176400_j46969762349635_1_alg».proof.Proof.Kernel.Whole
import proofs.«176400_j46969762349635_1_alg».proof.Proof.KernelIdeal.Whole
import proofs.«176400_j46969762349635_1_alg».proof.Proof.KernelValue
import proofs.«176400_j46969762349635_1_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel runs to the end, faults nowhere and leaves its arguments as launched. -/
theorem frame_k : Cert.frame_Kernel := fun m ρ _ => Cert.Kernel.Hand.frame m ρ

/-- The same for the kernel read at the exact instance. -/
theorem frame_ki : Cert.frame_KernelIdeal := fun m ρ _ => Cert.KernelIdeal.Hand.frame m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the twelve arguments both programs end with the same two arrays: entry by entry each is
    the specification's function of the arguments. -/
theorem algebraic : Cert.algebraic_KernelIdeal_ReferenceIdeal := by
  intro m ρ m' ρ' _ hagree
  refine ⟨fun c => Cert.KernelIdeal.Hand.W6 m ρ c (Proc.devRef .tc Cert.KernelIdeal.main_v14_0),
    fun c => Cert.KernelIdeal.Hand.W6 m ρ c (Proc.devRef .tc Cert.KernelIdeal.main_v14_1),
    Cert.KernelIdeal.Val.run_values m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · funext i
    obtain ⟨p, n, rfl⟩ : ∃ (p : Fin 2048) (n : Fin 8192), i = ix2 p n := ⟨i 0, i 1, eq_ix2 i⟩
    refine (Cert.ReferenceIdeal.RefValue.ref_logits m' c p n).trans ?_
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1]
    exact (Cert.KernelIdeal.Val.kernel_logits m ρ c p n).symm
  · funext i
    obtain ⟨p, z, rfl⟩ : ∃ (p : Fin 2048) (z : Fin 1), i = ix2 p z := ⟨i 0, i 1, eq_ix2 i⟩
    obtain rfl : z = 0 := Subsingleton.elim _ _
    refine (Cert.ReferenceIdeal.RefValue.ref_value m' c p).trans ?_
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2.1, (hagree c).2.2.2.2.2.2.2.2.2.2.2]
    exact (Cert.KernelIdeal.Val.kernel_value m ρ c p).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
